-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x16x16 : Shape := ⟨3, ![2, 16, 16]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x16x16 : S_.BroadcastsInDim S2x16x16 (![] : Fin 0 → Fin S2x16x16.rank)
  reducesTo_S2x16x16_S_d0_1_2 : S2x16x16.ReducesTo [0, 1, 2] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S2x16x16 .f32) (main_arg13 : FVec F S32x10 .f32) (main_arg14 : FVec F S10 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S2x16x16 .f32 := Host.absf main_arg12
  let main_cst_20 : FVec F S_ .f32 := constant S_ .f32 0x7F800000#32
  let main_v55 : FVec F S2x16x16 .f32 := broadcastInDim S2x16x16 ![] bcast_S_S2x16x16 main_cst_20
  let main_v56 : IVec S2x16x16 1 := cmpf .olt main_v54 main_v55
  let main_c_21 : IVec S_ 1 := constantI S_ 1 1#1
  let main_v57 : IVec S_ 1 := (fun x v => Host.reduce IntOp.andi x v reducesTo_S2x16x16_S_d0_1_2 h_S_) main_v56 main_c_21
  let main_v58 : IVec S_ 1 := andi main_v53 main_v57
  let main_v59 : FVec F S32x10 .f32 := Host.absf main_arg13
  let main_cst_22 : FVec F S_ .f32 := constant S_ .f32 0x7F800000#32
  let main_v60 : FVec F S32x10 .f32 := broadcastInDim S32x10 ![] bcast_S_S32x10 main_cst_22
  let main_v61 : IVec S32x10 1 := cmpf .olt main_v59 main_v60
  let main_c_23 : IVec S_ 1 := constantI S_ 1 1#1
  let main_v62 : IVec S_ 1 := (fun x v => Host.reduce IntOp.andi x v reducesTo_S32x10_S_d0_1 h_S_) main_v61 main_c_23
  let main_v63 : IVec S_ 1 := andi main_v58 main_v62
  let main_v64 : FVec F S10 .f32 := Host.absf main_arg14
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg8 : FVec F S64x64 .f32) (main_arg9 : FVec F S64x64 .f32) (main_arg10 : FVec F S64x1 .f32) (main_arg11 : FVec F S1 .f32) (main_arg12 : FVec F S2x16x16 .f32) (main_arg13 : FVec F S32x10 .f32) (main_arg14 : FVec F S10 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_v48 main_v49 main_v50

def fn_part1 {F : FTy → Type} [FloatOps F] (main_arg5 : FVec F S64 .f32) (main_arg6 : FVec F S64x64 .f32) (main_arg7 : FVec F S64x64 .f32) (main_arg8 : FVec F S64x64 .f32) (main_arg9 : FVec F S64x64 .f32) (main_arg10 : FVec F S64x1 .f32) (main_arg11 : FVec F S1 .f32) (main_arg12 : FVec F S2x16x16 .f32) (main_arg13 : FVec F S32x10 .f32) (main_arg14 : FVec F S10 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S128x32 .f32) (main_arg3 : FVec F S32 .f32) (main_arg4 : FVec F S32x64 .f32) (main_arg5 : FVec F S64 .f32) (main_arg6 : FVec F S64x64 .f32) (main_arg7 : FVec F S64x64 .f32) (main_arg8 : FVec F S64x64 .f32) (main_arg9 : FVec F S64x64 .f32) (main_arg10 : FVec F S64x1 .f32) (main_arg11 : FVec F S1 .f32) (main_arg12 : FVec F S2x16x16 .f32) (main_arg13 : FVec F S32x10 .f32) (main_arg14 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x16x16 : Shape := ⟨3, ![2, 16, 16]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S100000x32 : Shape := ⟨2, ![100000, 32]⟩
abbrev S100000x64 : Shape := ⟨2, ![100000, 64]⟩
abbrev S10000x128 : Shape := ⟨2, ![10000, 128]⟩
abbrev S10000x32 : Shape := ⟨2, ![10000, 32]⟩
abbrev S10000x64 : Shape := ⟨2, ![10000, 64]⟩
abbrev S1x32 : Shape := ⟨2, ![1, 32]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S100000x2 : Shape := ⟨2, ![100000, 2]⟩
abbrev S10000x2 : Shape := ⟨2, ![10000, 2]⟩
abbrev S10000x1 : Shape := ⟨2, ![10000, 1]⟩
abbrev S1x1 : Shape := ⟨2, ![1, 1]⟩
abbrev S100000 : Shape := ⟨1, ![100000]⟩
abbrev S1600000x2 : Shape := ⟨2, ![1600000, 2]⟩
abbrev S100000x2x16 : Shape := ⟨3, ![100000, 2, 16]⟩
abbrev S1600000x2x16 : Shape := ⟨3, ![1600000, 2, 16]⟩
abbrev S1600000x1x16 : Shape := ⟨3, ![1600000, 1, 16]⟩
abbrev S1600000x16 : Shape := ⟨2, ![1600000, 16]⟩
abbrev S1x16x16 : Shape := ⟨3, ![1, 16, 16]⟩
abbrev S16x16 : Shape := ⟨2, ![16, 16]⟩
abbrev S10000x2x16 : Shape := ⟨3, ![10000, 2, 16]⟩
abbrev S20000x16 : Shape := ⟨2, ![20000, 16]⟩
abbrev S100000x10 : Shape := ⟨2, ![100000, 10]⟩
abbrev S10000x10 : Shape := ⟨2, ![10000, 10]⟩
abbrev S1x10 : Shape := ⟨2, ![1, 10]⟩

abbrev nBuf : Space → Nat
  | .hbm => 182
  | .vmem => 44
  | .smem => 0
  | _ => 0

abbrev hbmTy0_0 (i : Nat) : BufTy := match i % 128 with
  | 0 => ⟨S100000x128, .f32⟩
  | 1 => ⟨S2x1600000, .i32⟩
  | 2 => ⟨S128x32, .f32⟩
  | 3 => ⟨S32, .f32⟩
  | 4 => ⟨S32x64, .f32⟩
  | 5 => ⟨S64, .f32⟩
  | 6 => ⟨S64x64, .f32⟩
  | 7 => ⟨S64x64, .f32⟩
  | 8 => ⟨S64x64, .f32⟩
  | 9 => ⟨S64x64, .f32⟩
  | 10 => ⟨S64x1, .f32⟩
  | 11 => ⟨S1, .f32⟩
  | 12 => ⟨S2x16x16, .f32⟩
  | 13 => ⟨S32x10, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S100000x32, .f32⟩
  | 20 => ⟨S100000x64, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S100000x2, .f32⟩
  | 49 => ⟨S_, .f32⟩
  | 50 => ⟨S1600000, .f32⟩
  | 51 => ⟨S_, .f32⟩
  | 52 => ⟨S100000, .f32⟩
  | 53 => ⟨S1600000x1, .i32⟩
  | 54 => ⟨S100000, .f32⟩
  | 55 => ⟨S_, .f32⟩
  | 56 => ⟨S100000, .f32⟩
  | 57 => ⟨S100000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000, .f32⟩
  | 76 => ⟨S1600000, .f32⟩
  | 77 => ⟨S1600000, .f32⟩
  | 78 => ⟨S1600000x1, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x2, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x2, .f32⟩
  | 97 => ⟨S1600000x1, .f32⟩
  | 98 => ⟨S1600000x1, .f32⟩
  | 99 => ⟨S1600000x1, .f32⟩
  | 100 => ⟨S1600000x1, .f32⟩
  | 101 => ⟨S1600000x1, .f32⟩
  | 102 => ⟨S1600000x1, .f32⟩
  | 103 => ⟨S1600000x1, .f32⟩
  | 104 => ⟨S1600000x1, .f32⟩
  | 105 => ⟨S1600000x1, .f32⟩
  | 106 => ⟨S1600000x1, .f32⟩
  | 107 => ⟨S100000x2x16, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x2x16, .f32⟩
  | 117 => ⟨S1600000x1x16, .f32⟩
  | 118 => ⟨S1600000x16, .f32⟩
  | 119 => ⟨S1600000x1x16, .f32⟩
  | 120 => ⟨S1600000x16, .f32⟩
  | 121 => ⟨S1600000x16, .f32⟩
  | 122 => ⟨S1600000x16, .f32⟩
  | 123 => ⟨S1600000x16, .f32⟩
  | 124 => ⟨S1600000x16, .f32⟩
  | 125 => ⟨S1600000x16, .f32⟩
  | 126 => ⟨S1600000x16, .f32⟩
  | 127 => ⟨S1600000x16, .f32⟩
  | _ => ⟨S100000x128, .f32⟩

abbrev hbmTy0_1 (i : Nat) : BufTy := match i % 128 with
  | 0 => ⟨S1600000x16, .f32⟩
  | 1 => ⟨S1600000x16, .f32⟩
  | 2 => ⟨S1600000x16, .f32⟩
  | 3 => ⟨S1600000x16, .f32⟩
  | 4 => ⟨S1600000x16, .f32⟩
  | 5 => ⟨S1600000x16, .f32⟩
  | 6 => ⟨S1600000x16, .f32⟩
  | 7 => ⟨S1600000x1x16, .f32⟩
  | 8 => ⟨S1600000x1x16, .f32⟩
  | 9 => ⟨S1600000x2x16, .f32⟩
  | 10 => ⟨S_, .f32⟩
  | 11 => ⟨S100000x2x16, .f32⟩
  | 12 => ⟨S1600000x1, .i32⟩
  | 13 => ⟨S100000x2x16, .f32⟩
  | 14 => ⟨S1x16x16, .f32⟩
  | 15 => ⟨S16x16, .f32⟩
  | 16 => ⟨S100000x2x16, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x2x16, .f32⟩
  | 26 => ⟨S1600000x1x16, .f32⟩
  | 27 => ⟨S1600000x16, .f32⟩
  | 28 => ⟨S1600000x1x16, .f32⟩
  | 29 => ⟨S1600000x16, .f32⟩
  | 30 => ⟨S1600000x16, .f32⟩
  | 31 => ⟨S1600000x16, .f32⟩
  | 32 => ⟨S1600000x16, .f32⟩
  | 33 => ⟨S1600000x16, .f32⟩
  | 34 => ⟨S1600000x16, .f32⟩
  | 35 => ⟨S1600000x16, .f32⟩
  | 36 => ⟨S1600000x16, .f32⟩
  | 37 => ⟨S1600000x16, .f32⟩
  | 38 => ⟨S1600000x16, .f32⟩
  | 39 => ⟨S1600000x16, .f32⟩
  | 40 => ⟨S1600000x16, .f32⟩
  | 41 => ⟨S1600000x16, .f32⟩
  | 42 => ⟨S1600000x16, .f32⟩
  | 43 => ⟨S1600000x16, .f32⟩
  | 44 => ⟨S1600000x1x16, .f32⟩
  | 45 => ⟨S1600000x1x16, .f32⟩
  | 46 => ⟨S1600000x2x16, .f32⟩
  | 47 => ⟨S_, .f32⟩
  | 48 => ⟨S100000x2x16, .f32⟩
  | 49 => ⟨S1600000x1, .i32⟩
  | 50 => ⟨S100000x2x16, .f32⟩
  | 51 => ⟨S1x16x16, .f32⟩
  | 52 => ⟨S16x16, .f32⟩
  | 53 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S32, .f32⟩
  | .local _ .vmem, ⟨4, _⟩ => ⟨S32x64, .f32⟩
  | .local _ .vmem, ⟨5, _⟩ => ⟨S64, .f32⟩
  | .local _ .vmem, ⟨6, _⟩ => ⟨S10000x32, .f32⟩
  | .local _ .vmem, ⟨7, _⟩ => ⟨S10000x32, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S64x1, .f32⟩
  | .local _ .vmem, ⟨25, _⟩ => ⟨S1, .f32⟩
  | .local _ .vmem, ⟨26, _⟩ => ⟨S10000x2, .f32⟩
  | .local _ .vmem, ⟨27, _⟩ => ⟨S10000x2, .f32⟩
  | .local _ .vmem, ⟨28, _⟩ => ⟨S10000x2x16, .f32⟩
  | .local _ .vmem, ⟨29, _⟩ => ⟨S10000x2x16, .f32⟩
  | .local _ .vmem, ⟨30, _⟩ => ⟨S10000x2x16, .f32⟩
  | .local _ .vmem, ⟨31, _⟩ => ⟨S10000x2x16, .f32⟩
  | .local _ .vmem, ⟨32, _⟩ => ⟨S16x16, .f32⟩
  | .local _ .vmem, ⟨33, _⟩ => ⟨S10000x2x16, .f32⟩
  | .local _ .vmem, ⟨34, _⟩ => ⟨S10000x2x16, .f32⟩
  | .local _ .vmem, ⟨35, _⟩ => ⟨S10000x2x16, .f32⟩
  | .local _ .vmem, ⟨36, _⟩ => ⟨S10000x2x16, .f32⟩
  | .local _ .vmem, ⟨37, _⟩ => ⟨S10000x2x16, .f32⟩
  | .local _ .vmem, ⟨38, _⟩ => ⟨S10000x2x16, .f32⟩
  | .local _ .vmem, ⟨39, _⟩ => ⟨S16x16, .f32⟩
  | .local _ .vmem, ⟨40, _⟩ => ⟨S32x10, .f32⟩
  | .local _ .vmem, ⟨41, _⟩ => ⟨S10, .f32⟩
  | .local _ .vmem, ⟨42, _⟩ => ⟨S10000x10, .f32⟩
  | .local _ .vmem, ⟨43, _⟩ => ⟨S10000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_15 : Ref sig .tc := ⟨.hbm, 108, rfl⟩
abbrev main_v75 : Ref sig .tc := ⟨.hbm, 109, rfl⟩
abbrev main_v76 : Ref sig .tc := ⟨.hbm, 110, rfl⟩
abbrev main_c_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_17 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_18 : Ref sig .tc := ⟨.hbm, 145, rfl⟩
abbrev main_v109 : Ref sig .tc := ⟨.hbm, 146, rfl⟩
abbrev main_v110 : Ref sig .tc := ⟨.hbm, 147, rfl⟩
abbrev main_c_19 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_20 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem3_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S10000x2x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x2x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x2x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x2x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x2x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x10 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  concatenates_S10000x1_S10000x1_S10000x2_d1 : Shape.Concatenates [S10000x1, S10000x1] S10000x2 1
  inb_S10000x2_S10000x2_0_0 : ∀ a, (![0, 0] : Fin 2 → Nat) a + S10000x2.size a ≤ S10000x2.size a
  h_S10000x2 : 0 < S10000x2.numel
  bcast_S_S100000 : S_.BroadcastsInDim S100000 (![] : Fin 0 → Fin S100000.rank)
  slices_S1600000x2_S1600000x1_0_0 : S1600000x2.Slices ![0, 0] S1600000x1
  slices_S1600000x2_S1600000x1_0_1 : S1600000x2.Slices ![0, 1] S1600000x1
  shapeCasts_S100000x32_S100000x2x16 : S100000x32.ShapeCasts S100000x2x16
  slices_S1600000x2x16_S1600000x1x16_0_0_0 : S1600000x2x16.Slices ![0, 0, 0] S1600000x1x16
  shapeCasts_S1600000x1x16_S1600000x16 : S1600000x1x16.ShapeCasts S1600000x16
  slices_S1600000x2x16_S1600000x1x16_0_1_0 : S1600000x2x16.Slices ![0, 1, 0] S1600000x1x16
  bcast_S1600000x1_S1600000x16_0_1 : S1600000x1.BroadcastsInDim S1600000x16 (![0, 1] : Fin 2 → Fin S1600000x16.rank)
  bcast_S1600000x16_S1600000x1x16_0_2 : S1600000x16.BroadcastsInDim S1600000x1x16 (![0, 2] : Fin 2 → Fin S1600000x1x16.rank)
  concatenates_S1600000x1x16_S1600000x1x16_S1600000x2x16_d1 : Shape.Concatenates [S1600000x1x16, S1600000x1x16] S1600000x2x16 1
  bcast_S_S100000x2x16 : S_.BroadcastsInDim S100000x2x16 (![] : Fin 0 → Fin S100000x2x16.rank)
  slices_S2x16x16_S1x16x16_0_0_0 : S2x16x16.Slices ![0, 0, 0] S1x16x16
  shapeCasts_S1x16x16_S16x16 : S1x16x16.ShapeCasts S16x16
  inb_S10000x2x16_S10000x2x16_0_0_0 : ∀ a, (![0, 0, 0] : Fin 3 → Nat) a + S10000x2x16.size a ≤ S10000x2x16.size a
  h_S10000x2x16 : 0 < S10000x2x16.numel
  shapeCasts_S10000x2x16_S10000x2x16 : S10000x2x16.ShapeCasts S10000x2x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  shapeCasts_S10000x2x16_S20000x16 : S10000x2x16.ShapeCasts S20000x16
  shapeCasts_S20000x16_S10000x2x16 : S20000x16.ShapeCasts S10000x2x16
  slices_S2x16x16_S1x16x16_1_0_0 : S2x16x16.Slices ![1, 0, 0] S1x16x16
  shapeCasts_S10000x2x16_S10000x32 : S10000x2x16.ShapeCasts S10000x32
  inb_S32x10_S32x10_0_0 : ∀ a, (![0, 0] : Fin 2 → Nat) a + S32x10.size a ≤ S32x10.size a
  h_S32x10 : 0 < S32x10.numel
  inb_S10_S10_0 : ∀ a, (![0] : Fin 1 → Nat) a + S10.size a ≤ S10.size a
  h_S10 : 0 < S10.numel
  shapeCasts_S10_S1x10 : S10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  dot_S10000x128_S128x32_S10000x32_1_0_0_1_n_n_wf : DotDims.WF S10000x128 S128x32 S10000x32 [1] [0] [0] [1] [] []
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x2_S1600000x1_S1600000x2_1_0_n_n_0_1_12_wf : GatherDims.WF S100000x2 S1600000x1 S1600000x2 [1] [0] [] [0] [] 1 ![1, 2]
  gather_S100000x2x16_S1600000x1_S1600000x2x16_12_0_n_n_0_1_1216_wf : GatherDims.WF S100000x2x16 S1600000x1 S1600000x2x16 [1, 2] [0] [] [0] [] 1 ![1, 2, 16]
  scatter_S100000x2x16_S1600000x1_S1600000x2x16_12_0_0_1_wf : ScatterDims.WF S100000x2x16 S1600000x1 S1600000x2x16 [1, 2] [0] [0] 1
  dot_S20000x16_S16x16_S20000x16_1_0_0_1_n_n_wf : DotDims.WF S20000x16 S16x16 S20000x16 [1] [0] [0] [1] [] []
  dot_S10000x32_S32x10_S10000x10_1_0_0_1_n_n_wf : DotDims.WF S10000x32 S32x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1.size a ≤ S1.size a
  hwx2_5 : ∀ i : grid2.Coords, EltTy.bits .f32 = 32 ∨ (Rect.block (s := S1) S1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x2.size a ≤ S100000x2.size a
  hwx2_6 : ∀ i : grid2.Coords, EltTy.bits .f32 = 32 ∨ (Rect.block (s := S100000x2) S10000x2.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2x16.size a ≤ S100000x2x16.size a
  hwx3_0 : ∀ i : grid3.Coords, EltTy.bits .f32 = 32 ∨ (Rect.block (s := S100000x2x16) S10000x2x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x2x16.size a ≤ S100000x2x16.size a
  hwx3_1 : ∀ i : grid3.Coords, EltTy.bits .f32 = 32 ∨ (Rect.block (s := S100000x2x16) S10000x2x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x2x16.size a ≤ S100000x2x16.size a
  hwx3_3 : ∀ i : grid3.Coords, EltTy.bits .f32 = 32 ∨ (Rect.block (s := S100000x2x16) S10000x2x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x2x16.size a ≤ S100000x2x16.size a
  hwx4_0 : ∀ i : grid4.Coords, EltTy.bits .f32 = 32 ∨ (Rect.block (s := S100000x2x16) S10000x2x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x2x16.size a ≤ S100000x2x16.size a
  hwx4_1 : ∀ i : grid4.Coords, EltTy.bits .f32 = 32 ∨ (Rect.block (s := S100000x2x16) S10000x2x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x16.size a ≤ S16x16.size a
  hwx4_2 : ∀ i : grid4.Coords, EltTy.bits .f32 = 32 ∨ (Rect.block (s := S16x16) S16x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x10.size a ≤ S32x10.size a
  hwx4_3 : ∀ i : grid4.Coords, EltTy.bits .f32 = 32 ∨ (Rect.block (s := S32x10) S32x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S10.size a ≤ S10.size a
  hwx4_4 : ∀ i : grid4.Coords, EltTy.bits .f32 = 32 ∨ (Rect.block (s := S10) S10.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x10.size a ≤ S100000x10.size a
  hwx4_5 : ∀ i : grid4.Coords, EltTy.bits .f32 = 32 ∨ (Rect.block (s := S100000x10) S10000x10.size (cc4_transform_5 i) (hinb4_5 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def gather_S100000x2x16_S1600000x1_S1600000x2x16_12_0_n_n_0_1_1216 : GatherDims S100000x2x16 S1600000x1 S1600000x2x16 where
  offsetDims := [1, 2]
  collapsedSliceDims := [0]
  operandBatchingDims := []
  startIndicesBatchingDims := []
  startIndexMap := [0]
  indexVectorDim := 1
  sliceSizes := ![1, 2, 16]
  wf := gather_S100000x2x16_S1600000x1_S1600000x2x16_12_0_n_n_0_1_1216_wf
def scatter_S100000x2x16_S1600000x1_S1600000x2x16_12_0_0_1 : ScatterDims S100000x2x16 S1600000x1 S1600000x2x16 where
  updateWindowDims := [1, 2]
  insertedWindowDims := [0]
  scatterDimsToOperandDims := [0]
  indexVectorDim := 1
  wf := scatter_S100000x2x16_S1600000x1_S1600000x2x16_12_0_0_1_wf
def dot_S20000x16_S16x16_S20000x16_1_0_0_1_n_n : DotDims S20000x16 S16x16 S20000x16 where
  lhsContracting := [1]
  rhsContracting := [0]
  lhsNonContracting := [0]
  rhsNonContracting := [1]
  lhsBatch := []
  rhsBatch := []
  wf := dot_S20000x16_S16x16_S20000x16_1_0_0_1_n_n_wf
def dot_S10000x32_S32x10_S10000x10_1_0_0_1_n_n : DotDims S10000x32 S32x10 S10000x10 where
  lhsContracting := [1]
  rhsContracting := [0]
  lhsNonContracting := [0]
  rhsNonContracting := [1]
  lhsBatch := []
  rhsBatch := []
  wf := dot_S10000x32_S32x10_S10000x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S10000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S10000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v74) S10000x2x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v105) S10000x2x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v107) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v108) S10000x2x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v108) S10000x2x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v139) S10000x2x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v141) S16x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S32x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v142) S10000x10.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x16x16 : Shape := ⟨3, ![2, 16, 16]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S100000x32 : Shape := ⟨2, ![100000, 32]⟩
abbrev S1x32 : Shape := ⟨2, ![1, 32]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x1 : Shape := ⟨2, ![1, 1]⟩
abbrev S100000x4 : Shape := ⟨2, ![100000, 4]⟩
abbrev S100000x2x2 : Shape := ⟨3, ![100000, 2, 2]⟩
abbrev S100000 : Shape := ⟨1, ![100000]⟩
abbrev S1600000x2x2 : Shape := ⟨3, ![1600000, 2, 2]⟩
abbrev S100000x2x16 : Shape := ⟨3, ![100000, 2, 16]⟩
abbrev S1600000x2x16 : Shape := ⟨3, ![1600000, 2, 16]⟩
abbrev S1600000x1x1 : Shape := ⟨3, ![1600000, 1, 1]⟩
abbrev S1x16x16 : Shape := ⟨3, ![1, 16, 16]⟩
abbrev S16x16 : Shape := ⟨2, ![16, 16]⟩
abbrev S100000x10 : Shape := ⟨2, ![100000, 10]⟩
abbrev S1x10 : Shape := ⟨2, ![1, 10]⟩

abbrev nBuf : Space → Nat
  | .hbm => 255
  | .vmem => 0
  | .smem => 0
  | _ => 0

abbrev hbmTy0_0 (i : Nat) : BufTy := match i % 128 with
  | 0 => ⟨S100000x128, .f32⟩
  | 1 => ⟨S2x1600000, .i32⟩
  | 2 => ⟨S128x32, .f32⟩
  | 3 => ⟨S32, .f32⟩
  | 4 => ⟨S32x64, .f32⟩
  | 5 => ⟨S64, .f32⟩
  | 6 => ⟨S64x64, .f32⟩
  | 7 => ⟨S64x64, .f32⟩
  | 8 => ⟨S64x64, .f32⟩
  | 9 => ⟨S64x64, .f32⟩
  | 10 => ⟨S64x1, .f32⟩
  | 11 => ⟨S1, .f32⟩
  | 12 => ⟨S2x16x16, .f32⟩
  | 13 => ⟨S32x10, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S100000x32, .f32⟩
  | 20 => ⟨S1x32, .f32⟩
  | 21 => ⟨S100000x32, .f32⟩
  | 22 => ⟨S100000x32, .f32⟩
  | 23 => ⟨S100000x64, .f32⟩
  | 24 => ⟨S1x64, .f32⟩
  | 25 => ⟨S100000x64, .f32⟩
  | 26 => ⟨S100000x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x64, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S_, .f32⟩
  | 54 => ⟨S100000x64, .f32⟩
  | 55 => ⟨S1600000x1, .i32⟩
  | 56 => ⟨S100000x64, .f32⟩
  | 57 => ⟨S100000x64, .f32⟩
  | 58 => ⟨S100000x64, .f32⟩
  | 59 => ⟨S100000x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S_, .f32⟩
  | 87 => ⟨S100000x64, .f32⟩
  | 88 => ⟨S1600000x1, .i32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S100000x1, .f32⟩
  | 111 => ⟨S1x1, .f32⟩
  | 112 => ⟨S100000x1, .f32⟩
  | 113 => ⟨S100000x1, .f32⟩
  | 114 => ⟨S100000x1, .f32⟩
  | 115 => ⟨S_, .f32⟩
  | 116 => ⟨S100000x1, .f32⟩
  | 117 => ⟨S100000x1, .f32⟩
  | 118 => ⟨S100000x1, .f32⟩
  | 119 => ⟨S100000x1, .f32⟩
  | 120 => ⟨S100000x1, .f32⟩
  | 121 => ⟨S100000x4, .f32⟩
  | 122 => ⟨S100000x2x2, .f32⟩
  | 123 => ⟨S_, .f32⟩
  | 124 => ⟨S1600000, .f32⟩
  | 125 => ⟨S_, .f32⟩
  | 126 => ⟨S100000, .f32⟩
  | 127 => ⟨S1600000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000, .f32⟩
  | 22 => ⟨S1600000, .f32⟩
  | 23 => ⟨S1600000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x2x2, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x2x2, .f32⟩
  | 42 => ⟨S1600000x2x2, .f32⟩
  | 43 => ⟨S100000x2x16, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x2x16, .f32⟩
  | 53 => ⟨S1600000x2x16, .f32⟩
  | 54 => ⟨S1600000x1x1, .f32⟩
  | 55 => ⟨S1600000x2x16, .f32⟩
  | 56 => ⟨S1600000x2x16, .f32⟩
  | 57 => ⟨S_, .f32⟩
  | 58 => ⟨S100000x2x16, .f32⟩
  | 59 => ⟨S1600000x1, .i32⟩
  | 60 => ⟨S100000x2x16, .f32⟩
  | 61 => ⟨S100000x2x16, .f32⟩
  | 62 => ⟨S1x16x16, .f32⟩
  | 63 => ⟨S16x16, .f32⟩
  | 64 => ⟨S100000x2x16, .f32⟩
  | 65 => ⟨S100000x2x16, .f32⟩
  | 66 => ⟨S100000x2x16, .f32⟩
  | 67 => ⟨S_, .f32⟩
  | 68 => ⟨S100000x2x16, .f32⟩
  | 69 => ⟨S100000x2x16, .f32⟩
  | 70 => ⟨S100000x2x16, .f32⟩
  | 71 => ⟨S_, .f32⟩
  | 72 => ⟨S100000x2x16, .f32⟩
  | 73 => ⟨S100000x2x16, .f32⟩
  | 74 => ⟨S100000x2x16, .f32⟩
  | 75 => ⟨S_, .f32⟩
  | 76 => ⟨S100000x2x16, .f32⟩
  | 77 => ⟨S100000x2x16, .f32⟩
  | 78 => ⟨S_, .f32⟩
  | 79 => ⟨S100000x2x16, .f32⟩
  | 80 => ⟨S100000x2x16, .f32⟩
  | 81 => ⟨S100000x2x16, .f32⟩
  | 82 => ⟨S100000x2x16, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x2x16, .f32⟩
  | 92 => ⟨S1600000x2x16, .f32⟩
  | 93 => ⟨S1600000x1x1, .f32⟩
  | 94 => ⟨S1600000x2x16, .f32⟩
  | 95 => ⟨S1600000x2x16, .f32⟩
  | 96 => ⟨S_, .f32⟩
  | 97 => ⟨S100000x2x16, .f32⟩
  | 98 => ⟨S1600000x1, .i32⟩
  | 99 => ⟨S100000x2x16, .f32⟩
  | 100 => ⟨S100000x2x16, .f32⟩
  | 101 => ⟨S1x16x16, .f32⟩
  | 102 => ⟨S16x16, .f32⟩
  | 103 => ⟨S100000x2x16, .f32⟩
  | 104 => ⟨S100000x2x16, .f32⟩
  | 105 => ⟨S100000x2x16, .f32⟩
  | 106 => ⟨S_, .f32⟩
  | 107 => ⟨S100000x2x16, .f32⟩
  | 108 => ⟨S100000x2x16, .f32⟩
  | 109 => ⟨S100000x2x16, .f32⟩
  | 110 => ⟨S_, .f32⟩
  | 111 => ⟨S100000x2x16, .f32⟩
  | 112 => ⟨S100000x2x16, .f32⟩
  | 113 => ⟨S100000x2x16, .f32⟩
  | 114 => ⟨S_, .f32⟩
  | 115 => ⟨S100000x2x16, .f32⟩
  | 116 => ⟨S100000x2x16, .f32⟩
  | 117 => ⟨S_, .f32⟩
  | 118 => ⟨S100000x2x16, .f32⟩
  | 119 => ⟨S100000x2x16, .f32⟩
  | 120 => ⟨S100000x2x16, .f32⟩
  | 121 => ⟨S100000x2x16, .f32⟩
  | 122 => ⟨S100000x32, .f32⟩
  | 123 => ⟨S100000x10, .f32⟩
  | 124 => ⟨S1x10, .f32⟩
  | 125 => ⟨S100000x10, .f32⟩
  | 126 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_16 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_cst_18 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_v94 : Ref sig .tc := ⟨.hbm, 131, rfl⟩
abbrev main_c_20 : Ref sig .tc := ⟨.hbm, 132, rfl⟩
abbrev main_v95 : Ref sig .tc := ⟨.hbm, 133, rfl⟩
abbrev main_v96 : Ref sig .tc := ⟨.hbm, 134, rfl⟩
abbrev main_c_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_22 : Ref sig .tc := ⟨.hbm, 141, rfl⟩
abbrev main_v102 : Ref sig .tc := ⟨.hbm, 142, rfl⟩
abbrev main_v103 : Ref sig .tc := ⟨.hbm, 143, rfl⟩
abbrev main_c_23 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_c_25 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_c_26 : Ref sig .tc := ⟨.hbm, 161, rfl⟩
abbrev main_v118 : Ref sig .tc := ⟨.hbm, 162, rfl⟩
abbrev main_v119 : Ref sig .tc := ⟨.hbm, 163, rfl⟩
abbrev main_c_27 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_c_28 : Ref sig .tc := ⟨.hbm, 172, rfl⟩
abbrev main_v127 : Ref sig .tc := ⟨.hbm, 173, rfl⟩
abbrev main_v128 : Ref sig .tc := ⟨.hbm, 174, rfl⟩
abbrev main_c_29 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_30 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_31 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_32 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_33 : Ref sig .tc := ⟨.hbm, 203, rfl⟩
abbrev main_v153 : Ref sig .tc := ⟨.hbm, 204, rfl⟩
abbrev main_v154 : Ref sig .tc := ⟨.hbm, 205, rfl⟩
abbrev main_cst_34 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_c_35 : Ref sig .tc := ⟨.hbm, 211, rfl⟩
abbrev main_v159 : Ref sig .tc := ⟨.hbm, 212, rfl⟩
abbrev main_v160 : Ref sig .tc := ⟨.hbm, 213, rfl⟩
abbrev main_c_36 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_cst_37 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_38 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_cst_39 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_cst_40 : Ref sig .tc := ⟨.hbm, 242, rfl⟩
abbrev main_v185 : Ref sig .tc := ⟨.hbm, 243, rfl⟩
abbrev main_v186 : Ref sig .tc := ⟨.hbm, 244, rfl⟩
abbrev main_cst_41 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  concatenates_S100000x1_S100000x1_S100000x1_S100000x1_S100000x4_d1 : Shape.Concatenates [S100000x1, S100000x1, S100000x1, S100000x1] S100000x4 1
  shapeCasts_S100000x4_S100000x2x2 : S100000x4.ShapeCasts S100000x2x2
  bcast_S_S100000 : S_.BroadcastsInDim S100000 (![] : Fin 0 → Fin S100000.rank)
  shapeCasts_S100000x32_S100000x2x16 : S100000x32.ShapeCasts S100000x2x16
  bcast_S1600000_S1600000x1x1_0 : S1600000.BroadcastsInDim S1600000x1x1 (![0] : Fin 1 → Fin S1600000x1x1.rank)
  bcast_S1600000x1x1_S1600000x2x16_0_1_2 : S1600000x1x1.BroadcastsInDim S1600000x2x16 (![0, 1, 2] : Fin 3 → Fin S1600000x2x16.rank)
  bcast_S_S100000x2x16 : S_.BroadcastsInDim S100000x2x16 (![] : Fin 0 → Fin S100000x2x16.rank)
  slices_S2x16x16_S1x16x16_0_0_0 : S2x16x16.Slices ![0, 0, 0] S1x16x16
  shapeCasts_S1x16x16_S16x16 : S1x16x16.ShapeCasts S16x16
  slices_S2x16x16_S1x16x16_1_0_0 : S2x16x16.Slices ![1, 0, 0] S1x16x16
  shapeCasts_S100000x2x16_S100000x32 : S100000x2x16.ShapeCasts S100000x32
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x128_S128x32_S100000x32_1_0_0_1_n_n_wf : DotDims.WF S100000x128 S128x32 S100000x32 [1] [0] [0] [1] [] []
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x2x2_S1600000x1_S1600000x2x2_12_0_n_n_0_1_122_wf : GatherDims.WF S100000x2x2 S1600000x1 S1600000x2x2 [1, 2] [0] [] [0] [] 1 ![1, 2, 2]
  dot_S1600000x2x2_S1600000x2x2_S1600000x2x2_1_1_2_2_0_0_wf : DotDims.WF S1600000x2x2 S1600000x2x2 S1600000x2x2 [1] [1] [2] [2] [0] [0]
  gather_S100000x2x16_S1600000x1_S1600000x2x16_12_0_n_n_0_1_1216_wf : GatherDims.WF S100000x2x16 S1600000x1 S1600000x2x16 [1, 2] [0] [] [0] [] 1 ![1, 2, 16]
  dot_S1600000x2x2_S1600000x2x16_S1600000x2x16_2_1_1_2_0_0_wf : DotDims.WF S1600000x2x2 S1600000x2x16 S1600000x2x16 [2] [1] [1] [2] [0] [0]
  scatter_S100000x2x16_S1600000x1_S1600000x2x16_12_0_0_1_wf : ScatterDims.WF S100000x2x16 S1600000x1 S1600000x2x16 [1, 2] [0] [0] 1
  dot_S100000x2x16_S16x16_S100000x2x16_2_0_01_1_n_n_wf : DotDims.WF S100000x2x16 S16x16 S100000x2x16 [2] [0] [0, 1] [1] [] []
  dot_S100000x32_S32x10_S100000x10_1_0_0_1_n_n_wf : DotDims.WF S100000x32 S32x10 S100000x10 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x2x2_S1600000x1_S1600000x2x2_12_0_n_n_0_1_122 : GatherDims S100000x2x2 S1600000x1 S1600000x2x2 where
  offsetDims := [1, 2]
  collapsedSliceDims := [0]
  operandBatchingDims := []
  startIndicesBatchingDims := []
  startIndexMap := [0]
  indexVectorDim := 1
  sliceSizes := ![1, 2, 2]
  wf := gather_S100000x2x2_S1600000x1_S1600000x2x2_12_0_n_n_0_1_122_wf
def dot_S1600000x2x2_S1600000x2x2_S1600000x2x2_1_1_2_2_0_0 : DotDims S1600000x2x2 S1600000x2x2 S1600000x2x2 where
  lhsContracting := [1]
  rhsContracting := [1]
  lhsNonContracting := [2]
  rhsNonContracting := [2]
  lhsBatch := [0]
  rhsBatch := [0]
  wf := dot_S1600000x2x2_S1600000x2x2_S1600000x2x2_1_1_2_2_0_0_wf
def gather_S100000x2x16_S1600000x1_S1600000x2x16_12_0_n_n_0_1_1216 : GatherDims S100000x2x16 S1600000x1 S1600000x2x16 where
  offsetDims := [1, 2]
  collapsedSliceDims := [0]
  operandBatchingDims := []
  startIndicesBatchingDims := []
  startIndexMap := [0]
  indexVectorDim := 1
  sliceSizes := ![1, 2, 16]
  wf := gather_S100000x2x16_S1600000x1_S1600000x2x16_12_0_n_n_0_1_1216_wf
def dot_S1600000x2x2_S1600000x2x16_S1600000x2x16_2_1_1_2_0_0 : DotDims S1600000x2x2 S1600000x2x16 S1600000x2x16 where
  lhsContracting := [2]
  rhsContracting := [1]
  lhsNonContracting := [1]
  rhsNonContracting := [2]
  lhsBatch := [0]
  rhsBatch := [0]
  wf := dot_S1600000x2x2_S1600000x2x16_S1600000x2x16_2_1_1_2_0_0_wf
def scatter_S100000x2x16_S1600000x1_S1600000x2x16_12_0_0_1 : ScatterDims S100000x2x16 S1600000x1 S1600000x2x16 where
  updateWindowDims := [1, 2]
  insertedWindowDims := [0]
  scatterDimsToOperandDims := [0]
  indexVectorDim := 1
  wf := scatter_S100000x2x16_S1600000x1_S1600000x2x16_12_0_0_1_wf
def dot_S100000x2x16_S16x16_S100000x2x16_2_0_01_1_n_n : DotDims S100000x2x16 S16x16 S100000x2x16 where
  lhsContracting := [2]
  rhsContracting := [0]
  lhsNonContracting := [0, 1]
  rhsNonContracting := [1]
  lhsBatch := []
  rhsBatch := []
  wf := dot_S100000x2x16_S16x16_S100000x2x16_2_0_01_1_n_n_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf

class Facts : Prop extends Facts₀ where

variable [Facts]
-- ==== Proof.Stage.lean ====
/-
  The network's stages as functions of whole arrays, over any float instance.

  A node table with N = 100000 rows and an edge list with E = 1600000 (source, target) pairs. Each stage is written with
  the host operations the reference program applies, so that the reference's result is their composition by
  unfolding alone; the kernel's five regions and the host operations between them are each proved equal to one
  of these functions of the arrays they read.

    h      = x · W_in + b_in                                  (N × 32)
    m0     = gelu (h · W₁ + b₁)                               (N × 64)
    agg m  = Σ over edges into a node of m at the edge's source (a row gather, then a scatter-add)
    m'     = gelu (m · Ws + agg m · Wn)
    ang    = tanh (m2 · w + b) · 2π                           (N × 1)
    R      = [[cos ang, −sin ang], [sin ang, cos ang]]        (N × 2 × 2)
    deg    = 1 + number of edges into a node;  nrm e = rsqrt (deg (src e) · deg (dst e))
    M e    = R (dst e)ᵀ · R (src e)                           (E × 2 × 2)
    msg e  = (M e · xs (src e)) · nrm e                       (E × 2 × 16)
    xs'    = xs − gelu ((xs − agg msg) · W_d)                 (N × 2 × 16)
    out    = flatten xs'' · W_out + b_out                     (N × 10)

  gelu x = x · (½ · (1 + tanh (c₂ · (x + c₁ · x³)))), with the two literals of the tanh approximation.
-/
import proofs.«417419_j39436389712331_2_alg».proof.Proof.Gen.ReferenceIdeal
import Idealize.ShloMosaic.PureOps.Ideal
import Idealize.ShloMosaic.Lib.ValueIdx

set_option maxRecDepth 8192

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The source column of the edge list: row 0 of the 2 × E index array. -/
def srcOf (ei : IVec S2x1600000 32) : IVec S1600000 32 :=
  shapeCast _ (extractStridedSlice S1x1600000 ![0, 0] ei slices_S2x1600000_S1x1600000_0_0) shapeCasts_S1x1600000_S1600000

/-- The target column of the edge list: row 1. -/
def dstOf (ei : IVec S2x1600000 32) : IVec S1600000 32 :=
  shapeCast _ (extractStridedSlice S1x1600000 ![1, 0] ei slices_S2x1600000_S1x1600000_1_0) shapeCasts_S1x1600000_S1600000

/-- An index column for a row gather: a negative index counts from the end (i + N), then one trailing unit axis. -/
def wrap (i : IVec S1600000 32) : IVec S1600000x1 32 :=
  broadcastInDim S1600000x1 ![0] bcast_S1600000_S1600000x1_0 (select (cmpi .slt i (broadcastInDim S1600000 ![] bcast_S_S1600000 (constantI S_ 32 0#32))) (addi i (broadcastInDim S1600000 ![] bcast_S_S1600000 (constantI S_ 32 100000#32))) i)

/-- An index column for a scatter: the indices as they are, one trailing unit axis. -/
def col (i : IVec S1600000 32) : IVec S1600000x1 32 :=
  broadcastInDim S1600000x1 ![0] bcast_S1600000_S1600000x1_0 i

/-- gelu (tanh approximation) of an N × 64 table, elementwise. -/
def gelu64 (x : FVec F S100000x64 .f32) : FVec F S100000x64 .f32 :=
  mulf x (mulf (broadcastInDim S100000x64 ![] bcast_S_S100000x64 (constant S_ .f32 0x3F000000#32)) (addf (broadcastInDim S100000x64 ![] bcast_S_S100000x64 (constant S_ .f32 0x3F800000#32)) (Host.tanh (mulf (broadcastInDim S100000x64 ![] bcast_S_S100000x64 (constant S_ .f32 0x3F4C422A#32)) (addf x (mulf (broadcastInDim S100000x64 ![] bcast_S_S100000x64 (constant S_ .f32 0x3D372713#32)) (mulf (mulf x x) x)))))))

/-- gelu of an N × 2 × 16 table, elementwise. -/
def gelu2x16 (x : FVec F S100000x2x16 .f32) : FVec F S100000x2x16 .f32 :=
  mulf x (mulf (broadcastInDim S100000x2x16 ![] bcast_S_S100000x2x16 (constant S_ .f32 0x3F000000#32)) (addf (broadcastInDim S100000x2x16 ![] bcast_S_S100000x2x16 (constant S_ .f32 0x3F800000#32)) (Host.tanh (mulf (broadcastInDim S100000x2x16 ![] bcast_S_S100000x2x16 (constant S_ .f32 0x3F4C422A#32)) (addf x (mulf (broadcastInDim S100000x2x16 ![] bcast_S_S100000x2x16 (constant S_ .f32 0x3D372713#32)) (mulf (mulf x x) x)))))))

/-- The input embedding h = x · W_in + b_in. -/
def hOf (x : FVec F S100000x128 .f32) (W : FVec F S128x32 .f32) (b : FVec F S32 .f32) : FVec F S100000x32 .f32 :=
  addf (Host.dotGeneral dot_S100000x128_S128x32_S100000x32_1_0_0_1_n_n none x W) (broadcastInDim S100000x32 ![0, 1] bcast_S1x32_S100000x32_0_1 (broadcastInDim S1x32 ![1] bcast_S32_S1x32_1 b))

/-- h · W₁ + b₁, before its gelu. -/
def pre0 (h : FVec F S100000x32 .f32) (W : FVec F S32x64 .f32) (b : FVec F S64 .f32) : FVec F S100000x64 .f32 :=
  addf (Host.dotGeneral dot_S100000x32_S32x64_S100000x64_1_0_0_1_n_n none h W) (broadcastInDim S100000x64 ![0, 1] bcast_S1x64_S100000x64_0_1 (broadcastInDim S1x64 ![1] bcast_S64_S1x64_1 b))

/-- Per node, the sum over the edges into it of the N × 64 table at the edge's source. -/
def agg64 (src dst : IVec S1600000 32) (t : FVec F S100000x64 .f32) : FVec F S100000x64 .f32 :=
  Host.scatterAdd scatter_S100000x64_S1600000x1_S1600000x64_1_0_0_1 (broadcastInDim S100000x64 ![] bcast_S_S100000x64 (constant S_ .f32 0x00000000#32)) (col dst) (Host.gather gather_S100000x64_S1600000x1_S1600000x64_1_0_n_n_0_1_164 t (wrap src))

/-- t · Ws + a · Wn, before its gelu. -/
def mix (t a : FVec F S100000x64 .f32) (Ws Wn : FVec F S64x64 .f32) : FVec F S100000x64 .f32 :=
  addf (Host.dotGeneral dot_S100000x64_S64x64_S100000x64_1_0_0_1_n_n none t Ws) (Host.dotGeneral dot_S100000x64_S64x64_S100000x64_1_0_0_1_n_n none a Wn)

/-- The rotation angle of every node: tanh (t · w + b) · 2π, an N × 1 column. -/
def angOf (t : FVec F S100000x64 .f32) (w : FVec F S64x1 .f32) (b : FVec F S1 .f32) : FVec F S100000x1 .f32 :=
  mulf (Host.tanh (addf (Host.dotGeneral dot_S100000x64_S64x1_S100000x1_1_0_0_1_n_n none t w) (broadcastInDim S100000x1 ![0, 1] bcast_S1x1_S100000x1_0_1 (broadcastInDim S1x1 ![1] bcast_S1_S1x1_1 b)))) (broadcastInDim S100000x1 ![] bcast_S_S100000x1 (constant S_ .f32 0x40C90FDB#32))

/-- The rotation of every node, [[cos, −sin], [sin, cos]] of its angle, laid out row-major. -/
def rotOf (ang : FVec F S100000x1 .f32) : FVec F S100000x2x2 .f32 :=
  shapeCast _ (concatenate S100000x4 1 [⟨S100000x1, (Host.cos ang)⟩, ⟨S100000x1, (Host.negf (Host.sin ang))⟩, ⟨S100000x1, (Host.sin ang)⟩, ⟨S100000x1, (Host.cos ang)⟩] concatenates_S100000x1_S100000x1_S100000x1_S100000x1_S100000x4_d1) shapeCasts_S100000x4_S100000x2x2

/-- 1 + the number of edges into each node. -/
def degOf (dst : IVec S1600000 32) : FVec F S100000 .f32 :=
  addf (Host.scatterAdd scatter_S100000_S1600000x1_S1600000_n_0_0_1 (broadcastInDim S100000 ![] bcast_S_S100000 (constant S_ .f32 0x00000000#32)) (col dst) (broadcastInDim S1600000 ![] bcast_S_S1600000 (constant S_ .f32 0x3F800000#32))) (broadcastInDim S100000 ![] bcast_S_S100000 (constant S_ .f32 0x3F800000#32))

/-- Per edge, rsqrt (deg (src) · deg (dst)). -/
def nrmOf (deg : FVec F S100000 .f32) (src dst : IVec S1600000 32) : FVec F S1600000 .f32 :=
  Host.rsqrt (mulf (Host.gather gather_S100000_S1600000x1_S1600000_n_0_n_n_0_1_1 deg (wrap src)) (Host.gather gather_S100000_S1600000x1_S1600000_n_0_n_n_0_1_1 deg (wrap dst)))

/-- Per edge, the transport map R (dst)ᵀ · R (src). -/
def transportOf (R : FVec F S100000x2x2 .f32) (src dst : IVec S1600000 32) : FVec F S1600000x2x2 .f32 :=
  Host.dotGeneral dot_S1600000x2x2_S1600000x2x2_S1600000x2x2_1_1_2_2_0_0 none (Host.gather gather_S100000x2x2_S1600000x1_S1600000x2x2_12_0_n_n_0_1_122 R (wrap dst)) (Host.gather gather_S100000x2x2_S1600000x1_S1600000x2x2_12_0_n_n_0_1_122 R (wrap src))

/-- The stalk features: h seen as N × 2 × 16. -/
def xsOf (h : FVec F S100000x32 .f32) : FVec F S100000x2x16 .f32 :=
  shapeCast _ h shapeCasts_S100000x32_S100000x2x16

/-- The stalk features at every edge's source. -/
def atSrc (xs : FVec F S100000x2x16 .f32) (src : IVec S1600000 32) : FVec F S1600000x2x16 .f32 :=
  Host.gather gather_S100000x2x16_S1600000x1_S1600000x2x16_12_0_n_n_0_1_1216 xs (wrap src)

/-- Per edge, the message (M · x) · nrm, from the transport maps, the gathered features and the edge norms. -/
def msgOf (M : FVec F S1600000x2x2 .f32) (xg : FVec F S1600000x2x16 .f32) (nrm : FVec F S1600000 .f32) : FVec F S1600000x2x16 .f32 :=
  mulf (Host.dotGeneral dot_S1600000x2x2_S1600000x2x16_S1600000x2x16_2_1_1_2_0_0 none M xg) (broadcastInDim S1600000x2x16 ![0, 1, 2] bcast_S1600000x1x1_S1600000x2x16_0_1_2 (broadcastInDim S1600000x1x1 ![0] bcast_S1600000_S1600000x1x1_0 nrm))

/-- Per node, the sum of the messages of the edges into it. -/
def agg2x16 (dst : IVec S1600000 32) (msg : FVec F S1600000x2x16 .f32) : FVec F S100000x2x16 .f32 :=
  Host.scatterAdd scatter_S100000x2x16_S1600000x1_S1600000x2x16_12_0_0_1 (broadcastInDim S100000x2x16 ![] bcast_S_S100000x2x16 (constant S_ .f32 0x00000000#32)) (col dst) msg

/-- The first layer's 16 × 16 diffusion weights. -/
def wd0 (Wd : FVec F S2x16x16 .f32) : FVec F S16x16 .f32 :=
  shapeCast _ (extractStridedSlice S1x16x16 ![0, 0, 0] Wd slices_S2x16x16_S1x16x16_0_0_0) shapeCasts_S1x16x16_S16x16

/-- The second layer's. -/
def wd1 (Wd : FVec F S2x16x16 .f32) : FVec F S16x16 .f32 :=
  shapeCast _ (extractStridedSlice S1x16x16 ![1, 0, 0] Wd slices_S2x16x16_S1x16x16_1_0_0) shapeCasts_S1x16x16_S16x16

/-- (xs − a) · W_d, contracted over the 16 channels, before its gelu. -/
def lap (xs a : FVec F S100000x2x16 .f32) (wd : FVec F S16x16 .f32) : FVec F S100000x2x16 .f32 :=
  Host.dotGeneral dot_S100000x2x16_S16x16_S100000x2x16_2_0_01_1_n_n none (subf xs a) wd

/-- One diffusion step: xs − gelu ((xs − a) · W_d). -/
def stepOf (xs a : FVec F S100000x2x16 .f32) (wd : FVec F S16x16 .f32) : FVec F S100000x2x16 .f32 :=
  subf xs (gelu2x16 (lap xs a wd))

/-- The output projection of the flattened stalk features. -/
def outOf (xs : FVec F S100000x2x16 .f32) (W : FVec F S32x10 .f32) (b : FVec F S10 .f32) : FVec F S100000x10 .f32 :=
  addf (Host.dotGeneral dot_S100000x32_S32x10_S100000x10_1_0_0_1_n_n none (shapeCast _ xs shapeCasts_S100000x2x16_S100000x32) W) (broadcastInDim S100000x10 ![0, 1] bcast_S1x10_S100000x10_0_1 (broadcastInDim S1x10 ![1] bcast_S10_S1x10_1 b))

/-- The kernel keeps, per node, only the pair (sin ang, cos ang): an N × 2 table. -/
def sincosOf (ang : FVec F S100000x1 .f32) : FVec F (⟨2, ![100000, 2]⟩ : Shape) .f32 :=
  fun i => if (i 1).val = 0 then FloatOps.sin (ang (ValueIdx.ix2 (n0 := 100000) (n1 := 1) (i 0) 0)) else FloatOps.cos (ang (ValueIdx.ix2 (n0 := 100000) (n1 := 1) (i 0) 0))

end Cert.ReferenceIdeal.Stage

end
-- ==== Proof.KMsg.lean ====
/-
  The kernel program's per-edge message, as one function of whole arrays, over any float instance.

  The kernel keeps per node only the pair (sin ang, cos ang). Per edge it gathers the pair at the source and at the
  target, forms the cosine and the sine of the angle DIFFERENCE by the addition formulas,
      cosΔ = cos s · cos t + sin s · sin t,      sinΔ = sin s · cos t − cos s · sin t,
  and rotates the two stalk rows x0, x1 of the source's features by it:
      msg0 = (cosΔ · x0 − sinΔ · x1) · nrm,      msg1 = (sinΔ · x0 + cosΔ · x1) · nrm.
  The functions below are the host operations of the kernel program that do this, in its own vocabulary.
-/
import proofs.«417419_j39436389712331_2_alg».proof.Proof.Gen.KernelIdeal
import Idealize.ShloMosaic.PureOps.Ideal

set_option maxRecDepth 8192

noncomputable section

namespace Cert.KernelIdeal.KMsg

open Cert.KernelIdeal Cert.KernelIdeal.Gen Idealize.ShloMosaic Idealize.ShloMosaic.TcCoe Idealize.SL.Sem Idealize.ShloMosaic.StableHlo

variable {F : FTy → Type} [FloatOps F]

/-- An index column for a row gather: a negative index counts from the end (i + N), then one trailing unit axis. -/
def wrap (i : IVec S1600000 32) : IVec S1600000x1 32 :=
  broadcastInDim S1600000x1 ![0] bcast_S1600000_S1600000x1_0 (select (cmpi .slt i (broadcastInDim S1600000 ![] bcast_S_S1600000 (constantI S_ 32 0#32))) (addi i (broadcastInDim S1600000 ![] bcast_S_S1600000 (constantI S_ 32 100000#32))) i)

/-- The (sin, cos) pairs at every edge's endpoint given by the index column. -/
def pairAt (sc : FVec F S100000x2 .f32) (i : IVec S1600000 32) : FVec F S1600000x2 .f32 :=
  Host.gather gather_S100000x2_S1600000x1_S1600000x2_1_0_n_n_0_1_12 sc (wrap i)

/-- Column 0 of a gathered pair table: the sines. -/
def sinCol (p : FVec F S1600000x2 .f32) : FVec F S1600000x1 .f32 :=
  extractStridedSlice S1600000x1 ![0, 0] p slices_S1600000x2_S1600000x1_0_0

/-- Column 1: the cosines. -/
def cosCol (p : FVec F S1600000x2 .f32) : FVec F S1600000x1 .f32 :=
  extractStridedSlice S1600000x1 ![0, 1] p slices_S1600000x2_S1600000x1_0_1

/-- cos (s − t) by the addition formula, from the pairs at the source and at the target. -/
def cosDelta (ps pt : FVec F S1600000x2 .f32) : FVec F S1600000x1 .f32 :=
  addf (mulf (cosCol ps) (cosCol pt)) (mulf (sinCol ps) (sinCol pt))

/-- sin (s − t) by the addition formula. -/
def sinDelta (ps pt : FVec F S1600000x2 .f32) : FVec F S1600000x1 .f32 :=
  subf (mulf (sinCol ps) (cosCol pt)) (mulf (cosCol ps) (sinCol pt))

/-- Stalk row 0 of the gathered features, E × 16. -/
def row0 (xg : FVec F S1600000x2x16 .f32) : FVec F S1600000x16 .f32 :=
  shapeCast _ (extractStridedSlice S1600000x1x16 ![0, 0, 0] xg slices_S1600000x2x16_S1600000x1x16_0_0_0) shapeCasts_S1600000x1x16_S1600000x16

/-- Stalk row 1. -/
def row1 (xg : FVec F S1600000x2x16 .f32) : FVec F S1600000x16 .f32 :=
  shapeCast _ (extractStridedSlice S1600000x1x16 ![0, 1, 0] xg slices_S1600000x2x16_S1600000x1x16_0_1_0) shapeCasts_S1600000x1x16_S1600000x16

/-- An E × 1 column spread over the 16 channels. -/
def spread (v : FVec F S1600000x1 .f32) : FVec F S1600000x16 .f32 :=
  broadcastInDim S1600000x16 ![0, 1] bcast_S1600000x1_S1600000x16_0_1 v

/-- The per-edge message of the kernel program: the two rotated rows, scaled by the edge norm, stacked on the stalk axis. -/
def msgK (sc : FVec F S100000x2 .f32) (xg : FVec F S1600000x2x16 .f32) (src dst : IVec S1600000 32) (nrm : FVec F S1600000 .f32) : FVec F S1600000x2x16 .f32 :=
  concatenate S1600000x2x16 1
    [⟨S1600000x1x16, broadcastInDim S1600000x1x16 ![0, 2] bcast_S1600000x16_S1600000x1x16_0_2
        (mulf (subf (mulf (spread (cosDelta (pairAt sc src) (pairAt sc dst))) (row0 xg)) (mulf (spread (sinDelta (pairAt sc src) (pairAt sc dst))) (row1 xg)))
          (spread (broadcastInDim S1600000x1 ![0] bcast_S1600000_S1600000x1_0 nrm)))⟩,
     ⟨S1600000x1x16, broadcastInDim S1600000x1x16 ![0, 2] bcast_S1600000x16_S1600000x1x16_0_2
        (mulf (addf (mulf (spread (sinDelta (pairAt sc src) (pairAt sc dst))) (row0 xg)) (mulf (spread (cosDelta (pairAt sc src) (pairAt sc dst))) (row1 xg)))
          (spread (broadcastInDim S1600000x1 ![0] bcast_S1600000_S1600000x1_0 nrm)))⟩]
    concatenates_S1600000x1x16_S1600000x1x16_S1600000x2x16_d1

end Cert.KernelIdeal.KMsg

end
-- ==== Proof.KStages.lean ====
import proofs.«417419_j39436389712331_2_alg».proof.Proof.Gen.KernelIdeal.Frame
import proofs.«417419_j39436389712331_2_alg».proof.Proof.Stage
import proofs.«417419_j39436389712331_2_alg».proof.Proof.KMsg
import Idealize.ShloMosaic.Lib.Pipeline.Value

set_option maxRecDepth 16384

noncomputable section

namespace Cert.KernelIdeal.Chain

open Idealize.ShloMosaic Idealize.ShloMosaic.TcCoe Idealize.SL.Sem
open Idealize.ShloMosaic.Pipeline (Dat Cfg Window)
open Cert.KernelIdeal Cert.KernelIdeal.Gen
/-! The arrays the kernel program's five regions leave, named: each is the region's output array after its last
    write-back, the region entered from the contents the run has reached by then. -/

variable (m : (ℓ : Loc nD τ sig) → Buf (Elt Ideal) ℓ) (ρ : Dev nD → PrngReg)

/-- The embedding h (N × 32): region 0's first output. -/
def kh (c : Dev nD) := (dat0 (F := Ideal) (V1 m ρ) c).arrAt 5 cfg0.N
/-- m0 (N × 64): region 0's second output. -/
def km0 (c : Dev nD) := (dat0 (F := Ideal) (V1 m ρ) c).arrAt 6 cfg0.N
/-- m1 (N × 64): region 1's output. -/
def km1 (c : Dev nD) := (dat1 (F := Ideal) (V3 m ρ) c).arrAt 4 cfg1.N
/-- The (sin, cos) pairs (N × 2): region 2's output. -/
def ksc (c : Dev nD) := (dat2 (F := Ideal) (V5 m ρ) c).arrAt 6 cfg2.N
/-- The stalk features after the first diffusion step (N × 2 × 16): region 3's output. -/
def kxs1 (c : Dev nD) := (dat3 (F := Ideal) (V7 m ρ) c).arrAt 3 cfg3.N
/-- The result (N × 10): region 4's output. -/
def kout (c : Dev nD) := (dat4 (F := Ideal) (V9 m ρ) c).arrAt 5 cfg4.N

/-- The edge list's source and target columns, and the edge norms, of the launch contents. -/
abbrev src (c : Dev nD) := Cert.ReferenceIdeal.Stage.srcOf (m ((c.tc : Thread nD τ).loc main_arg1))
abbrev dst (c : Dev nD) := Cert.ReferenceIdeal.Stage.dstOf (m ((c.tc : Thread nD τ).loc main_arg1))
abbrev nrm (c : Dev nD) := Cert.ReferenceIdeal.Stage.nrmOf (F := Ideal) (Cert.ReferenceIdeal.Stage.degOf (dst m c)) (src m c) (dst m c)

end Cert.KernelIdeal.Chain

end
-- ==== Proof.KHostA.lean ====
import proofs.«417419_j39436389712331_2_alg».proof.Proof.KStages

set_option maxRecDepth 16384

noncomputable section

namespace Cert.KernelIdeal.Chain

open Idealize.ShloMosaic Idealize.ShloMosaic.TcCoe Idealize.SL.Sem
open Idealize.ShloMosaic.Pipeline (Dat Cfg Window)
open Cert.KernelIdeal Cert.KernelIdeal.Gen

/-! A buffer that none of a stretch's host operations writes holds after the stretch what it held before it: each
    stretch's written buffers are listed, and a reference outside the list differs from every one of them. -/

theorem keep0 (V : Valuation τ sig (Elt Ideal)) (r : Ref sig .tc)
    (hr : r ∉ ([main_v0, main_v1, main_v2, main_v3] : List (Ref sig .tc))) :
    StableHlo.after (hostOps0 (F := Ideal)) V (Proc.devRef .tc r) = V (Proc.devRef .tc r) :=
  StableHlo.after_of_writes_sub (W := [main_v0, main_v1, main_v2, main_v3]) _ V (by
    simp only [hostOps0, List.Forall, StableHlo.nullary_writes, StableHlo.unary_writes, StableHlo.binary_writes, StableHlo.ternary_writes, StableHlo.reshape_writes, Finset.singleton_subset_iff, List.mem_toFinset, List.mem_map]
    repeat' apply And.intro
    all_goals exact ⟨_, by decide, rfl⟩) hr

theorem keep1 (V : Valuation τ sig (Elt Ideal)) (r : Ref sig .tc)
    (hr : r ∉ ([main_c, main_v5, main_v6, main_c_0, main_v7, main_v8, main_v9, main_v10, main_v11, main_cst, main_v12, main_v13, main_v14] : List (Ref sig .tc))) :
    StableHlo.after (hostOps1 (F := Ideal)) V (Proc.devRef .tc r) = V (Proc.devRef .tc r) :=
  StableHlo.after_of_writes_sub (W := [main_c, main_v5, main_v6, main_c_0, main_v7, main_v8, main_v9, main_v10, main_v11, main_cst, main_v12, main_v13, main_v14]) _ V (by
    simp only [hostOps1, List.Forall, StableHlo.nullary_writes, StableHlo.unary_writes, StableHlo.binary_writes, StableHlo.ternary_writes, StableHlo.reshape_writes, Finset.singleton_subset_iff, List.mem_toFinset, List.mem_map]
    repeat' apply And.intro
    all_goals exact ⟨_, by decide, rfl⟩) hr

theorem keep2 (V : Valuation τ sig (Elt Ideal)) (r : Ref sig .tc)
    (hr : r ∉ ([main_c_1, main_v16, main_v17, main_c_2, main_v18, main_v19, main_v20, main_v21, main_v22, main_cst_3, main_v23, main_v24, main_v25] : List (Ref sig .tc))) :
    StableHlo.after (hostOps2 (F := Ideal)) V (Proc.devRef .tc r) = V (Proc.devRef .tc r) :=
  StableHlo.after_of_writes_sub (W := [main_c_1, main_v16, main_v17, main_c_2, main_v18, main_v19, main_v20, main_v21, main_v22, main_cst_3, main_v23, main_v24, main_v25]) _ V (by
    simp only [hostOps2, List.Forall, StableHlo.nullary_writes, StableHlo.unary_writes, StableHlo.binary_writes, StableHlo.ternary_writes, StableHlo.reshape_writes, Finset.singleton_subset_iff, List.mem_toFinset, List.mem_map]
    repeat' apply And.intro
    all_goals exact ⟨_, by decide, rfl⟩) hr

/-! The index columns: the first stretch slices the two rows of the 2 × E edge list and drops the unit axis, which is
    how the source and target columns are defined. -/

theorem src_after0 (V : Valuation τ sig (Elt Ideal)) :
    StableHlo.after (hostOps0 (F := Ideal)) V (Proc.devRef .tc main_v1)
      = Cert.ReferenceIdeal.Stage.srcOf (V (Proc.devRef .tc main_arg1)) := by
  after_results
  rfl

theorem dst_after0 (V : Valuation τ sig (Elt Ideal)) :
    StableHlo.after (hostOps0 (F := Ideal)) V (Proc.devRef .tc main_v3)
      = Cert.ReferenceIdeal.Stage.dstOf (V (Proc.devRef .tc main_arg1)) := by
  after_results
  rfl

/-! The two aggregation stretches. Each wraps the source column (a negative index counts from the end), gathers the
    N × 64 table's rows at it, and scatter-adds the gathered rows into zeros at the target column: the sum, per node,
    over the edges into it of the table at the edge's source. The stretch reads the two columns and the table from
    buffers it does not write, so its result is that function of what the three buffers held at its start. -/

set_option maxHeartbeats 2000000 in
theorem agg_after1 (V : Valuation τ sig (Elt Ideal)) (s d : IVec S1600000 32) (t : FVec Ideal S100000x64 .f32)
    (hs : V (Proc.devRef .tc main_v1) = s) (hd : V (Proc.devRef .tc main_v3) = d)
    (ht : V (Proc.devRef .tc main_v4_1) = t) :
    StableHlo.after (hostOps1 (F := Ideal)) V (Proc.devRef .tc main_v14)
      = Cert.ReferenceIdeal.Stage.agg64 (F := Ideal) s d t := by
  subst hs hd ht
  after_results
  rfl

set_option maxHeartbeats 2000000 in
theorem agg_after2 (V : Valuation τ sig (Elt Ideal)) (s d : IVec S1600000 32) (t : FVec Ideal S100000x64 .f32)
    (hs : V (Proc.devRef .tc main_v1) = s) (hd : V (Proc.devRef .tc main_v3) = d)
    (ht : V (Proc.devRef .tc main_v15) = t) :
    StableHlo.after (hostOps2 (F := Ideal)) V (Proc.devRef .tc main_v25)
      = Cert.ReferenceIdeal.Stage.agg64 (F := Ideal) s d t := by
  subst hs hd ht
  after_results
  rfl

variable (m : (ℓ : Loc nD τ sig) → Buf (Elt Ideal) ℓ) (ρ : Dev nD → PrngReg)

/-! A buffer that no stretch writes and that is no window of the regions run so far still holds the launch contents:
    the walk back from each boundary to the launch, one step per stretch or region. -/

theorem launch_at1 (c : Dev nD) (r : Ref sig .tc)
    (h0 : r ∉ ([main_v0, main_v1, main_v2, main_v3] : List (Ref sig .tc))) :
    W1 m ρ c (Proc.devRef .tc r) = m ((c.tc : Thread nD τ).loc r) :=
  keep0 _ r h0

theorem launch_at2 (c : Dev nD) (r : Ref sig .tc)
    (h0 : r ∉ ([main_v0, main_v1, main_v2, main_v3] : List (Ref sig .tc)))
    (hw0 : ∀ w, Pipeline.arrRef spec0 w ≠ r) :
    W2 m ρ c (Proc.devRef .tc r) = m ((c.tc : Thread nD τ).loc r) :=
  (W2_of_ne m ρ c r hw0).trans (launch_at1 m ρ c r h0)

theorem launch_at3 (c : Dev nD) (r : Ref sig .tc)
    (h0 : r ∉ ([main_v0, main_v1, main_v2, main_v3] : List (Ref sig .tc)))
    (hw0 : ∀ w, Pipeline.arrRef spec0 w ≠ r)
    (h1 : r ∉ ([main_c, main_v5, main_v6, main_c_0, main_v7, main_v8, main_v9, main_v10, main_v11, main_cst, main_v12, main_v13, main_v14] : List (Ref sig .tc))) :
    W3 m ρ c (Proc.devRef .tc r) = m ((c.tc : Thread nD τ).loc r) :=
  (keep1 _ r h1).trans (launch_at2 m ρ c r h0 hw0)

theorem launch_at4 (c : Dev nD) (r : Ref sig .tc)
    (h0 : r ∉ ([main_v0, main_v1, main_v2, main_v3] : List (Ref sig .tc)))
    (hw0 : ∀ w, Pipeline.arrRef spec0 w ≠ r)
    (h1 : r ∉ ([main_c, main_v5, main_v6, main_c_0, main_v7, main_v8, main_v9, main_v10, main_v11, main_cst, main_v12, main_v13, main_v14] : List (Ref sig .tc)))
    (hw1 : ∀ w, Pipeline.arrRef spec1 w ≠ r) :
    W4 m ρ c (Proc.devRef .tc r) = m ((c.tc : Thread nD τ).loc r) :=
  (W4_of_ne m ρ c r hw1).trans (launch_at3 m ρ c r h0 hw0 h1)

theorem launch_at5 (c : Dev nD) (r : Ref sig .tc)
    (h0 : r ∉ ([main_v0, main_v1, main_v2, main_v3] : List (Ref sig .tc)))
    (hw0 : ∀ w, Pipeline.arrRef spec0 w ≠ r)
    (h1 : r ∉ ([main_c, main_v5, main_v6, main_c_0, main_v7, main_v8, main_v9, main_v10, main_v11, main_cst, main_v12, main_v13, main_v14] : List (Ref sig .tc)))
    (hw1 : ∀ w, Pipeline.arrRef spec1 w ≠ r)
    (h2 : r ∉ ([main_c_1, main_v16, main_v17, main_c_2, main_v18, main_v19, main_v20, main_v21, main_v22, main_cst_3, main_v23, main_v24, main_v25] : List (Ref sig .tc))) :
    W5 m ρ c (Proc.devRef .tc r) = m ((c.tc : Thread nD τ).loc r) :=
  (keep2 _ r h2).trans (launch_at4 m ρ c r h0 hw0 h1 hw1)

/-! The source and target columns, written once by the first stretch from the launch's edge list, are untouched by
    every later stretch and are no window of a region: they hold the same columns at each later boundary. -/

theorem src_at1 (c : Dev nD) : W1 m ρ c (Proc.devRef .tc main_v1) = src m c := src_after0 _
theorem dst_at1 (c : Dev nD) : W1 m ρ c (Proc.devRef .tc main_v3) = dst m c := dst_after0 _
theorem src_at2 (c : Dev nD) : W2 m ρ c (Proc.devRef .tc main_v1) = src m c :=
  (W2_of_ne m ρ c main_v1 (by decide)).trans (src_at1 m ρ c)
theorem dst_at2 (c : Dev nD) : W2 m ρ c (Proc.devRef .tc main_v3) = dst m c :=
  (W2_of_ne m ρ c main_v3 (by decide)).trans (dst_at1 m ρ c)
theorem src_at3 (c : Dev nD) : W3 m ρ c (Proc.devRef .tc main_v1) = src m c :=
  (keep1 _ main_v1 (by decide)).trans (src_at2 m ρ c)
theorem dst_at3 (c : Dev nD) : W3 m ρ c (Proc.devRef .tc main_v3) = dst m c :=
  (keep1 _ main_v3 (by decide)).trans (dst_at2 m ρ c)
theorem src_at4 (c : Dev nD) : W4 m ρ c (Proc.devRef .tc main_v1) = src m c :=
  (W4_of_ne m ρ c main_v1 (by decide)).trans (src_at3 m ρ c)
theorem dst_at4 (c : Dev nD) : W4 m ρ c (Proc.devRef .tc main_v3) = dst m c :=
  (W4_of_ne m ρ c main_v3 (by decide)).trans (dst_at3 m ρ c)

/-! Region 0 reads the five arguments below through input windows; the first stretch writes none of them. -/

theorem v1_arg0 (c : Dev nD) : V1 m ρ c main_arg0 = m ((c.tc : Thread nD τ).loc main_arg0) :=
  launch_at1 m ρ c main_arg0 (by decide)
theorem v1_arg2 (c : Dev nD) : V1 m ρ c main_arg2 = m ((c.tc : Thread nD τ).loc main_arg2) :=
  launch_at1 m ρ c main_arg2 (by decide)
theorem v1_arg3 (c : Dev nD) : V1 m ρ c main_arg3 = m ((c.tc : Thread nD τ).loc main_arg3) :=
  launch_at1 m ρ c main_arg3 (by decide)
theorem v1_arg4 (c : Dev nD) : V1 m ρ c main_arg4 = m ((c.tc : Thread nD τ).loc main_arg4) :=
  launch_at1 m ρ c main_arg4 (by decide)
theorem v1_arg5 (c : Dev nD) : V1 m ρ c main_arg5 = m ((c.tc : Thread nD τ).loc main_arg5) :=
  launch_at1 m ρ c main_arg5 (by decide)

/-! At region 1's entry: region 0's second output is as its last write-back left it (the second stretch only reads
    it), the aggregate is the second stretch's result over it, and the two weight arguments are as launched. -/

theorem v3_m0 (c : Dev nD) : V3 m ρ c main_v4_1 = km0 m ρ c :=
  (keep1 _ main_v4_1 (by decide)).trans (W2_arr m ρ c 6)
theorem v3_agg (c : Dev nD) : V3 m ρ c main_v14 = Cert.ReferenceIdeal.Stage.agg64 (F := Ideal) (src m c) (dst m c) (km0 m ρ c) :=
  agg_after1 (W2 m ρ c) _ _ _ (src_at2 m ρ c) (dst_at2 m ρ c) (W2_arr m ρ c 6)
theorem v3_arg6 (c : Dev nD) : V3 m ρ c main_arg6 = m ((c.tc : Thread nD τ).loc main_arg6) :=
  launch_at3 m ρ c main_arg6 (by decide) (by decide) (by decide)
theorem v3_arg7 (c : Dev nD) : V3 m ρ c main_arg7 = m ((c.tc : Thread nD τ).loc main_arg7) :=
  launch_at3 m ρ c main_arg7 (by decide) (by decide) (by decide)

/-! At region 2's entry, the same one region later: region 1's output, the third stretch's aggregate over it, and
    four arguments as launched. -/

theorem v5_m1 (c : Dev nD) : V5 m ρ c main_v15 = km1 m ρ c :=
  (keep2 _ main_v15 (by decide)).trans (W4_arr m ρ c 4)
theorem v5_agg (c : Dev nD) : V5 m ρ c main_v25 = Cert.ReferenceIdeal.Stage.agg64 (F := Ideal) (src m c) (dst m c) (km1 m ρ c) :=
  agg_after2 (W4 m ρ c) _ _ _ (src_at4 m ρ c) (dst_at4 m ρ c) (W4_arr m ρ c 4)
theorem v5_arg8 (c : Dev nD) : V5 m ρ c main_arg8 = m ((c.tc : Thread nD τ).loc main_arg8) :=
  launch_at5 m ρ c main_arg8 (by decide) (by decide) (by decide) (by decide) (by decide)
theorem v5_arg9 (c : Dev nD) : V5 m ρ c main_arg9 = m ((c.tc : Thread nD τ).loc main_arg9) :=
  launch_at5 m ρ c main_arg9 (by decide) (by decide) (by decide) (by decide) (by decide)
theorem v5_arg10 (c : Dev nD) : V5 m ρ c main_arg10 = m ((c.tc : Thread nD τ).loc main_arg10) :=
  launch_at5 m ρ c main_arg10 (by decide) (by decide) (by decide) (by decide) (by decide)
theorem v5_arg11 (c : Dev nD) : V5 m ρ c main_arg11 = m ((c.tc : Thread nD τ).loc main_arg11) :=
  launch_at5 m ρ c main_arg11 (by decide) (by decide) (by decide) (by decide) (by decide)

/-- The result buffer at the end of the run is region 4's output window after its last write-back. -/
theorem w10_out (c : Dev nD) : W10 m ρ c (Proc.devRef .tc main_v142) = kout m ρ c :=
  W10_arr m ρ c 5

end Cert.KernelIdeal.Chain

end
-- ==== Proof.KHostB.lean ====
import proofs.«417419_j39436389712331_2_alg».proof.Proof.KStages

set_option maxRecDepth 16384

noncomputable section

namespace Cert.KernelIdeal.Chain

open Idealize.ShloMosaic Idealize.ShloMosaic.TcCoe Idealize.SL.Sem
open Idealize.ShloMosaic.Pipeline (Dat Cfg Window)
open Cert.KernelIdeal Cert.KernelIdeal.Gen
variable (m : (ℓ : Loc nD τ sig) → Buf (Elt Ideal) ℓ) (ρ : Dev nD → PrngReg)

namespace HostB

/-- A buffer that no operation of a host stretch writes holds after the stretch what it held before it: each
    operation's result buffer is compared with the buffer in question. -/
local macro "untouched_by " l:ident : tactic =>
  `(tactic| exact StableHlo.after_of_forall_not_mem _ _ (List.forall_iff_forall_mem.mp (by
      simp only [$l:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Two concatenations of two equal-shaped parts along the same axis are equal when their parts are. -/
theorem cat2_congr {α : Type} {t s : Shape} {a : Fin t.rank} {x x' y y' : s.Idx → α}
    {h : Shape.Concatenates (([⟨s, x⟩, ⟨s, y⟩] : List ((r : Shape) × (r.Idx → α))).map (·.1)) t a}
    (hx : x = x') (hy : y = y') :
    concatenate t a [⟨s, x⟩, ⟨s, y⟩] h = concatenate t a [⟨s, x'⟩, ⟨s, y'⟩] (by subst hx; subst hy; exact h) := by
  subst hx; subst hy; rfl

/-! ### The buffers the later host stretches read, at region 2's exit

The edge columns (the first stretch's two slices of the edge list), region 0's embedding h and the argument holding
the diffusion weights are written by nothing between their origin and region 2's exit: regions 0, 1 and 2 do not have
them among their arrays' outputs, and the second and third host stretches write other buffers. -/

theorem w1_v1 (c : Dev nD) : W1 m ρ c (Proc.devRef .tc main_v1) = src m c := by
  show StableHlo.after hostOps0 (W0 m ρ c) (Proc.devRef .tc main_v1) = _
  after_results
  rfl

theorem w1_v3 (c : Dev nD) : W1 m ρ c (Proc.devRef .tc main_v3) = dst m c := by
  show StableHlo.after hostOps0 (W0 m ρ c) (Proc.devRef .tc main_v3) = _
  after_results
  rfl

theorem w6_v1 (c : Dev nD) : W6 m ρ c (Proc.devRef .tc main_v1) = src m c :=
  calc W6 m ρ c (Proc.devRef .tc main_v1)
    _ = W5 m ρ c (Proc.devRef .tc main_v1) := W6_of_ne m ρ c main_v1 (by decide)
    _ = W4 m ρ c (Proc.devRef .tc main_v1) := by untouched_by hostOps2
    _ = W3 m ρ c (Proc.devRef .tc main_v1) := W4_of_ne m ρ c main_v1 (by decide)
    _ = W2 m ρ c (Proc.devRef .tc main_v1) := by untouched_by hostOps1
    _ = W1 m ρ c (Proc.devRef .tc main_v1) := W2_of_ne m ρ c main_v1 (by decide)
    _ = src m c := w1_v1 m ρ c

theorem w6_v3 (c : Dev nD) : W6 m ρ c (Proc.devRef .tc main_v3) = dst m c :=
  calc W6 m ρ c (Proc.devRef .tc main_v3)
    _ = W5 m ρ c (Proc.devRef .tc main_v3) := W6_of_ne m ρ c main_v3 (by decide)
    _ = W4 m ρ c (Proc.devRef .tc main_v3) := by untouched_by hostOps2
    _ = W3 m ρ c (Proc.devRef .tc main_v3) := W4_of_ne m ρ c main_v3 (by decide)
    _ = W2 m ρ c (Proc.devRef .tc main_v3) := by untouched_by hostOps1
    _ = W1 m ρ c (Proc.devRef .tc main_v3) := W2_of_ne m ρ c main_v3 (by decide)
    _ = dst m c := w1_v3 m ρ c

theorem w6_h (c : Dev nD) : W6 m ρ c (Proc.devRef .tc main_v4_0) = kh m ρ c :=
  calc W6 m ρ c (Proc.devRef .tc main_v4_0)
    _ = W5 m ρ c (Proc.devRef .tc main_v4_0) := W6_of_ne m ρ c main_v4_0 (by decide)
    _ = W4 m ρ c (Proc.devRef .tc main_v4_0) := by untouched_by hostOps2
    _ = W3 m ρ c (Proc.devRef .tc main_v4_0) := W4_of_ne m ρ c main_v4_0 (by decide)
    _ = W2 m ρ c (Proc.devRef .tc main_v4_0) := by untouched_by hostOps1
    _ = kh m ρ c := W2_arr m ρ c 5

theorem w6_sc (c : Dev nD) : W6 m ρ c (Proc.devRef .tc main_v26) = ksc m ρ c := W6_arr m ρ c 6

theorem w6_arg12 (c : Dev nD) : W6 m ρ c (Proc.devRef .tc main_arg12) = m ((c.tc : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by untouched_by hostOps2
    _ = W3 m ρ c (Proc.devRef .tc main_arg12) := W4_of_ne m ρ c main_arg12 (by decide)
    _ = W2 m ρ c (Proc.devRef .tc main_arg12) := by untouched_by hostOps1
    _ = W1 m ρ c (Proc.devRef .tc main_arg12) := W2_of_ne m ρ c main_arg12 (by decide)
    _ = W0 m ρ c (Proc.devRef .tc main_arg12) := by untouched_by hostOps0
    _ = m ((c.tc : Thread nD τ).loc main_arg12) := rfl

theorem w8_v1 (c : Dev nD) : W8 m ρ c (Proc.devRef .tc main_v1) = src m c :=
  calc W8 m ρ c (Proc.devRef .tc main_v1)
    _ = W7 m ρ c (Proc.devRef .tc main_v1) := W8_of_ne m ρ c main_v1 (by decide)
    _ = W6 m ρ c (Proc.devRef .tc main_v1) := by untouched_by hostOps3
    _ = src m c := w6_v1 m ρ c

theorem w8_v3 (c : Dev nD) : W8 m ρ c (Proc.devRef .tc main_v3) = dst m c :=
  calc W8 m ρ c (Proc.devRef .tc main_v3)
    _ = W7 m ρ c (Proc.devRef .tc main_v3) := W8_of_ne m ρ c main_v3 (by decide)
    _ = W6 m ρ c (Proc.devRef .tc main_v3) := by untouched_by hostOps3
    _ = dst m c := w6_v3 m ρ c

theorem w8_arg12 (c : Dev nD) : W8 m ρ c (Proc.devRef .tc main_arg12) = m ((c.tc : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := by untouched_by hostOps3
    _ = m ((c.tc : Thread nD τ).loc main_arg12) := w6_arg12 m ρ c

/-! ### The fourth and fifth host stretches, over any entry contents

Each lemma reads one buffer after a stretch as the stage function of the stretch's entry contents at the buffers it
reads. The per-edge message is a concatenation of its two stalk rows; the rows are read separately and joined. -/

theorem xs_of (V0 : Valuation τ sig (Elt Ideal)) :
    StableHlo.after hostOps3 V0 (Proc.devRef .tc main_v74)
      = Cert.ReferenceIdeal.Stage.xsOf (F := Ideal) (V0 (Proc.devRef .tc main_v4_0)) := by
  after_results_simp
  rfl

theorem wd0_of (V0 : Valuation τ sig (Elt Ideal)) :
    StableHlo.after hostOps3 V0 (Proc.devRef .tc main_v107)
      = Cert.ReferenceIdeal.Stage.wd0 (F := Ideal) (V0 (Proc.devRef .tc main_arg12)) := by
  after_results_simp
  rfl

theorem wd1_of (V0 : Valuation τ sig (Elt Ideal)) :
    StableHlo.after hostOps4 V0 (Proc.devRef .tc main_v141)
      = Cert.ReferenceIdeal.Stage.wd1 (F := Ideal) (V0 (Proc.devRef .tc main_arg12)) := by
  after_results_simp
  rfl

/-- cos (s − t) per edge, as the fourth stretch leaves it. -/
theorem cd_of (V0 : Valuation τ sig (Elt Ideal)) :
    StableHlo.after hostOps3 V0 (Proc.devRef .tc main_v70)
      = Cert.KernelIdeal.KMsg.cosDelta (F := Ideal)
          (Cert.KernelIdeal.KMsg.pairAt (V0 (Proc.devRef .tc main_v26)) (V0 (Proc.devRef .tc main_v1)))
          (Cert.KernelIdeal.KMsg.pairAt (V0 (Proc.devRef .tc main_v26)) (V0 (Proc.devRef .tc main_v3))) := by
  after_results_simp
  rfl

/-- sin (s − t) per edge, as the fourth stretch leaves it. -/
theorem sd_of (V0 : Valuation τ sig (Elt Ideal)) :
    StableHlo.after hostOps3 V0 (Proc.devRef .tc main_v73)
      = Cert.KernelIdeal.KMsg.sinDelta (F := Ideal)
          (Cert.KernelIdeal.KMsg.pairAt (V0 (Proc.devRef .tc main_v26)) (V0 (Proc.devRef .tc main_v1)))
          (Cert.KernelIdeal.KMsg.pairAt (V0 (Proc.devRef .tc main_v26)) (V0 (Proc.devRef .tc main_v3))) := by
  after_results_simp
  rfl

/-- The edge norms as a column, as the fourth stretch leaves them. -/
theorem nc_of (V0 : Valuation τ sig (Elt Ideal)) :
    StableHlo.after hostOps3 V0 (Proc.devRef .tc main_v49)
      = broadcastInDim S1600000x1 ![0] bcast_S1600000_S1600000x1_0
          (Cert.ReferenceIdeal.Stage.nrmOf (F := Ideal) (Cert.ReferenceIdeal.Stage.degOf (V0 (Proc.devRef .tc main_v3)))
            (V0 (Proc.devRef .tc main_v1)) (V0 (Proc.devRef .tc main_v3))) := by
  after_results_simp
  rfl

set_option maxHeartbeats 4000000 in
/-- The aggregated message after the fourth stretch: the scatter-add over the edges' targets of the message built
    from region 2's pairs, region 0's embedding seen as stalks and gathered at the sources, and the edge norms. -/
theorem agg_of (V0 : Valuation τ sig (Elt Ideal)) :
    StableHlo.after hostOps3 V0 (Proc.devRef .tc main_v105)
      = Cert.ReferenceIdeal.Stage.agg2x16 (F := Ideal) (V0 (Proc.devRef .tc main_v3))
          (Cert.KernelIdeal.KMsg.msgK (V0 (Proc.devRef .tc main_v26))
            (Cert.ReferenceIdeal.Stage.atSrc (Cert.ReferenceIdeal.Stage.xsOf (V0 (Proc.devRef .tc main_v4_0))) (V0 (Proc.devRef .tc main_v1)))
            (V0 (Proc.devRef .tc main_v1)) (V0 (Proc.devRef .tc main_v3))
            (Cert.ReferenceIdeal.Stage.nrmOf (Cert.ReferenceIdeal.Stage.degOf (V0 (Proc.devRef .tc main_v3))) (V0 (Proc.devRef .tc main_v1)) (V0 (Proc.devRef .tc main_v3)))) := by
  after_results_simp
  unfold Cert.ReferenceIdeal.Stage.agg2x16 Cert.KernelIdeal.KMsg.msgK
  refine congrArg (Host.scatterAdd _ _ _) (cat2_congr ?_ ?_)
  · after_results_simp
    rfl
  · after_results_simp
    rfl

set_option maxHeartbeats 4000000 in
/-- The aggregated message after the fifth stretch, which reuses the fourth's angle-difference columns and norm
    column and gathers the stalk features region 3 left. -/
theorem agg1_of (V0 : Valuation τ sig (Elt Ideal)) (sc : FVec Ideal S100000x2 .f32) (xs : FVec Ideal S100000x2x16 .f32)
    (s d : IVec S1600000 32) (n : FVec Ideal S1600000 .f32)
    (h1 : V0 (Proc.devRef .tc main_v1) = s) (h3 : V0 (Proc.devRef .tc main_v3) = d)
    (hx : V0 (Proc.devRef .tc main_v108) = xs)
    (hc : V0 (Proc.devRef .tc main_v70) = Cert.KernelIdeal.KMsg.cosDelta (Cert.KernelIdeal.KMsg.pairAt sc s) (Cert.KernelIdeal.KMsg.pairAt sc d))
    (hs : V0 (Proc.devRef .tc main_v73) = Cert.KernelIdeal.KMsg.sinDelta (Cert.KernelIdeal.KMsg.pairAt sc s) (Cert.KernelIdeal.KMsg.pairAt sc d))
    (hn : V0 (Proc.devRef .tc main_v49) = broadcastInDim S1600000x1 ![0] bcast_S1600000_S1600000x1_0 n) :
    StableHlo.after hostOps4 V0 (Proc.devRef .tc main_v139)
      = Cert.ReferenceIdeal.Stage.agg2x16 (F := Ideal) d
          (Cert.KernelIdeal.KMsg.msgK sc (Cert.ReferenceIdeal.Stage.atSrc xs s) s d n) := by
  after_results_simp
  unfold Cert.ReferenceIdeal.Stage.agg2x16 Cert.KernelIdeal.KMsg.msgK
  rw [h3]
  refine congrArg (Host.scatterAdd _ _ _) (cat2_congr ?_ ?_)
  · after_results_simp
    rw [h1, hx, hc, hs, hn]
    rfl
  · after_results_simp
    rw [h1, hx, hc, hs, hn]
    rfl

theorem w8_cd (c : Dev nD) : W8 m ρ c (Proc.devRef .tc main_v70)
    = Cert.KernelIdeal.KMsg.cosDelta (F := Ideal) (Cert.KernelIdeal.KMsg.pairAt (ksc m ρ c) (src m c)) (Cert.KernelIdeal.KMsg.pairAt (ksc m ρ c) (dst m c)) :=
  calc W8 m ρ c (Proc.devRef .tc main_v70)
    _ = W7 m ρ c (Proc.devRef .tc main_v70) := W8_of_ne m ρ c main_v70 (by decide)
    _ = _ := cd_of (W6 m ρ c)
    _ = _ := by rw [w6_sc, w6_v1, w6_v3]

theorem w8_sd (c : Dev nD) : W8 m ρ c (Proc.devRef .tc main_v73)
    = Cert.KernelIdeal.KMsg.sinDelta (F := Ideal) (Cert.KernelIdeal.KMsg.pairAt (ksc m ρ c) (src m c)) (Cert.KernelIdeal.KMsg.pairAt (ksc m ρ c) (dst m c)) :=
  calc W8 m ρ c (Proc.devRef .tc main_v73)
    _ = W7 m ρ c (Proc.devRef .tc main_v73) := W8_of_ne m ρ c main_v73 (by decide)
    _ = _ := sd_of (W6 m ρ c)
    _ = _ := by rw [w6_sc, w6_v1, w6_v3]

theorem w8_nc (c : Dev nD) : W8 m ρ c (Proc.devRef .tc main_v49)
    = broadcastInDim S1600000x1 ![0] bcast_S1600000_S1600000x1_0 (nrm m c) :=
  calc W8 m ρ c (Proc.devRef .tc main_v49)
    _ = W7 m ρ c (Proc.devRef .tc main_v49) := W8_of_ne m ρ c main_v49 (by decide)
    _ = _ := nc_of (W6 m ρ c)
    _ = _ := by rw [w6_v1, w6_v3]

/-- The fifth stretch does not write region 3's output. -/
theorem w9_xs (c : Dev nD) : W9 m ρ c (Proc.devRef .tc main_v108) = W8 m ρ c (Proc.devRef .tc main_v108) := by
  untouched_by hostOps4

end HostB

/-! ### What the fourth and the fifth region find in the buffers they read -/

/-- Region 3 reads the stalk features as region 0's embedding reshaped. -/
theorem v7_xs (c : Dev nD) : V7 m ρ c main_v74 = Cert.ReferenceIdeal.Stage.xsOf (F := Ideal) (kh m ρ c) :=
  (HostB.xs_of (W6 m ρ c)).trans (congrArg _ (HostB.w6_h m ρ c))
/-- Region 3 reads the aggregated message of the first diffusion step. -/
theorem v7_agg (c : Dev nD) : V7 m ρ c main_v105 = Cert.ReferenceIdeal.Stage.agg2x16 (F := Ideal) (dst m c) (Cert.KernelIdeal.KMsg.msgK (ksc m ρ c) (Cert.ReferenceIdeal.Stage.atSrc (Cert.ReferenceIdeal.Stage.xsOf (kh m ρ c)) (src m c)) (src m c) (dst m c) (nrm m c)) :=
  (HostB.agg_of (W6 m ρ c)).trans (by rw [HostB.w6_v3, HostB.w6_sc, HostB.w6_h, HostB.w6_v1])
/-- Region 3 reads the first layer's diffusion weights, a slice of the launch's weight argument. -/
theorem v7_wd (c : Dev nD) : V7 m ρ c main_v107 = Cert.ReferenceIdeal.Stage.wd0 (F := Ideal) (m ((c.tc : Thread nD τ).loc main_arg12)) :=
  (HostB.wd0_of (W6 m ρ c)).trans (congrArg _ (HostB.w6_arg12 m ρ c))
/-- Region 4 reads the stalk features region 3 left: the fifth stretch writes other buffers. -/
theorem v9_xs (c : Dev nD) : V9 m ρ c main_v108 = kxs1 m ρ c :=
  (HostB.w9_xs m ρ c).trans (W8_arr m ρ c 3)
/-- Region 4 reads the aggregated message of the second diffusion step. -/
theorem v9_agg (c : Dev nD) : V9 m ρ c main_v139 = Cert.ReferenceIdeal.Stage.agg2x16 (F := Ideal) (dst m c) (Cert.KernelIdeal.KMsg.msgK (ksc m ρ c) (Cert.ReferenceIdeal.Stage.atSrc (kxs1 m ρ c) (src m c)) (src m c) (dst m c) (nrm m c)) :=
  HostB.agg1_of (W8 m ρ c) (ksc m ρ c) (kxs1 m ρ c) (src m c) (dst m c) (nrm m c)
    (HostB.w8_v1 m ρ c) (HostB.w8_v3 m ρ c) (W8_arr m ρ c 3) (HostB.w8_cd m ρ c) (HostB.w8_sd m ρ c) (HostB.w8_nc m ρ c)
/-- Region 4 reads the second layer's diffusion weights. -/
theorem v9_wd (c : Dev nD) : V9 m ρ c main_v141 = Cert.ReferenceIdeal.Stage.wd1 (F := Ideal) (m ((c.tc : Thread nD τ).loc main_arg12)) :=
  (HostB.wd1_of (W8 m ρ c)).trans (congrArg _ (HostB.w8_arg12 m ρ c))
/-- The output projection's weight is an input window of region 4: as launched. -/
theorem v9_arg13 (c : Dev nD) : V9 m ρ c main_arg13 = m ((c.tc : Thread nD τ).loc main_arg13) :=
  (((W10_arr m ρ c 3).trans (((dat4 (V9 m ρ) c).arrAt_in 3 rfl _).trans (A_eq4 (V9 m ρ) c 3))).symm).trans (W10_main_arg13 m ρ c)
/-- The output projection's bias likewise. -/
theorem v9_arg14 (c : Dev nD) : V9 m ρ c main_arg14 = m ((c.tc : Thread nD τ).loc main_arg14) :=
  (((W10_arr m ρ c 4).trans (((dat4 (V9 m ρ) c).arrAt_in 4 rfl _).trans (A_eq4 (V9 m ρ) c 4))).symm).trans (W10_main_arg14 m ρ c)

end Cert.KernelIdeal.Chain

end
-- ==== Proof.Region0.lean ====
/-
  Region 0 of the kernel program: the input embedding and the first message layer, block by block.

  The node table has N = 100000 rows; the region visits it in ten blocks of 10000 rows, with the weights and biases
  whole at every block. On a block x of rows it forms

    h  = x · W_in + b_in              (10000 × 128 by 128 × 32, the bias laid along every row)
    m0 = gelu (h · W₁ + b₁)           (10000 × 32 by 32 × 64)

  and writes each back to rows t · 10000 … t · 10000 + 9999 of its array. Entry (p, q) of a matrix product depends on
  row p of the left factor only, so row p of a block's result is row t · 10000 + p of the same formula over the whole
  table: after the ten write-backs the two arrays hold the stage functions hOf and gelu64 ∘ pre0 of the arrays the
  region reads. The kernel's gelu cubes its argument as y · (y · y) and the stage function as (y · y) · y; they agree
  because multiplication of extended reals is commutative.
-/
import proofs.«417419_j39436389712331_2_alg».proof.Proof.Gen.KernelIdeal.Frame
import proofs.«417419_j39436389712331_2_alg».proof.Proof.Stage
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## The two matrix products as sums over the contracted coordinate -/

/-- The block product x · W_in (10000 × 128 by 128 × 32) carries the plain rows-by-columns dimension numbers. -/
theorem dotK1_plain : dot_S10000x128_S128x32_S10000x32_1_0_0_1_n_n = DotDims.plain 10000 128 32 := rfl
/-- So does the block product h · W₁ (10000 × 32 by 32 × 64). -/
theorem dotK2_plain : dot_S10000x32_S32x64_S10000x64_1_0_0_1_n_n = DotDims.plain 10000 32 64 := rfl
/-- The whole-table product x · W_in (100000 × 128 by 128 × 32) likewise. -/
theorem dotR1_plain : Cert.ReferenceIdeal.dot_S100000x128_S128x32_S100000x32_1_0_0_1_n_n = DotDims.plain 100000 128 32 := rfl
/-- And the whole-table product h · W₁ (100000 × 32 by 32 × 64). -/
theorem dotR2_plain : Cert.ReferenceIdeal.dot_S100000x32_S32x64_S100000x64_1_0_0_1_n_n = DotDims.plain 100000 32 64 := rfl

/-- Entry (p, q) of a block's product into the zero accumulator is Σ_c x[p, c] · W[c, q]. -/
theorem matmulK1_at (x : FVec Ideal S10000x128 .f32) (W : FVec Ideal S128x32 .f32) (p : Fin 10000) (q : Fin 32) :
    matmul dot_S10000x128_S128x32_S10000x32_1_0_0_1_n_n none x W (constant (F := Ideal) S10000x32 .f32 0x00000000#32) (ix2 p q)
      = ∑ c : Fin 128, x (ix2 p c) * W (ix2 c q) := by
  rw [matmul_zero_eq_dotGeneral, dotK1_plain]
  exact StackMember.dotGeneral_plain_apply none x W p q

theorem matmulK2_at (x : FVec Ideal S10000x32 .f32) (W : FVec Ideal S32x64 .f32) (p : Fin 10000) (q : Fin 64) :
    matmul dot_S10000x32_S32x64_S10000x64_1_0_0_1_n_n none x W (constant (F := Ideal) S10000x64 .f32 0x00000000#32) (ix2 p q)
      = ∑ c : Fin 32, x (ix2 p c) * W (ix2 c q) := by
  rw [matmul_zero_eq_dotGeneral, dotK2_plain]
  exact StackMember.dotGeneral_plain_apply none x W p q

/-! ## The bias rows -/

/-- The kernel lays a bias of 32 entries along every row of a block: cast to one row, then broadcast down the rows. -/
theorem biasK32_at (b : FVec Ideal S32 .f32) (p : Fin 10000) (q : Fin 32) :
    broadcastTo S10000x32 (shapeCast S1x32 b shapeCasts_S32_S1x32) broadcasts_S1x32_S10000x32 (ix2 p q) = b (ix1 q) := by
  refine (broadcastTo_apply _ broadcasts_S1x32_S10000x32 (ix2 p q) (ix2 (0 : Fin 1) q) ?_).trans
    (shapeCast_apply b shapeCasts_S32_S1x32 (ix2 (0 : Fin 1) q) (ix1 q) ?_)
  · intro a
    match a with
    | ⟨0, _⟩ => rfl
    | ⟨1, _⟩ => rfl
  · rw [Shape.rowMajor_val_two, Shape.rowMajor_val_one]
    show q.val = 0 * 32 + q.val
    omega

theorem biasK64_at (b : FVec Ideal S64 .f32) (p : Fin 10000) (q : Fin 64) :
    broadcastTo S10000x64 (shapeCast S1x64 b shapeCasts_S64_S1x64) broadcasts_S1x64_S10000x64 (ix2 p q) = b (ix1 q) := by
  refine (broadcastTo_apply _ broadcasts_S1x64_S10000x64 (ix2 p q) (ix2 (0 : Fin 1) q) ?_).trans
    (shapeCast_apply b shapeCasts_S64_S1x64 (ix2 (0 : Fin 1) q) (ix1 q) ?_)
  · intro a
    match a with
    | ⟨0, _⟩ => rfl
    | ⟨1, _⟩ => rfl
  · rw [Shape.rowMajor_val_two, Shape.rowMajor_val_one]
    show q.val = 0 * 64 + q.val
    omega

/-- The reference lays the same bias along every row of the whole table: to one row, then down the rows. -/
theorem biasR32_at (b : FVec Ideal Cert.ReferenceIdeal.S32 .f32) (r : Fin 100000) (q : Fin 32) :
    broadcastInDim Cert.ReferenceIdeal.S100000x32 ![0, 1] Cert.ReferenceIdeal.Gen.bcast_S1x32_S100000x32_0_1
      (broadcastInDim Cert.ReferenceIdeal.S1x32 ![1] Cert.ReferenceIdeal.Gen.bcast_S32_S1x32_1 b) (ix2 r q) = b (ix1 q) := by
  refine (broadcastInDim_oneRow_apply _ _ r q).trans
    (broadcastInDim_apply ![1] _ b (ix2 (0 : Fin 1) q) (ix1 q) ?_)
  intro a
  match a with
  | ⟨0, _⟩ => rfl

theorem biasR64_at (b : FVec Ideal Cert.ReferenceIdeal.S64 .f32) (r : Fin 100000) (q : Fin 64) :
    broadcastInDim Cert.ReferenceIdeal.S100000x64 ![0, 1] Cert.ReferenceIdeal.Gen.bcast_S1x64_S100000x64_0_1
      (broadcastInDim Cert.ReferenceIdeal.S1x64 ![1] Cert.ReferenceIdeal.Gen.bcast_S64_S1x64_1 b) (ix2 r q) = b (ix1 q) := by
  refine (broadcastInDim_oneRow_apply _ _ r q).trans
    (broadcastInDim_apply ![1] _ b (ix2 (0 : Fin 1) q) (ix1 q) ?_)
  intro a
  match a with
  | ⟨0, _⟩ => rfl

/-! ## The embedding h = x · W_in + b_in, entry by entry -/

/-- Entry (p, q) of a block of h, as the kernel computes it from the block of x and the whole weights. -/
theorem pay1_at (x : FVec Ideal S10000x128 .f32) (W : FVec Ideal S128x32 .f32) (b : FVec Ideal S32 .f32) (p : Fin 10000) (q : Fin 32) :
    k0_pay1 (F := Ideal) x W b (ix2 p q) = (∑ c : Fin 128, x (ix2 p c) * W (ix2 c q)) + b (ix1 q) := by
  unfold k0_pay1
  rw [addf_apply, matmulK1_at, biasK32_at]

/-- Entry (r, q) of the whole table h, as the reference computes it. -/
theorem hOf_at (X : FVec Ideal Cert.ReferenceIdeal.S100000x128 .f32) (W : FVec Ideal Cert.ReferenceIdeal.S128x32 .f32)
    (b : FVec Ideal Cert.ReferenceIdeal.S32 .f32) (r : Fin 100000) (q : Fin 32) :
    Cert.ReferenceIdeal.Stage.hOf (F := Ideal) X W b (ix2 r q) = (∑ c : Fin 128, X (ix2 r c) * W (ix2 c q)) + b (ix1 q) := by
  unfold Cert.ReferenceIdeal.Stage.hOf
  rw [addf_apply, biasR32_at, dotR1_plain]
  exact congrArg (· + b (ix1 q)) (StackMember.dotGeneral_plain_apply none X W r q)

/-- Entry (r, q) of h · W₁ + b₁ over the whole table. -/
theorem pre0_at (H : FVec Ideal Cert.ReferenceIdeal.S100000x32 .f32) (W : FVec Ideal Cert.ReferenceIdeal.S32x64 .f32)
    (b : FVec Ideal Cert.ReferenceIdeal.S64 .f32) (r : Fin 100000) (q : Fin 64) :
    Cert.ReferenceIdeal.Stage.pre0 (F := Ideal) H W b (ix2 r q) = (∑ c : Fin 32, H (ix2 r c) * W (ix2 c q)) + b (ix1 q) := by
  unfold Cert.ReferenceIdeal.Stage.pre0
  rw [addf_apply, biasR64_at, dotR2_plain]
  exact congrArg (· + b (ix1 q)) (StackMember.dotGeneral_plain_apply none H W r q)

/-! ## gelu, on one value -/

/-- gelu (tanh approximation) of one extended real, its cube bracketed y · (y · y) as the kernel multiplies. -/
def geluK (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * (y * y))))))

/-- The same with the cube bracketed (y · y) · y, as the reference multiplies. -/
def geluR (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * ((y * y) * y)))))

/-- The two bracketings of the cube agree: multiplication of extended reals is commutative. -/
theorem geluK_eq_geluR (y : EReal) : geluK y = geluR y := by
  unfold geluK geluR
  rw [mul_comm y (y * y)]

/-- Entry (p, q) of a block of m0 in the kernel: gelu of the entry of (block of h) · W₁ + b₁. -/
theorem pay2_at (x : FVec Ideal S10000x128 .f32) (W : FVec Ideal S128x32 .f32) (b : FVec Ideal S32 .f32)
    (W1 : FVec Ideal S32x64 .f32) (b1 : FVec Ideal S64 .f32) (p : Fin 10000) (q : Fin 64) :
    k0_pay2 (F := Ideal) x W b W1 b1 (ix2 p q)
      = geluK ((∑ c : Fin 32, k0_pay1 (F := Ideal) x W b (ix2 p c) * W1 (ix2 c q)) + b1 (ix1 q)) := by
  rw [← matmulK2_at, ← biasK64_at b1 p q]
  rfl

/-- Entry (r, q) of gelu of a whole table. -/
theorem gelu64_at (Y : FVec Ideal Cert.ReferenceIdeal.S100000x64 .f32) (j : Cert.ReferenceIdeal.S100000x64.Idx) :
    Cert.ReferenceIdeal.Stage.gelu64 (F := Ideal) Y j = geluR (Y j) := rfl

/-! ## A block of the kernel's result is a block of the stage function

Grid point t works on rows t · 10000 … t · 10000 + 9999 of the node table: its block of x is those rows of x, and the
weights and biases are whole. Row p of the block's result is then row t · 10000 + p of the stage function. -/

/-- The block of h at point t is rows t · 10000 … of h of the whole arrays. -/
theorem blockH (X : FVec Ideal Cert.ReferenceIdeal.S100000x128 .f32) (W : FVec Ideal Cert.ReferenceIdeal.S128x32 .f32)
    (B : FVec Ideal Cert.ReferenceIdeal.S32 .f32)
    (x : FVec Ideal S10000x128 .f32) (w : FVec Ideal S128x32 .f32) (b : FVec Ideal S32 .f32) (t : Nat) (ht : t < 10)
    (hx : ∀ (p : Fin 10000) (k : Fin 128), x (ix2 p k) = X (ix2 (⟨t * 10000 + p.val, by omega⟩ : Fin 100000) k))
    (hw : ∀ (k : Fin 128) (q : Fin 32), w (ix2 k q) = W (ix2 k q)) (hb : ∀ q : Fin 32, b (ix1 q) = B (ix1 q))
    (p : Fin 10000) (q : Fin 32) :
    k0_pay1 (F := Ideal) x w b (ix2 p q)
      = Cert.ReferenceIdeal.Stage.hOf (F := Ideal) X W B (ix2 (⟨t * 10000 + p.val, by omega⟩ : Fin 100000) q) := by
  rw [pay1_at, hOf_at, hb]
  exact congrArg (· + B (ix1 q)) (Finset.sum_congr rfl fun k _ => by rw [hx, hw])

/-- The block of m0 at point t is rows t · 10000 … of gelu (h · W₁ + b₁) of the whole arrays. -/
theorem blockM (X : FVec Ideal Cert.ReferenceIdeal.S100000x128 .f32) (W : FVec Ideal Cert.ReferenceIdeal.S128x32 .f32)
    (B : FVec Ideal Cert.ReferenceIdeal.S32 .f32) (W1 : FVec Ideal Cert.ReferenceIdeal.S32x64 .f32) (B1 : FVec Ideal Cert.ReferenceIdeal.S64 .f32)
    (x : FVec Ideal S10000x128 .f32) (w : FVec Ideal S128x32 .f32) (b : FVec Ideal S32 .f32)
    (w1 : FVec Ideal S32x64 .f32) (b1 : FVec Ideal S64 .f32) (t : Nat) (ht : t < 10)
    (hx : ∀ (p : Fin 10000) (k : Fin 128), x (ix2 p k) = X (ix2 (⟨t * 10000 + p.val, by omega⟩ : Fin 100000) k))
    (hw : ∀ (k : Fin 128) (q : Fin 32), w (ix2 k q) = W (ix2 k q)) (hb : ∀ q : Fin 32, b (ix1 q) = B (ix1 q))
    (hw1 : ∀ (k : Fin 32) (q : Fin 64), w1 (ix2 k q) = W1 (ix2 k q)) (hb1 : ∀ q : Fin 64, b1 (ix1 q) = B1 (ix1 q))
    (p : Fin 10000) (q : Fin 64) :
    k0_pay2 (F := Ideal) x w b w1 b1 (ix2 p q)
      = Cert.ReferenceIdeal.Stage.gelu64 (F := Ideal)
          (Cert.ReferenceIdeal.Stage.pre0 (Cert.ReferenceIdeal.Stage.hOf X W B) W1 B1) (ix2 (⟨t * 10000 + p.val, by omega⟩ : Fin 100000) q) := by
  rw [pay2_at, gelu64_at, pre0_at, geluK_eq_geluR, hb1]
  exact congrArg (fun s => geluR (s + B1 (ix1 q)))
    (Finset.sum_congr rfl fun k _ => by rw [blockH X W B x w b t ht hx hw hb p k, hw1])

/-! ## The windows' blocks, read off the arrays

Each window's block at a grid point is a rectangle of its array: block index × block size on every axis. The index
maps are decided once over the ten grid points: the node windows (x, h, m0) take block t on the row axis, the weight
and bias windows take block 0. -/

theorem hz2 : (![0, 0] : Fin 2 → Nat) = fun _ => 0 := funext fun a => by fin_cases a <;> rfl
theorem hz1 : (![0] : Fin 1 → Nat) = fun _ => 0 := funext fun a => by fin_cases a; rfl

/-- The windows' index maps at every grid point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The block of x at point t is rows t · 10000 … of x. -/
theorem xblk_at (c : Dev nD) (t : Fin cfg0.N) (ht : t.val < 10) (p : Fin 10000) (k : Fin 128) :
    iblk0 (F := Ideal) V c 0 t (ix2 p k) = V c main_arg0 (ix2 (⟨t.val * 10000 + p.val, by omega⟩ : Fin 100000) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The block of W_in at every point is all of W_in. -/
theorem winblk_at (c : Dev nD) (t : Fin cfg0.N) (k : Fin 128) (q : Fin 32) :
    iblk0 (F := Ideal) V c 1 t (ix2 k q) = V c main_arg2 (ix2 k q) := by
  obtain ⟨-, -, e0, e1, -⟩ := idx_facts t
  show V c main_arg2 (((cfg0.win 1).blk t).view.emb (ix2 k q)) = _
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 32 + 1 * q.val = q.val; omega

/-- The block of b_in at every point is all of b_in. -/
theorem binblk_at (c : Dev nD) (t : Fin cfg0.N) (q : Fin 32) :
    iblk0 (F := Ideal) V c 2 t (ix1 q) = V c main_arg3 (ix1 q) := by
  obtain ⟨-, -, -, -, e0, -⟩ := idx_facts t
  show V c main_arg3 (((cfg0.win 2).blk t).view.emb (ix1 q)) = _
  refine congrArg (V c main_arg3) (funext fun a => Fin.ext ?_)
  match a with
  | ⟨0, _⟩ => show win0_2.index t (0 : Fin 1) * 32 + 1 * q.val = q.val; omega

/-- The block of W₁ at every point is all of W₁. -/
theorem w1blk_at (c : Dev nD) (t : Fin cfg0.N) (k : Fin 32) (q : Fin 64) :
    iblk0 (F := Ideal) V c 3 t (ix2 k q) = V c main_arg4 (ix2 k q) := by
  obtain ⟨-, -, -, -, -, e0, e1, -⟩ := idx_facts t
  show V c main_arg4 (((cfg0.win 3).blk t).view.emb (ix2 k q)) = _
  refine congrArg (V c main_arg4) (funext fun a => Fin.ext ?_)
  match a with
  | ⟨0, _⟩ => show win0_3.index t (0 : Fin 2) * 32 + 1 * k.val = k.val; omega
  | ⟨1, _⟩ => show win0_3.index t (1 : Fin 2) * 64 + 1 * q.val = q.val; omega

/-- The block of b₁ at every point is all of b₁. -/
theorem b1blk_at (c : Dev nD) (t : Fin cfg0.N) (q : Fin 64) :
    iblk0 (F := Ideal) V c 4 t (ix1 q) = V c main_arg5 (ix1 q) := by
  obtain ⟨-, -, -, -, -, -, -, e0, -⟩ := idx_facts t
  show V c main_arg5 (((cfg0.win 4).blk t).view.emb (ix1 q)) = _
  refine congrArg (V c main_arg5) (funext fun a => Fin.ext ?_)
  match a with
  | ⟨0, _⟩ => show win0_4.index t (0 : Fin 1) * 64 + 1 * q.val = q.val; omega

/-! ## What each point writes back -/

/-- Point t writes back, into the h array, block t of h of the arrays the region reads. -/
theorem flushedH (c : Dev nD) (t : Fin cfg0.N) :
    (dat0 (F := Ideal) V c).flushed 5 t
      = ((cfg0.win 5).blk t).view.read (Elt Ideal)
          (Cert.ReferenceIdeal.Stage.hOf (F := Ideal) (V c main_arg0) (V c main_arg2) (V c main_arg3)) := by
  show (cfg0.win 5).cut (grid0.coords t) ((dat0 V c).after 5 t) = _
  rw [after0_5]
  unfold out0_5
  rw [View.canon_unit_zero hz2]
  simp only [View.ld_unit_zero (S := S10000x128) hz2, View.ld_unit_zero (S := S128x32) hz2, View.ld_unit_zero (S := S32) hz1]
  have ht : t.val < 10 := t.isLt
  obtain ⟨-, -, -, -, -, -, -, -, e0, e1, -⟩ := idx_facts t
  funext j
  obtain ⟨p, q, rfl⟩ : ∃ (p : Fin 10000) (q : Fin 32), j = ix2 p q := ⟨j 0, j 1, eq_ix2 j⟩
  show k0_pay1 (F := Ideal) (iblk0 V c 0 t) (iblk0 V c 1 t) (iblk0 V c 2 t) (ix2 p q)
    = Cert.ReferenceIdeal.Stage.hOf (F := Ideal) (V c main_arg0) (V c main_arg2) (V c main_arg3) (((cfg0.win 5).blk t).view.emb (ix2 p q))
  refine (blockH (V c main_arg0) (V c main_arg2) (V c main_arg3) (iblk0 V c 0 t) (iblk0 V c 1 t) (iblk0 V c 2 t) t.val ht
    (xblk_at V c t ht) (winblk_at V c t) (binblk_at V c t) p q).trans ?_
  refine congrArg (Cert.ReferenceIdeal.Stage.hOf (F := Ideal) (V c main_arg0) (V c main_arg2) (V c main_arg3)) (funext fun a => Fin.ext ?_)
  match a with
  | ⟨0, _⟩ => show t.val * 10000 + p.val = win0_5.index t (0 : Fin 2) * 10000 + 1 * p.val; omega
  | ⟨1, _⟩ => show q.val = win0_5.index t (1 : Fin 2) * 32 + 1 * q.val; omega

/-- Point t writes back, into the m0 array, block t of gelu (h · W₁ + b₁) of the arrays the region reads. -/
theorem flushedM (c : Dev nD) (t : Fin cfg0.N) :
    (dat0 (F := Ideal) V c).flushed 6 t
      = ((cfg0.win 6).blk t).view.read (Elt Ideal)
          (Cert.ReferenceIdeal.Stage.gelu64 (F := Ideal) (Cert.ReferenceIdeal.Stage.pre0
            (Cert.ReferenceIdeal.Stage.hOf (V c main_arg0) (V c main_arg2) (V c main_arg3)) (V c main_arg4) (V c main_arg5))) := by
  show (cfg0.win 6).cut (grid0.coords t) ((dat0 V c).after 6 t) = _
  rw [after0_6]
  unfold out0_6
  rw [View.canon_unit_zero hz2]
  simp only [View.ld_unit_zero (S := S10000x128) hz2, View.ld_unit_zero (S := S128x32) hz2, View.ld_unit_zero (S := S32) hz1,
    View.ld_unit_zero (S := S32x64) hz2, View.ld_unit_zero (S := S64) hz1]
  have ht : t.val < 10 := t.isLt
  obtain ⟨-, -, -, -, -, -, -, -, -, -, e0, e1⟩ := idx_facts t
  funext j
  obtain ⟨p, q, rfl⟩ : ∃ (p : Fin 10000) (q : Fin 64), j = ix2 p q := ⟨j 0, j 1, eq_ix2 j⟩
  show k0_pay2 (F := Ideal) (iblk0 V c 0 t) (iblk0 V c 1 t) (iblk0 V c 2 t) (iblk0 V c 3 t) (iblk0 V c 4 t) (ix2 p q)
    = Cert.ReferenceIdeal.Stage.gelu64 (F := Ideal) (Cert.ReferenceIdeal.Stage.pre0
        (Cert.ReferenceIdeal.Stage.hOf (V c main_arg0) (V c main_arg2) (V c main_arg3)) (V c main_arg4) (V c main_arg5))
        (((cfg0.win 6).blk t).view.emb (ix2 p q))
  refine (blockM (V c main_arg0) (V c main_arg2) (V c main_arg3) (V c main_arg4) (V c main_arg5)
    (iblk0 V c 0 t) (iblk0 V c 1 t) (iblk0 V c 2 t) (iblk0 V c 3 t) (iblk0 V c 4 t) t.val ht
    (xblk_at V c t ht) (winblk_at V c t) (binblk_at V c t) (w1blk_at V c t) (b1blk_at V c t) p q).trans ?_
  refine congrArg (Cert.ReferenceIdeal.Stage.gelu64 (F := Ideal) (Cert.ReferenceIdeal.Stage.pre0
        (Cert.ReferenceIdeal.Stage.hOf (V c main_arg0) (V c main_arg2) (V c main_arg3)) (V c main_arg4) (V c main_arg5)))
      (funext fun a => Fin.ext ?_)
  match a with
  | ⟨0, _⟩ => show t.val * 10000 + p.val = win0_6.index t (0 : Fin 2) * 10000 + 1 * p.val; omega
  | ⟨1, _⟩ => show q.val = win0_6.index t (1 : Fin 2) * 64 + 1 * q.val; omega

/-! ## The blocks tile the arrays -/

/-- A row of the h array is in point t's block iff each coordinate is in the block's range on its axis. -/
theorem mem_blkH (t : Fin cfg0.N) (i : S100000x32.Idx) :
    i ∈ ((cfg0.win 5).blk t).view.set ↔ ∀ a : Fin 2, win0_5.index t a * S10000x32.size a ≤ (i a).val
      ∧ (i a).val < win0_5.index t a * S10000x32.size a + S10000x32.size a := by
  show i ∈ ((View.whole main_v4_0).slice (win0_5.rect t)).set ↔ _
  rw [View.set_slice_whole, Rect.mem_set_unit]
  exact Iff.rfl

theorem mem_blkM (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v4_1).slice (win0_6.rect t)).set ↔ _
  rw [View.set_slice_whole, Rect.mem_set_unit]
  exact Iff.rfl

/-- Row r of the h array is in the block of point r / 10000, which writes back. -/
theorem coverH (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have ht : (i 0).val / 10000 < 10 := by omega
  obtain ⟨-, -, -, -, -, -, -, -, e0, e1, -⟩ := idx_facts ⟨(i 0).val / 10000, ht⟩
  refine ⟨⟨(i 0).val / 10000, ht⟩, flush0_5 _, ?_⟩
  rw [mem_blkH]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_5.index ⟨(i 0).val / 10000, ht⟩ (1 : Fin 2) * 32 ≤ (i 1).val
      ∧ (i 1).val < win0_5.index ⟨(i 0).val / 10000, ht⟩ (1 : Fin 2) * 32 + 32
    omega

theorem coverM (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 10000 < 10 := by omega
  obtain ⟨-, -, -, -, -, -, -, -, -, -, e0, e1⟩ := idx_facts ⟨(i 0).val / 10000, ht⟩
  refine ⟨⟨(i 0).val / 10000, ht⟩, flush0_6 _, ?_⟩
  rw [mem_blkM]
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_6.index ⟨(i 0).val / 10000, ht⟩ (1 : Fin 2) * 64 ≤ (i 1).val
      ∧ (i 1).val < win0_6.index ⟨(i 0).val / 10000, ht⟩ (1 : Fin 2) * 64 + 64
    omega

/-! ## The region's two output arrays -/

theorem h_eq (c : Dev nD) : (dat0 (F := Ideal) V c).arrAt 5 cfg0.N = Cert.ReferenceIdeal.Stage.hOf (F := Ideal) (V c main_arg0) (V c main_arg2) (V c main_arg3) :=
  (dat0 (F := Ideal) V c).arrAt_eq_of_cover 5 _ (fun t _ => flushedH V c t) coverH

theorem m0_eq (c : Dev nD) : (dat0 (F := Ideal) V c).arrAt 6 cfg0.N = Cert.ReferenceIdeal.Stage.gelu64 (F := Ideal) (Cert.ReferenceIdeal.Stage.pre0 (Cert.ReferenceIdeal.Stage.hOf (V c main_arg0) (V c main_arg2) (V c main_arg3)) (V c main_arg4) (V c main_arg5)) :=
  (dat0 (F := Ideal) V c).arrAt_eq_of_cover 6 _ (fun t _ => flushedM V c t) coverM

end Cert.KernelIdeal.Region0

end
-- ==== Proof.Region1.lean ====
import proofs.«417419_j39436389712331_2_alg».proof.Proof.Gen.KernelIdeal.Frame
import proofs.«417419_j39436389712331_2_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem
open Idealize.ShloMosaic.Pipeline (Dat Cfg Window)
open Cert.KernelIdeal Cert.KernelIdeal.Gen
open Idealize.ShloMosaic.ValueIdx
open scoped BigOperators

variable (V : (c : Dev nD) → (b : Ref sig .tc) → Buf (Elt Ideal) ((c : Thread nD τ).loc b))

/-! ## The two 64-term products at an index -/

/-- The block product's dimension numbers: rows by the contracted axis, times the contracted axis by columns. -/
abbrev KD : DotDims S10000x64 S64x64 S10000x64 := dot_S10000x64_S64x64_S10000x64_1_0_0_1_n_n

theorem klhs_0 (i : S10000x64.Idx) (q : KD.contr.Idx) : (KD.lhsIdx i q 0).val = (i 0).val := by
  unfold DotDims.lhsIdx
  rw [dif_neg (show ¬(0 : Fin S10000x64.rank) ∈ KD.lhsBatch by decide), dif_pos (show (0 : Fin S10000x64.rank) ∈ KD.lhsNonContracting by decide)]
  rfl
theorem klhs_1 (i : S10000x64.Idx) (q : KD.contr.Idx) : (KD.lhsIdx i q 1).val = (q ⟨0, by decide⟩).val :=
  KD.lhsIdx_val_of_single rfl i q
theorem krhs_0 (i : S10000x64.Idx) (q : KD.contr.Idx) : (KD.rhsIdx i q 0).val = (q ⟨0, by decide⟩).val :=
  KD.rhsIdx_val_of_single rfl i q
theorem krhs_1 (i : S10000x64.Idx) (q : KD.contr.Idx) : (KD.rhsIdx i q 1).val = (i 1).val := by
  unfold DotDims.rhsIdx
  rw [dif_neg (show ¬(1 : Fin S64x64.rank) ∈ KD.rhsBatch by decide), dif_pos (show (1 : Fin S64x64.rank) ∈ KD.rhsNonContracting by decide)]
  rfl

/-- A block product into the zero accumulator, at row p and column q: the sum over the contracted coordinate. -/
theorem block_product_entry (x : FVec Ideal S10000x64 .f32) (w : FVec Ideal S64x64 .f32) (p : Fin 10000) (q : Fin 64) :
    matmul KD none x w (constant S10000x64 .f32 0x00000000#32) (ix2 p q) = ∑ k : Fin 64, x (ix2 p k) * w (ix2 k q) := by
  show FloatOps.matmul KD none x w _ (ix2 p q) = _
  rw [Ideal.matmul_constant_zero_apply, ← Equiv.sum_comp (contrEquiv1 KD 64 rfl rfl).symm]
  refine Finset.sum_congr rfl fun k _ => ?_
  have hk := contrEquiv1_symm_val KD 64 rfl rfl k
  have el : KD.lhsIdx (ix2 p q) ((contrEquiv1 KD 64 rfl rfl).symm k) = ix2 p k := funext fun a => Fin.ext (by
    match a with
    | ⟨0, _⟩ => exact klhs_0 _ _
    | ⟨1, _⟩ => exact (klhs_1 _ _).trans hk)
  have er : KD.rhsIdx (ix2 p q) ((contrEquiv1 KD 64 rfl rfl).symm k) = ix2 k q := funext fun a => Fin.ext (by
    match a with
    | ⟨0, _⟩ => exact (krhs_0 _ _).trans hk
    | ⟨1, _⟩ => exact krhs_1 _ _)
  rw [el, er]

/-- The whole-table product's dimension numbers, the same pattern over all the rows. -/
abbrev RD : DotDims Cert.ReferenceIdeal.S100000x64 Cert.ReferenceIdeal.S64x64 Cert.ReferenceIdeal.S100000x64 :=
  Cert.ReferenceIdeal.dot_S100000x64_S64x64_S100000x64_1_0_0_1_n_n

theorem rlhs_0 (i : Cert.ReferenceIdeal.S100000x64.Idx) (q : RD.contr.Idx) : (RD.lhsIdx i q 0).val = (i 0).val := by
  unfold DotDims.lhsIdx
  rw [dif_neg (show ¬(0 : Fin Cert.ReferenceIdeal.S100000x64.rank) ∈ RD.lhsBatch by decide), dif_pos (show (0 : Fin Cert.ReferenceIdeal.S100000x64.rank) ∈ RD.lhsNonContracting by decide)]
  rfl
theorem rlhs_1 (i : Cert.ReferenceIdeal.S100000x64.Idx) (q : RD.contr.Idx) : (RD.lhsIdx i q 1).val = (q ⟨0, by decide⟩).val :=
  RD.lhsIdx_val_of_single rfl i q
theorem rrhs_0 (i : Cert.ReferenceIdeal.S100000x64.Idx) (q : RD.contr.Idx) : (RD.rhsIdx i q 0).val = (q ⟨0, by decide⟩).val :=
  RD.rhsIdx_val_of_single rfl i q
theorem rrhs_1 (i : Cert.ReferenceIdeal.S100000x64.Idx) (q : RD.contr.Idx) : (RD.rhsIdx i q 1).val = (i 1).val := by
  unfold DotDims.rhsIdx
  rw [dif_neg (show ¬(1 : Fin Cert.ReferenceIdeal.S64x64.rank) ∈ RD.rhsBatch by decide), dif_pos (show (1 : Fin Cert.ReferenceIdeal.S64x64.rank) ∈ RD.rhsNonContracting by decide)]
  rfl

/-- The whole-table product at row r and column q: the same sum over the contracted coordinate. -/
theorem table_product_entry (x : FVec Ideal Cert.ReferenceIdeal.S100000x64 .f32) (w : FVec Ideal Cert.ReferenceIdeal.S64x64 .f32) (r : Fin 100000) (q : Fin 64) :
    Host.dotGeneral RD none x w (ix2 r q) = ∑ k : Fin 64, x (ix2 r k) * w (ix2 k q) := by
  show FloatOps.dotGeneral RD none .single x w (ix2 r q) = _
  rw [Ideal.dotGeneral_apply, ← Equiv.sum_comp (contrEquiv1 RD 64 rfl rfl).symm]
  refine Finset.sum_congr rfl fun k _ => ?_
  have hk := contrEquiv1_symm_val RD 64 rfl rfl k
  have el : RD.lhsIdx (ix2 r q) ((contrEquiv1 RD 64 rfl rfl).symm k) = ix2 r k := funext fun a => Fin.ext (by
    match a with
    | ⟨0, _⟩ => exact rlhs_0 _ _
    | ⟨1, _⟩ => exact (rlhs_1 _ _).trans hk)
  have er : RD.rhsIdx (ix2 r q) ((contrEquiv1 RD 64 rfl rfl).symm k) = ix2 k q := funext fun a => Fin.ext (by
    match a with
    | ⟨0, _⟩ => exact (rrhs_0 _ _).trans hk
    | ⟨1, _⟩ => exact rrhs_1 _ _)
  rw [el, er]

/-! ## gelu of one entry -/

/-- gelu (tanh approximation) of one extended real: s · (½ · (1 + tanh (c₂ · (s + c₁ · s³)))), the cube bracketed
    s · (s · s), the four literals kept as their words. -/
def gelu1 (s : EReal) : EReal :=
  s * (Ideal.ofBits .f32 0x3F000000#32 * (Ideal.ofBits .f32 0x3F800000#32 + Ideal.tanh (Ideal.ofBits .f32 0x3F4C422A#32 * (s + Ideal.ofBits .f32 0x3D372713#32 * (s * (s * s))))))

/-- The mixed pre-activation of one entry: row p of the node table against column q of the self weights, plus row p of the
    aggregated table against column q of the neighbour weights. -/
def mix1 {n : Nat} (a b : (⟨2, ![n, 64]⟩ : Shape).Idx → EReal) (Ws Wn : (⟨2, ![64, 64]⟩ : Shape).Idx → EReal) (p : Fin n) (q : Fin 64) : EReal :=
  (∑ k : Fin 64, a (ix2 p k) * Ws (ix2 k q)) + ∑ k : Fin 64, b (ix2 p k) * Wn (ix2 k q)

/-- The body's value at row p, column q of its block. -/
theorem body_entry (x0 x1 : Vec Ideal S10000x64 .f32) (w2 w3 : Vec Ideal S64x64 .f32) (p : Fin 10000) (q : Fin 64) :
    k1_pay1 (F := Ideal) x0 x1 w2 w3 (ix2 p q) = gelu1 (mix1 x0 x1 w2 w3 p q) := by
  unfold k1_pay1
  simp only [shapeCast_self]
  simp only [mulf_apply, addf_apply, broadcast_apply]
  show _ * (_ * (_ + FloatOps.tanh _)) = _
  simp only [mulf_apply, addf_apply, broadcast_apply]
  rw [block_product_entry x0 w2 p q, block_product_entry x1 w3 p q]
  rfl

/-- A literal spread over the whole table reads the literal everywhere. -/
theorem literal_entry (b : BitVec 32) (j : Cert.ReferenceIdeal.S100000x64.Idx) :
    broadcastInDim Cert.ReferenceIdeal.S100000x64 ![] Cert.ReferenceIdeal.Gen.bcast_S_S100000x64 (constant (F := Ideal) Cert.ReferenceIdeal.S_ .f32 b) j = Ideal.ofBits .f32 b := rfl

/-- The stage function at row r, column q of the whole table: the same entry function, its cube bracketed (s · s) · s,
    which commutativity of the product turns into s · (s · s). -/
theorem stage_entry (a b : FVec Ideal Cert.ReferenceIdeal.S100000x64 .f32) (Ws Wn : FVec Ideal Cert.ReferenceIdeal.S64x64 .f32) (r : Fin 100000) (q : Fin 64) :
    Cert.ReferenceIdeal.Stage.gelu64 (F := Ideal) (Cert.ReferenceIdeal.Stage.mix a b Ws Wn) (ix2 r q) = gelu1 (mix1 a b Ws Wn r q) := by
  have hm : Cert.ReferenceIdeal.Stage.mix a b Ws Wn (ix2 r q) = mix1 a b Ws Wn r q := by
    unfold Cert.ReferenceIdeal.Stage.mix
    rw [addf_apply, table_product_entry, table_product_entry]
    rfl
  unfold Cert.ReferenceIdeal.Stage.gelu64
  simp only [mulf_apply, addf_apply]
  show _ * (_ * (_ + FloatOps.hostUnary .tanh _)) = _
  simp only [mulf_apply, addf_apply, Ideal.hostUnary_tanh_def]
  rw [literal_entry, literal_entry, literal_entry, literal_entry, hm]
  unfold gelu1
  rw [mul_comm (mix1 a b Ws Wn r q * mix1 a b Ws Wn r q) (mix1 a b Ws Wn r q)]

/-- The mixed entry depends only on row p of the two tables and column q of the two weight matrices. -/
theorem mix1_congr {n m : Nat} (a b : (⟨2, ![n, 64]⟩ : Shape).Idx → EReal) (a' b' : (⟨2, ![m, 64]⟩ : Shape).Idx → EReal)
    (Ws Wn Ws' Wn' : (⟨2, ![64, 64]⟩ : Shape).Idx → EReal) (p : Fin n) (r : Fin m) (q : Fin 64)
    (ha : ∀ k : Fin 64, a (ix2 p k) = a' (ix2 r k)) (hb : ∀ k : Fin 64, b (ix2 p k) = b' (ix2 r k))
    (hs : ∀ k : Fin 64, Ws (ix2 k q) = Ws' (ix2 k q)) (hn : ∀ k : Fin 64, Wn (ix2 k q) = Wn' (ix2 k q)) :
    mix1 a b Ws Wn p q = mix1 a' b' Ws' Wn' r q := by
  unfold mix1
  refine congrArg₂ (· + ·) (Finset.sum_congr rfl fun k _ => ?_) (Finset.sum_congr rfl fun k _ => ?_)
  · rw [ha k, hs k]
  · rw [hb k, hn k]

/-! ## From the blocks to the array -/

theorem origin_eq : (![0, 0] : Fin 2 → Nat) = fun _ => 0 := funext fun a => by fin_cases a <;> rfl

/-- The index maps over the grid: at point t the two node tables and the output take block t of 10000 rows, the two weight
    matrices their one block. -/
theorem block_index : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the stage function of the arrays the region reads: entry (p, q) of the block
    is entry (10000 · t + p, q) of the table, rows of the node tables read at the same offset, the weights whole. -/
theorem block_written (c : Dev nD) (t : Fin cfg1.N) :
    (dat1 (F := Ideal) V c).flushed 4 t = ((cfg1.win 4).blk t).view.read (Elt Ideal)
      (Cert.ReferenceIdeal.Stage.gelu64 (F := Ideal) (Cert.ReferenceIdeal.Stage.mix (V c main_v4_1) (V c main_v14) (V c main_arg6) (V c main_arg7))) := by
  show (cfg1.win 4).cut (grid1.coords t) ((dat1 V c).after 4 t) = _
  rw [after1_4]
  unfold out1_4
  rw [View.canon_unit_zero origin_eq]
  simp only [View.ld_unit_zero (S := S10000x64) origin_eq, View.ld_unit_zero (S := S64x64) origin_eq]
  obtain ⟨ht, e00, e01, e10, e11, e20, e21, e30, e31, e40, e41⟩ := block_index t
  funext j
  obtain ⟨p, q, rfl⟩ : ∃ (p : Fin 10000) (q : Fin 64), j = ix2 p q := ⟨j 0, j 1, eq_ix2 j⟩
  have hr : t.val * 10000 + p.val < 100000 := by have := p.isLt; omega
  have hout : ((cfg1.win 4).blk t).view.emb (ix2 p q) = ix2 (⟨t.val * 10000 + p.val, hr⟩ : Fin 100000) q := by
    funext a; apply Fin.ext
    match a with
    | ⟨0, _⟩ => show win1_4.index t (0 : Fin 2) * 10000 + 1 * p.val = t.val * 10000 + p.val; omega
    | ⟨1, _⟩ => show win1_4.index t (1 : Fin 2) * 64 + 1 * q.val = q.val; omega
  have h0 : ∀ k : Fin 64, ((cfg1.win 0).blk t).view.emb (ix2 p k) = ix2 (⟨t.val * 10000 + p.val, hr⟩ : Fin 100000) k := fun k => by
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  have h1 : ∀ k : Fin 64, ((cfg1.win 1).blk t).view.emb (ix2 p k) = ix2 (⟨t.val * 10000 + p.val, hr⟩ : Fin 100000) k := fun k => by
    funext a; apply Fin.ext
    match a with
    | ⟨0, _⟩ => show win1_1.index t (0 : Fin 2) * 10000 + 1 * p.val = t.val * 10000 + p.val; omega
    | ⟨1, _⟩ => show win1_1.index t (1 : Fin 2) * 64 + 1 * k.val = k.val; omega
  have h2 : ∀ k : Fin 64, ((cfg1.win 2).blk t).view.emb (ix2 k q) = ix2 k q := fun k => by
    funext a; apply Fin.ext
    match a with
    | ⟨0, _⟩ => show win1_2.index t (0 : Fin 2) * 64 + 1 * k.val = k.val; omega
    | ⟨1, _⟩ => show win1_2.index t (1 : Fin 2) * 64 + 1 * q.val = q.val; omega
  have h3 : ∀ k : Fin 64, ((cfg1.win 3).blk t).view.emb (ix2 k q) = ix2 k q := fun k => by
    funext a; apply Fin.ext
    match a with
    | ⟨0, _⟩ => show win1_3.index t (0 : Fin 2) * 64 + 1 * k.val = k.val; omega
    | ⟨1, _⟩ => show win1_3.index t (1 : Fin 2) * 64 + 1 * q.val = q.val; omega
  show k1_pay1 (F := Ideal) (iblk1 V c 0 t) (iblk1 V c 1 t) (iblk1 V c 2 t) (iblk1 V c 3 t) (ix2 p q)
    = Cert.ReferenceIdeal.Stage.gelu64 (F := Ideal) (Cert.ReferenceIdeal.Stage.mix (V c main_v4_1) (V c main_v14) (V c main_arg6) (V c main_arg7)) (((cfg1.win 4).blk t).view.emb (ix2 p q))
  rw [hout, stage_entry, body_entry]
  refine congrArg gelu1 (mix1_congr (iblk1 V c 0 t) (iblk1 V c 1 t) (V c main_v4_1) (V c main_v14) (iblk1 V c 2 t) (iblk1 V c 3 t) (V c main_arg6) (V c main_arg7)
    p ⟨t.val * 10000 + p.val, hr⟩ q (fun k => ?_) (fun k => ?_) (fun k => ?_) (fun k => ?_))
  · show V c main_v4_1 (((cfg1.win 0).blk t).view.emb (ix2 p k)) = _
    rw [h0 k]
  · show V c main_v14 (((cfg1.win 1).blk t).view.emb (ix2 p k)) = _
    rw [h1 k]
  · show V c main_arg6 (((cfg1.win 2).blk t).view.emb (ix2 k q)) = _
    rw [h2 k]
  · show V c main_arg7 (((cfg1.win 3).blk t).view.emb (ix2 k q)) = _
    rw [h3 k]

/-- A row-column pair of the table is in point t's block iff its row is among the block's 10000 rows (and its column
    among all 64). -/
theorem mem_block_iff (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v15).slice (win1_4.rect t)).set ↔ _
  rw [View.set_slice_whole, Rect.mem_set_unit]
  exact Iff.rfl

/-- The ten blocks tile the table: row r lies in the block of point r / 10000. -/
theorem blocks_cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : (i 0).val / 10000 < cfg1.N := by show (i 0).val / 10000 < 10; omega
  obtain ⟨-, -, -, -, -, -, -, -, -, e40, e41⟩ := block_index ⟨(i 0).val / 10000, hN⟩
  refine ⟨⟨(i 0).val / 10000, hN⟩, flush1_4 _, ?_⟩
  rw [mem_block_iff]
  intro a
  match a with
  | ⟨0, _⟩ =>
    show win1_4.index ⟨(i 0).val / 10000, hN⟩ (0 : Fin 2) * 10000 ≤ (i 0).val ∧ (i 0).val < win1_4.index ⟨(i 0).val / 10000, hN⟩ (0 : Fin 2) * 10000 + 10000
    rw [e40]; show (i 0).val / 10000 * 10000 ≤ (i 0).val ∧ (i 0).val < (i 0).val / 10000 * 10000 + 10000; omega
  | ⟨1, _⟩ =>
    show win1_4.index ⟨(i 0).val / 10000, hN⟩ (1 : Fin 2) * 64 ≤ (i 1).val ∧ (i 1).val < win1_4.index ⟨(i 0).val / 10000, hN⟩ (1 : Fin 2) * 64 + 64
    rw [e41]; omega

/-- After the last write-back the output table is the stage function of the arrays the region reads. -/
theorem m1_eq (c : Dev nD) : (dat1 (F := Ideal) V c).arrAt 4 cfg1.N = Cert.ReferenceIdeal.Stage.gelu64 (F := Ideal) (Cert.ReferenceIdeal.Stage.mix (V c main_v4_1) (V c main_v14) (V c main_arg6) (V c main_arg7)) :=
  (dat1 (F := Ideal) V c).arrAt_eq_of_cover 4 _ (fun t _ => block_written V c t) blocks_cover

end Cert.KernelIdeal.Region1

end
-- ==== Proof.Region2.lean ====
import proofs.«417419_j39436389712331_2_alg».proof.Proof.Gen.KernelIdeal.Frame
import proofs.«417419_j39436389712331_2_alg».proof.Proof.Stage
import Idealize.ShloMosaic.Lib.Pipeline.Value
import Idealize.ShloMosaic.Lib.ValueIdx
import Idealize.ShloMosaic.Lib.ValueLayout
import Idealize.ShloMosaic.PureOps.Ideal.Laws

/-!
  The third kernel region: per node, the pair (sin ang, cos ang) of its rotation angle.

  For a block of 10000 node rows the region forms m' = gelu (m · Ws + agg · Wn), the column
  ang = tanh (m' · w + b) · 2π, and stores sin ang beside cos ang. Every one of these steps acts row by row,
  so row p of the block at grid point t depends only on row 10000 t + p of the two node tables and on the
  weights. The reference builds the same table from whole arrays. Both sides are brought to one scalar
  expression per row (`angAt`): the products become sums over the 64 contracted channels, the two
  spellings of the cube in gelu differ by one use of associativity, and the bias is read through its
  broadcasts. The ten blocks tile the 100000 rows, so the array after the last write-back is the reference's table.
-/

set_option maxRecDepth 16384

noncomputable section

namespace Cert.KernelIdeal.Region2

open Idealize.ShloMosaic Idealize.ShloMosaic.TcCoe Idealize.SL.Sem
open Idealize.ShloMosaic.Pipeline (Dat Cfg Window)
open Cert.KernelIdeal Cert.KernelIdeal.Gen
open Idealize.ShloMosaic.ValueIdx
open scoped BigOperators

/-! ## A rows-by-columns product read at an index -/

/-- A product of an m × k by a k × n matrix into the zero accumulator, at (a, b): the sum over the contracted
    coordinate of the entries' products. -/
theorem matmul_zero_ix2 {m k n : Nat}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    matmul (⟨[1], [0], [0], [1], [], [], w⟩ : DotDims _ _ _) prec A B (constant _ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The host's product of the same two matrices, at (a, b): the same sum. -/
theorem dot_ix2 {m k n : Nat}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## One row of the stage, as extended reals -/

/-- gelu (tanh approximation) of one extended real, x · (½ · (1 + tanh (c₂ · (x + c₁ · x³)))), the cube read x · (x · x). -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- Entry (r, k) of t · Ws + a · Wn, for node tables of any number of rows. -/
def mixAt {n : Nat} (t a : FVec Ideal ⟨2, ![n, 64]⟩ .f32) (Ws Wn : FVec Ideal ⟨2, ![64, 64]⟩ .f32) (r : Fin n) (k : Fin 64) : EReal :=
  (∑ l : Fin 64, t (ix2 r l) * Ws (ix2 l k)) + ∑ l : Fin 64, a (ix2 r l) * Wn (ix2 l k)

/-- The angle of row r: tanh (gelu (row r of t · Ws + a · Wn) · w + b) · 2π. -/
def angAt {n : Nat} (t a : FVec Ideal ⟨2, ![n, 64]⟩ .f32) (Ws Wn : FVec Ideal ⟨2, ![64, 64]⟩ .f32)
    (w : FVec Ideal ⟨2, ![64, 1]⟩ .f32) (b : FVec Ideal ⟨1, ![1]⟩ .f32) (r : Fin n) : EReal :=
  Ideal.tanh ((∑ k : Fin 64, gelu (mixAt t a Ws Wn r k) * w (ix2 k (0 : Fin 1))) + b (ix1 (0 : Fin 1)))
    * Ideal.ofBits .f32 0x40C90FDB#32

/-- The angle of a row depends only on that row of the two tables and on the weights' entries. -/
theorem angAt_congr {n n' : Nat} (t a : FVec Ideal ⟨2, ![n, 64]⟩ .f32) (t' a' : FVec Ideal ⟨2, ![n', 64]⟩ .f32)
    (Ws Wn Ws' Wn' : FVec Ideal ⟨2, ![64, 64]⟩ .f32) (w w' : FVec Ideal ⟨2, ![64, 1]⟩ .f32) (b b' : FVec Ideal ⟨1, ![1]⟩ .f32)
    (r : Fin n) (r' : Fin n') (ht : ∀ l : Fin 64, t (ix2 r l) = t' (ix2 r' l)) (ha : ∀ l : Fin 64, a (ix2 r l) = a' (ix2 r' l))
    (hWs : ∀ l k : Fin 64, Ws (ix2 l k) = Ws' (ix2 l k)) (hWn : ∀ l k : Fin 64, Wn (ix2 l k) = Wn' (ix2 l k))
    (hw : ∀ k : Fin 64, w (ix2 k (0 : Fin 1)) = w' (ix2 k (0 : Fin 1))) (hb : b (ix1 (0 : Fin 1)) = b' (ix1 (0 : Fin 1))) :
    angAt t a Ws Wn w b r = angAt t' a' Ws' Wn' w' b' r' := by
  unfold angAt mixAt
  simp only [ht, ha, hWs, hWn, hw, hb]

/-! ## The block program, stage by stage -/

/-- The block's m · Ws + agg · Wn: two products into zero accumulators, added. -/
def kMix (x0 x1 : FVec Ideal S10000x64 .f32) (x2 x3 : FVec Ideal S64x64 .f32) : FVec Ideal S10000x64 .f32 :=
  addf (matmul dot_S10000x64_S64x64_S10000x64_1_0_0_1_n_n none (shapeCast S10000x64 x0 shapeCasts_S10000x64_S10000x64) x2 (constant S10000x64 .f32 0x00000000#32))
    (matmul dot_S10000x64_S64x64_S10000x64_1_0_0_1_n_n none (shapeCast S10000x64 x1 shapeCasts_S10000x64_S10000x64) x3 (constant S10000x64 .f32 0x00000000#32))

/-- The block's gelu. -/
def kGelu (v8 : FVec Ideal S10000x64 .f32) : FVec Ideal S10000x64 .f32 :=
  mulf v8 (mulf (broadcast S10000x64 (Scalar.ofBits (F := Ideal) .f32 0x3F000000#32)) (addf (broadcast S10000x64 (Scalar.ofBits (F := Ideal) .f32 0x3F800000#32))
    (Idealize.ShloMosaic.tanh (mulf (broadcast S10000x64 (Scalar.ofBits (F := Ideal) .f32 0x3F4C422A#32)) (addf v8 (mulf (broadcast S10000x64 (Scalar.ofBits (F := Ideal) .f32 0x3D372713#32)) (mulf v8 (mulf v8 v8))))))))

/-- The block's angle column: tanh (m' · w + b) · 2π. -/
def kAng (v21 : FVec Ideal S10000x64 .f32) (x4 : FVec Ideal S64x1 .f32) (x5 : FVec Ideal S1 .f32) : FVec Ideal S10000x1 .f32 :=
  mulf (Idealize.ShloMosaic.tanh (addf (matmul dot_S10000x64_S64x1_S10000x1_1_0_0_1_n_n none v21 x4 (constant S10000x1 .f32 0x00000000#32))
    (broadcastTo S10000x1 (shapeCast S1x1 x5 shapeCasts_S1_S1x1) broadcasts_S1x1_S10000x1))) (broadcast S10000x1 (Scalar.ofBits (F := Ideal) .f32 0x40C90FDB#32))

/-- The body's stored value is the sine and cosine columns of the angle, side by side. -/
theorem pay_eq (x0 x1 : FVec Ideal S10000x64 .f32) (x2 x3 : FVec Ideal S64x64 .f32) (x4 : FVec Ideal S64x1 .f32) (x5 : FVec Ideal S1 .f32) :
    k2_pay1 (F := Ideal) x0 x1 x2 x3 x4 x5 = concatenate S10000x2 1 [⟨S10000x1, Idealize.ShloMosaic.sin (kAng (kGelu (kMix x0 x1 x2 x3)) x4 x5)⟩,
      ⟨S10000x1, Idealize.ShloMosaic.cos (kAng (kGelu (kMix x0 x1 x2 x3)) x4 x5)⟩] concatenates_S10000x1_S10000x1_S10000x2_d1 := rfl

theorem kMix_apply (x0 x1 : FVec Ideal S10000x64 .f32) (x2 x3 : FVec Ideal S64x64 .f32) (p : Fin 10000) (k : Fin 64) :
    kMix x0 x1 x2 x3 (ix2 p k) = mixAt x0 x1 x2 x3 p k := by
  unfold kMix mixAt
  rw [shapeCast_self, shapeCast_self]
  exact congrArg₂ (· + ·) (matmul_zero_ix2 _ none x0 x2 p k) (matmul_zero_ix2 _ none x1 x3 p k)

theorem kGelu_apply (v : FVec Ideal S10000x64 .f32) (p : Fin 10000) (k : Fin 64) :
    kGelu v (ix2 p k) = gelu (v (ix2 p k)) := rfl

theorem kAng_apply (g : FVec Ideal S10000x64 .f32) (x4 : FVec Ideal S64x1 .f32) (x5 : FVec Ideal S1 .f32) (p : Fin 10000) :
    kAng g x4 x5 (ix2 p (0 : Fin 1)) = Ideal.tanh ((∑ k : Fin 64, g (ix2 p k) * x4 (ix2 k (0 : Fin 1))) + x5 (ix1 (0 : Fin 1)))
      * Ideal.ofBits .f32 0x40C90FDB#32 := by
  have e1 : matmul dot_S10000x64_S64x1_S10000x1_1_0_0_1_n_n none g x4 (constant S10000x1 .f32 0x00000000#32) (ix2 p (0 : Fin 1))
      = ∑ k : Fin 64, g (ix2 p k) * x4 (ix2 k (0 : Fin 1)) := matmul_zero_ix2 _ none g x4 p 0
  have e2 : broadcastTo S10000x1 (shapeCast S1x1 x5 shapeCasts_S1_S1x1) broadcasts_S1x1_S10000x1 (ix2 p (0 : Fin 1)) = x5 (ix1 (0 : Fin 1)) :=
    (broadcastTo_1b_ab_apply _ _ p 0).trans (shapeCast_a_1a_apply x5 _ 0 0)
  unfold kAng
  show Ideal.tanh (_ + _) * _ = _
  rw [e1, e2]
  rfl

/-- The block's angle column at row p is the angle of row p of the loaded blocks. -/
theorem kAng_eq (x0 x1 : FVec Ideal S10000x64 .f32) (x2 x3 : FVec Ideal S64x64 .f32) (x4 : FVec Ideal S64x1 .f32) (x5 : FVec Ideal S1 .f32) (p : Fin 10000) :
    kAng (kGelu (kMix x0 x1 x2 x3)) x4 x5 (ix2 p (0 : Fin 1)) = angAt x0 x1 x2 x3 x4 x5 p := by
  rw [kAng_apply]
  unfold angAt
  simp only [kGelu_apply, kMix_apply]

/-- The stored block at (p, q): column 0 is the sine of row p's angle, column 1 its cosine. -/
theorem pay_apply (x0 x1 : FVec Ideal S10000x64 .f32) (x2 x3 : FVec Ideal S64x64 .f32) (x4 : FVec Ideal S64x1 .f32) (x5 : FVec Ideal S1 .f32) (p : Fin 10000) (q : Fin 2) :
    k2_pay1 (F := Ideal) x0 x1 x2 x3 x4 x5 (ix2 p q) = if q.val = 0 then Ideal.sin (angAt x0 x1 x2 x3 x4 x5 p) else Ideal.cos (angAt x0 x1 x2 x3 x4 x5 p) := by
  rw [pay_eq]
  match q with
  | ⟨0, _⟩ =>
    rw [if_pos rfl, ← kAng_eq]
    exact concatenate_pair_apply_left (t := S10000x2) (s₁ := S10000x1) (s₂ := S10000x1) (1 : Fin 2) _ _ _ (ix2 p (0 : Fin 2)) rfl (ix2 p (0 : Fin 1))
      (fun b => match b with | ⟨0, _⟩ => rfl | ⟨1, _⟩ => rfl)
  | ⟨1, _⟩ =>
    rw [if_neg Nat.one_ne_zero, ← kAng_eq]
    exact concatenate_pair_apply_right (t := S10000x2) (s₁ := S10000x1) (s₂ := S10000x1) (1 : Fin 2) _ _ _ (ix2 p (1 : Fin 2)) rfl rfl (ix2 p (0 : Fin 1))
      (fun b hb => match b, hb with | ⟨0, _⟩, _ => rfl | ⟨1, _⟩, hb => absurd rfl hb) rfl

/-! ## The reference's stage functions at an index -/

theorem mix_apply (T A : FVec Ideal ⟨2, ![100000, 64]⟩ .f32) (Ws Wn : FVec Ideal ⟨2, ![64, 64]⟩ .f32) (r : Fin 100000) (k : Fin 64) :
    Cert.ReferenceIdeal.Stage.mix T A Ws Wn (ix2 r k) = mixAt T A Ws Wn r k := by
  unfold Cert.ReferenceIdeal.Stage.mix mixAt
  exact congrArg₂ (· + ·) (dot_ix2 _ none T Ws r k) (dot_ix2 _ none A Wn r k)

/-- The reference's gelu cubes as (x · x) · x: one use of associativity. -/
theorem gelu64_apply (X : FVec Ideal ⟨2, ![100000, 64]⟩ .f32) (r : Fin 100000) (k : Fin 64) :
    Cert.ReferenceIdeal.Stage.gelu64 X (ix2 r k) = gelu (X (ix2 r k)) := by
  unfold gelu
  rw [← mul_assoc (X (ix2 r k)) (X (ix2 r k)) (X (ix2 r k))]
  rfl

theorem angOf_apply (g : FVec Ideal ⟨2, ![100000, 64]⟩ .f32) (w : FVec Ideal ⟨2, ![64, 1]⟩ .f32) (b : FVec Ideal ⟨1, ![1]⟩ .f32) (r : Fin 100000) :
    Cert.ReferenceIdeal.Stage.angOf g w b (ix2 r (0 : Fin 1))
      = Ideal.tanh ((∑ k : Fin 64, g (ix2 r k) * w (ix2 k (0 : Fin 1))) + b (ix1 (0 : Fin 1))) * Ideal.ofBits .f32 0x40C90FDB#32 := by
  have e1 : Host.dotGeneral Cert.ReferenceIdeal.dot_S100000x64_S64x1_S100000x1_1_0_0_1_n_n none g w (ix2 r (0 : Fin 1))
      = ∑ k : Fin 64, g (ix2 r k) * w (ix2 k (0 : Fin 1)) := dot_ix2 _ none g w r 0
  have e2 : broadcastInDim (s := Cert.ReferenceIdeal.S1x1) Cert.ReferenceIdeal.S100000x1 ![0, 1] Cert.ReferenceIdeal.Facts₀.bcast_S1x1_S100000x1_0_1
      (broadcastInDim (s := Cert.ReferenceIdeal.S1) Cert.ReferenceIdeal.S1x1 ![1] Cert.ReferenceIdeal.Facts₀.bcast_S1_S1x1_1 b) (ix2 r (0 : Fin 1)) = b (ix1 (0 : Fin 1)) :=
    (broadcastInDim_apply _ _ _ (ix2 r (0 : Fin 1)) (ix2 (0 : Fin 1) (0 : Fin 1)) (fun a => match a with | ⟨0, _⟩ => rfl | ⟨1, _⟩ => rfl)).trans
      (broadcastInDim_apply _ _ b (ix2 (0 : Fin 1) (0 : Fin 1)) (ix1 (0 : Fin 1)) (fun a => match a with | ⟨0, _⟩ => rfl))
  unfold Cert.ReferenceIdeal.Stage.angOf
  show Ideal.tanh (_ + _) * _ = _
  rw [e1, e2]
  rfl

/-- The reference's table at (r, q): column 0 is the sine of row r's angle, column 1 its cosine. -/
theorem ref_apply (T A : FVec Ideal ⟨2, ![100000, 64]⟩ .f32) (Ws Wn : FVec Ideal ⟨2, ![64, 64]⟩ .f32)
    (w : FVec Ideal ⟨2, ![64, 1]⟩ .f32) (b : FVec Ideal ⟨1, ![1]⟩ .f32) (r : Fin 100000) (q : Fin 2) :
    Cert.ReferenceIdeal.Stage.sincosOf (Cert.ReferenceIdeal.Stage.angOf (Cert.ReferenceIdeal.Stage.gelu64 (Cert.ReferenceIdeal.Stage.mix T A Ws Wn)) w b) (ix2 r q)
      = if q.val = 0 then Ideal.sin (angAt T A Ws Wn w b r) else Ideal.cos (angAt T A Ws Wn w b r) := by
  have e : Cert.ReferenceIdeal.Stage.angOf (Cert.ReferenceIdeal.Stage.gelu64 (Cert.ReferenceIdeal.Stage.mix T A Ws Wn)) w b (ix2 r (0 : Fin 1))
      = angAt T A Ws Wn w b r := by
    rw [angOf_apply]
    unfold angAt
    simp only [gelu64_apply, mix_apply]
  rw [← e]
  rfl

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The windows' index maps over the ten grid points: a node window sits at block t along the rows, a weight window at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- Row p of the first node window's block at point t is row 10000 t + p of its array. -/
theorem blk0_apply (c : Dev nD) (t : Fin cfg2.N) (p : Fin 10000) (l : Fin 64) (R : Fin 100000) (hR : R.val = t.val * 10000 + p.val) :
    (iblk2 V c 0 t : FVec Ideal S10000x64 .f32) (ix2 p l) = (V c main_v15 : FVec Ideal S100000x64 .f32) (ix2 R l) := by
  obtain ⟨e0, e1, -⟩ := idx_facts t
  show V c main_v15 (((cfg2.win 0).blk t).view.emb (ix2 p l)) = V c main_v15 (ix2 R l)
  refine congrArg _ (funext fun a => Fin.ext ?_)
  match a with
  | ⟨0, _⟩ => show win2_0.index t (0 : Fin 2) * 10000 + 1 * p.val = R.val; omega
  | ⟨1, _⟩ => show win2_0.index t (1 : Fin 2) * 64 + 1 * l.val = l.val; omega

/-- The same for the second node window. -/
theorem blk1_apply (c : Dev nD) (t : Fin cfg2.N) (p : Fin 10000) (l : Fin 64) (R : Fin 100000) (hR : R.val = t.val * 10000 + p.val) :
    (iblk2 V c 1 t : FVec Ideal S10000x64 .f32) (ix2 p l) = (V c main_v25 : FVec Ideal S100000x64 .f32) (ix2 R l) := by
  obtain ⟨-, -, e0, e1, -⟩ := idx_facts t
  show V c main_v25 (((cfg2.win 1).blk t).view.emb (ix2 p l)) = V c main_v25 (ix2 R l)
  refine congrArg _ (funext fun a => Fin.ext ?_)
  match a with
  | ⟨0, _⟩ => show win2_1.index t (0 : Fin 2) * 10000 + 1 * p.val = R.val; omega
  | ⟨1, _⟩ => show win2_1.index t (1 : Fin 2) * 64 + 1 * l.val = l.val; omega

/-- A weight window's block is its whole array at every point. -/
theorem blk2_apply (c : Dev nD) (t : Fin cfg2.N) (l k : Fin 64) :
    (iblk2 V c 2 t : FVec Ideal S64x64 .f32) (ix2 l k) = (V c main_arg8 : FVec Ideal S64x64 .f32) (ix2 l k) := by
  obtain ⟨-, -, -, -, e0, e1, -⟩ := idx_facts t
  show V c main_arg8 (((cfg2.win 2).blk t).view.emb (ix2 l k)) = V c main_arg8 (ix2 l k)
  refine congrArg _ (funext fun a => Fin.ext ?_)
  match a with
  | ⟨0, _⟩ => show win2_2.index t (0 : Fin 2) * 64 + 1 * l.val = l.val; omega
  | ⟨1, _⟩ => show win2_2.index t (1 : Fin 2) * 64 + 1 * k.val = k.val; omega

theorem blk3_apply (c : Dev nD) (t : Fin cfg2.N) (l k : Fin 64) :
    (iblk2 V c 3 t : FVec Ideal S64x64 .f32) (ix2 l k) = (V c main_arg9 : FVec Ideal S64x64 .f32) (ix2 l k) := by
  obtain ⟨-, -, -, -, -, -, e0, e1, -⟩ := idx_facts t
  show V c main_arg9 (((cfg2.win 3).blk t).view.emb (ix2 l k)) = V c main_arg9 (ix2 l k)
  refine congrArg _ (funext fun a => Fin.ext ?_)
  match a with
  | ⟨0, _⟩ => show win2_3.index t (0 : Fin 2) * 64 + 1 * l.val = l.val; omega
  | ⟨1, _⟩ => show win2_3.index t (1 : Fin 2) * 64 + 1 * k.val = k.val; omega

theorem blk4_apply (c : Dev nD) (t : Fin cfg2.N) (k : Fin 64) :
    (iblk2 V c 4 t : FVec Ideal S64x1 .f32) (ix2 k (0 : Fin 1)) = (V c main_arg10 : FVec Ideal S64x1 .f32) (ix2 k (0 : Fin 1)) := by
  obtain ⟨-, -, -, -, -, -, -, -, e0, e1, -⟩ := idx_facts t
  show V c main_arg10 (((cfg2.win 4).blk t).view.emb (ix2 k (0 : Fin 1))) = V c main_arg10 (ix2 k (0 : Fin 1))
  refine congrArg _ (funext fun a => Fin.ext ?_)
  match a with
  | ⟨0, _⟩ => show win2_4.index t (0 : Fin 2) * 64 + 1 * k.val = k.val; omega
  | ⟨1, _⟩ => show win2_4.index t (1 : Fin 2) * 1 + 1 * 0 = 0; omega

theorem blk5_apply (c : Dev nD) (t : Fin cfg2.N) :
    (iblk2 V c 5 t : FVec Ideal S1 .f32) (ix1 (0 : Fin 1)) = (V c main_arg11 : FVec Ideal S1 .f32) (ix1 (0 : Fin 1)) := by
  obtain ⟨-, -, -, -, -, -, -, -, -, -, e0, -⟩ := idx_facts t
  show V c main_arg11 (((cfg2.win 5).blk t).view.emb (ix1 (0 : Fin 1))) = V c main_arg11 (ix1 (0 : Fin 1))
  refine congrArg _ (funext fun a => Fin.ext ?_)
  match a with
  | ⟨0, _⟩ => show win2_5.index t (0 : Fin 1) * 1 + 1 * 0 = 0; omega

/-- What grid point t writes back is block t of the reference's sine–cosine table of the arrays the region reads. -/
theorem flushed_eq (c : Dev nD) (t : Fin cfg2.N) :
    (dat2 (F := Ideal) V c).flushed 6 t = ((cfg2.win 6).blk t).view.read (Elt Ideal)
      (Cert.ReferenceIdeal.Stage.sincosOf (F := Ideal) (Cert.ReferenceIdeal.Stage.angOf (Cert.ReferenceIdeal.Stage.gelu64 (Cert.ReferenceIdeal.Stage.mix (V c main_v15) (V c main_v25) (V c main_arg8) (V c main_arg9))) (V c main_arg10) (V c main_arg11))) := by
  show (cfg2.win 6).cut (grid2.coords t) ((dat2 V c).after 6 t) = _
  rw [after2_6]
  unfold out2_6
  rw [View.canon_unit_zero hz2]
  simp only [View.ld_unit_zero (S := S10000x64) hz2, View.ld_unit_zero (S := S64x64) hz2, View.ld_unit_zero (S := S64x1) hz2, View.ld_unit_zero (S := S1) hz1]
  funext j
  obtain ⟨p, q, rfl⟩ : ∃ (p : Fin 10000) (q : Fin 2), j = ix2 p q := ⟨j 0, j 1, eq_ix2 j⟩
  obtain ⟨-, -, -, -, -, -, -, -, -, -, -, e0, e1⟩ := idx_facts t
  have hN : cfg2.N = 10 := N_2
  have hR : t.val * 10000 + p.val < 100000 := by have := t.isLt; have := p.isLt; omega
  have hemb : ((cfg2.win 6).blk t).view.emb (ix2 p q) = ix2 (⟨t.val * 10000 + p.val, hR⟩ : Fin 100000) q := by
    funext a; apply Fin.ext
    match a with
    | ⟨0, _⟩ => show win2_6.index t (0 : Fin 2) * 10000 + 1 * p.val = t.val * 10000 + p.val; omega
    | ⟨1, _⟩ => show win2_6.index t (1 : Fin 2) * 2 + 1 * q.val = q.val; omega
  have hK := pay_apply (iblk2 V c 0 t) (iblk2 V c 1 t) (iblk2 V c 2 t) (iblk2 V c 3 t) (iblk2 V c 4 t) (iblk2 V c 5 t) p q
  have hRf := ref_apply (V c main_v15) (V c main_v25) (V c main_arg8) (V c main_arg9) (V c main_arg10) (V c main_arg11) ⟨t.val * 10000 + p.val, hR⟩ q
  have hA := angAt_congr (iblk2 V c 0 t) (iblk2 V c 1 t) (V c main_v15) (V c main_v25) (iblk2 V c 2 t) (iblk2 V c 3 t) (V c main_arg8) (V c main_arg9)
    (iblk2 V c 4 t) (V c main_arg10) (iblk2 V c 5 t) (V c main_arg11) p ⟨t.val * 10000 + p.val, hR⟩
    (fun l => blk0_apply V c t p l _ rfl) (fun l => blk1_apply V c t p l _ rfl) (fun l k => blk2_apply V c t l k) (fun l k => blk3_apply V c t l k)
    (fun k => blk4_apply V c t k) (blk5_apply V c t)
  rw [hA] at hK
  exact hK.trans (hRf.symm.trans (congrArg _ hemb).symm)

/-- An index of the table is in point t's block iff each coordinate is in the block's range on its axis. -/
theorem mem_blk (t : Fin cfg2.N) (i : S100000x2.Idx) :
    i ∈ ((cfg2.win 6).blk t).view.set ↔ ∀ a : Fin 2, win2_6.index t a * S10000x2.size a ≤ (i a).val ∧ (i a).val < win2_6.index t a * S10000x2.size a + S10000x2.size a := by
  show i ∈ ((View.whole main_v26).slice (win2_6.rect t)).set ↔ _
  rw [View.set_slice_whole, Rect.mem_set_unit]
  exact Iff.rfl

/-- Row r of the table lies in the block of point r / 10000. -/
theorem cover (i : S100000x2.Idx) : ∃ t : Fin cfg2.N, (cfg2.win 6).flush t = true ∧ i ∈ ((cfg2.win 6).blk t).view.set := by
  have hN : cfg2.N = 10 := N_2
  have hi0 : (i 0).val < 100000 := (i 0).isLt
  have hi1 : (i 1).val < 2 := (i 1).isLt
  obtain ⟨t, ht⟩ : ∃ t : Fin cfg2.N, t.val = (i 0).val / 10000 := ⟨⟨(i 0).val / 10000, by rw [hN]; omega⟩, rfl⟩
  obtain ⟨-, -, -, -, -, -, -, -, -, -, -, e0, e1⟩ := idx_facts t
  refine ⟨t, flush2_6 t, ?_⟩
  rw [mem_blk]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 2 ≤ (i 1).val ∧ (i 1).val < win2_6.index t (1 : Fin 2) * 2 + 2; omega

theorem sincos_eq (c : Dev nD) : (dat2 (F := Ideal) V c).arrAt 6 cfg2.N = Cert.ReferenceIdeal.Stage.sincosOf (F := Ideal) (Cert.ReferenceIdeal.Stage.angOf (Cert.ReferenceIdeal.Stage.gelu64 (Cert.ReferenceIdeal.Stage.mix (V c main_v15) (V c main_v25) (V c main_arg8) (V c main_arg9))) (V c main_arg10) (V c main_arg11)) :=
  (dat2 (F := Ideal) V c).arrAt_eq_of_cover 6 _ (fun t _ => flushed_eq V c t) cover

end Cert.KernelIdeal.Region2

end
-- ==== Proof.Region3.lean ====
/-
  Region 3 of the kernel program is one diffusion step of the stalk features.

  The region reads three arrays: the features xs and the aggregated messages a (both N × 2 × 16, N = 100000) and the
  16 × 16 weights W. Its grid has ten points; point t works on rows 10000·t … 10000·t + 9999 of the two node tables
  and on the whole of W, and writes the same rows of the output. On a block the body forms xs − a, views the
  10000 × 2 × 16 difference as 20000 × 16 (row 2p + d is row (p, d)), multiplies by W, applies gelu elementwise,
  views the result as 10000 × 2 × 16 again and subtracts it from xs.

  The reference's step is xs − gelu ((xs − a) · W), the product contracting the 16 channels of the N × 2 × 16 table
  with the rows of W. Read at node P, stalk row d, channel q both sides are

      xs (P, d, q) − gelu (Σ_k (xs (P, d, k) − a (P, d, k)) · W (k, q)),

  the body's gelu cubing as y · (y · y) and the reference's as (y · y) · y, which commutativity joins. So what each
  point writes back is its block of the reference's step, the ten blocks tile the array, and the array after the
  last write-back is the step.
-/
import proofs.«417419_j39436389712331_2_alg».proof.Proof.Gen.KernelIdeal.Frame
import proofs.«417419_j39436389712331_2_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Region3Side

open Idealize.ShloMosaic Idealize.ShloMosaic.TcCoe Idealize.SL.Sem
open Cert.ReferenceIdeal Cert.ReferenceIdeal.Gen
open Idealize.ShloMosaic.ValueIdx

/-- The tanh-approximated gelu of one extended real, with the cube bracketed (y · y) · y. -/
def rgelu (y : EReal) : EReal :=
  y * (Ideal.ofBits .f32 0x3F000000#32 * (Ideal.ofBits .f32 0x3F800000#32 + Ideal.tanh (Ideal.ofBits .f32 0x3F4C422A#32 * (y + Ideal.ofBits .f32 0x3D372713#32 * ((y * y) * y)))))

/-- The elementwise gelu of a table, read at one element. -/
theorem gelu2x16_apply (y : FVec Ideal S100000x2x16 .f32) (j : S100000x2x16.Idx) :
    Stage.gelu2x16 (F := Ideal) y j = rgelu (y j) := rfl

/-! ## The N × 2 × 16 by 16 × 16 contraction: its operand indices, axis by axis -/

theorem lhsR_0 (j : S100000x2x16.Idx) (k : dot_S100000x2x16_S16x16_S100000x2x16_2_0_01_1_n_n.contr.Idx) :
    (dot_S100000x2x16_S16x16_S100000x2x16_2_0_01_1_n_n.lhsIdx j k 0).val = (j 0).val := by
  unfold DotDims.lhsIdx
  rw [dif_neg (show ¬(0 : Fin S100000x2x16.rank) ∈ dot_S100000x2x16_S16x16_S100000x2x16_2_0_01_1_n_n.lhsBatch by decide)]
  rw [dif_pos (show (0 : Fin S100000x2x16.rank) ∈ dot_S100000x2x16_S16x16_S100000x2x16_2_0_01_1_n_n.lhsNonContracting by decide)]
  rfl

theorem lhsR_1 (j : S100000x2x16.Idx) (k : dot_S100000x2x16_S16x16_S100000x2x16_2_0_01_1_n_n.contr.Idx) :
    (dot_S100000x2x16_S16x16_S100000x2x16_2_0_01_1_n_n.lhsIdx j k 1).val = (j 1).val := by
  unfold DotDims.lhsIdx
  rw [dif_neg (show ¬(1 : Fin S100000x2x16.rank) ∈ dot_S100000x2x16_S16x16_S100000x2x16_2_0_01_1_n_n.lhsBatch by decide)]
  rw [dif_pos (show (1 : Fin S100000x2x16.rank) ∈ dot_S100000x2x16_S16x16_S100000x2x16_2_0_01_1_n_n.lhsNonContracting by decide)]
  rfl

theorem lhsR_2 (j : S100000x2x16.Idx) (k : dot_S100000x2x16_S16x16_S100000x2x16_2_0_01_1_n_n.contr.Idx) :
    (dot_S100000x2x16_S16x16_S100000x2x16_2_0_01_1_n_n.lhsIdx j k 2).val = (k ⟨0, by decide⟩).val :=
  DotDims.lhsIdx_val_of_single _ (cl := 2) rfl j k

theorem rhsR_0 (j : S100000x2x16.Idx) (k : dot_S100000x2x16_S16x16_S100000x2x16_2_0_01_1_n_n.contr.Idx) :
    (dot_S100000x2x16_S16x16_S100000x2x16_2_0_01_1_n_n.rhsIdx j k 0).val = (k ⟨0, by decide⟩).val :=
  DotDims.rhsIdx_val_of_single _ (cr := 0) rfl j k

theorem rhsR_1 (j : S100000x2x16.Idx) (k : dot_S100000x2x16_S16x16_S100000x2x16_2_0_01_1_n_n.contr.Idx) :
    (dot_S100000x2x16_S16x16_S100000x2x16_2_0_01_1_n_n.rhsIdx j k 1).val = (j 2).val := by
  unfold DotDims.rhsIdx
  rw [dif_neg (show ¬(1 : Fin S16x16.rank) ∈ dot_S100000x2x16_S16x16_S100000x2x16_2_0_01_1_n_n.rhsBatch by decide)]
  rw [dif_pos (show (1 : Fin S16x16.rank) ∈ dot_S100000x2x16_S16x16_S100000x2x16_2_0_01_1_n_n.rhsNonContracting by decide)]
  rfl

/-- The contraction at node P, stalk row d, channel q: the sum over the 16 channels of the difference row times
    column q of the weights. -/
theorem lap_apply (xs a : FVec Ideal S100000x2x16 .f32) (wd : FVec Ideal S16x16 .f32) (P : Fin 100000) (d : Fin 2) (q : Fin 16) :
    Stage.lap (F := Ideal) xs a wd (ix3 P d q) = ∑ k : Fin 16, (xs (ix3 P d k) - a (ix3 P d k)) * wd (ix2 k q) := by
  show FloatOps.dotGeneral dot_S100000x2x16_S16x16_S100000x2x16_2_0_01_1_n_n none .single (subf xs a) wd (ix3 P d q) = _
  rw [Ideal.dotGeneral_apply]
  rw [← Equiv.sum_comp (contrEquiv1 dot_S100000x2x16_S16x16_S100000x2x16_2_0_01_1_n_n 16 rfl rfl).symm]
  refine Finset.sum_congr rfl fun k _ => ?_
  have hk := contrEquiv1_symm_val dot_S100000x2x16_S16x16_S100000x2x16_2_0_01_1_n_n 16 rfl rfl k
  rw [← subf_apply]
  congr 2
  · funext b; apply Fin.ext
    match b with
    | ⟨0, _⟩ => exact lhsR_0 _ _
    | ⟨1, _⟩ => exact lhsR_1 _ _
    | ⟨2, _⟩ => exact (lhsR_2 _ _).trans hk
  · funext b; apply Fin.ext
    match b with
    | ⟨0, _⟩ => exact (rhsR_0 _ _).trans hk
    | ⟨1, _⟩ => exact rhsR_1 _ _

/-- One diffusion step at node P, stalk row d, channel q. -/
theorem stepOf_apply (xs a : FVec Ideal S100000x2x16 .f32) (wd : FVec Ideal S16x16 .f32) (P : Fin 100000) (d : Fin 2) (q : Fin 16) :
    Stage.stepOf (F := Ideal) xs a wd (ix3 P d q)
      = xs (ix3 P d q) - rgelu (∑ k : Fin 16, (xs (ix3 P d k) - a (ix3 P d k)) * wd (ix2 k q)) := by
  unfold Stage.stepOf
  rw [subf_apply, gelu2x16_apply, lap_apply]

end Cert.ReferenceIdeal.Region3Side

namespace Cert.KernelIdeal.Region3

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-! ## The gelu of one extended real, as the body brackets it -/

/-- The tanh-approximated gelu of one extended real, with the cube bracketed y · (y · y). -/
def kgelu (y : EReal) : EReal :=
  y * (Ideal.ofBits .f32 0x3F000000#32 * (Ideal.ofBits .f32 0x3F800000#32 + Ideal.tanh (Ideal.ofBits .f32 0x3F4C422A#32 * (y + Ideal.ofBits .f32 0x3D372713#32 * (y * (y * y))))))

/-- The two bracketings of the cube are one product: multiplication of extended reals commutes. -/
theorem kgelu_eq_rgelu (y : EReal) : kgelu y = Cert.ReferenceIdeal.Region3Side.rgelu y := by
  unfold kgelu Cert.ReferenceIdeal.Region3Side.rgelu
  rw [mul_comm y (y * y)]

/-! ## The 20000 × 16 by 16 × 16 product: its operand indices, axis by axis -/

theorem lhsK_0 (j : S20000x16.Idx) (k : dot_S20000x16_S16x16_S20000x16_1_0_0_1_n_n.contr.Idx) :
    (dot_S20000x16_S16x16_S20000x16_1_0_0_1_n_n.lhsIdx j k 0).val = (j 0).val := by
  unfold DotDims.lhsIdx
  rw [dif_neg (show ¬(0 : Fin S20000x16.rank) ∈ dot_S20000x16_S16x16_S20000x16_1_0_0_1_n_n.lhsBatch by decide)]
  rw [dif_pos (show (0 : Fin S20000x16.rank) ∈ dot_S20000x16_S16x16_S20000x16_1_0_0_1_n_n.lhsNonContracting by decide)]
  rfl

theorem lhsK_1 (j : S20000x16.Idx) (k : dot_S20000x16_S16x16_S20000x16_1_0_0_1_n_n.contr.Idx) :
    (dot_S20000x16_S16x16_S20000x16_1_0_0_1_n_n.lhsIdx j k 1).val = (k ⟨0, by decide⟩).val :=
  DotDims.lhsIdx_val_of_single _ (cl := 1) rfl j k

theorem rhsK_0 (j : S20000x16.Idx) (k : dot_S20000x16_S16x16_S20000x16_1_0_0_1_n_n.contr.Idx) :
    (dot_S20000x16_S16x16_S20000x16_1_0_0_1_n_n.rhsIdx j k 0).val = (k ⟨0, by decide⟩).val :=
  DotDims.rhsIdx_val_of_single _ (cr := 0) rfl j k

theorem rhsK_1 (j : S20000x16.Idx) (k : dot_S20000x16_S16x16_S20000x16_1_0_0_1_n_n.contr.Idx) :
    (dot_S20000x16_S16x16_S20000x16_1_0_0_1_n_n.rhsIdx j k 1).val = (j 1).val := by
  unfold DotDims.rhsIdx
  rw [dif_neg (show ¬(1 : Fin S16x16.rank) ∈ dot_S20000x16_S16x16_S20000x16_1_0_0_1_n_n.rhsBatch by decide)]
  rw [dif_pos (show (1 : Fin S16x16.rank) ∈ dot_S20000x16_S16x16_S20000x16_1_0_0_1_n_n.rhsNonContracting by decide)]
  rfl

/-- The product into the zero accumulator at (r, q): the sum over the 16 channels of row r times column q. -/
theorem matmulK_apply (a : FVec Ideal S20000x16 .f32) (w : FVec Ideal S16x16 .f32) (r : Fin 20000) (q : Fin 16) :
    matmul dot_S20000x16_S16x16_S20000x16_1_0_0_1_n_n none a w (constant S20000x16 .f32 0x00000000#32) (ix2 r q)
      = ∑ k : Fin 16, a (ix2 r k) * w (ix2 k q) := by
  show FloatOps.matmul dot_S20000x16_S16x16_S20000x16_1_0_0_1_n_n none a w (constant S20000x16 .f32 0x00000000#32) (ix2 r q) = _
  rw [Ideal.matmul_constant_zero_apply]
  rw [← Equiv.sum_comp (contrEquiv1 dot_S20000x16_S16x16_S20000x16_1_0_0_1_n_n 16 rfl rfl).symm]
  refine Finset.sum_congr rfl fun k _ => ?_
  have hk := contrEquiv1_symm_val dot_S20000x16_S16x16_S20000x16_1_0_0_1_n_n 16 rfl rfl k
  congr 2
  · funext b; apply Fin.ext
    match b with
    | ⟨0, _⟩ => exact lhsK_0 _ _
    | ⟨1, _⟩ => exact (lhsK_1 _ _).trans hk
  · funext b; apply Fin.ext
    match b with
    | ⟨0, _⟩ => exact (rhsK_0 _ _).trans hk
    | ⟨1, _⟩ => exact rhsK_1 _ _

/-! ## The body's result at one element of a block -/

/-- Row 2p + d of the 20000 × 16 view of a 10000 × 2 × 16 block is its row (p, d): the two have one row-major position. -/
theorem flat_apply (v : FVec Ideal S10000x2x16 .f32) (p : Fin 10000) (d : Fin 2) (k : Fin 16) (hr : 2 * p.val + d.val < 20000) :
    shapeCast S20000x16 v shapeCasts_S10000x2x16_S20000x16 (ix2 ⟨2 * p.val + d.val, hr⟩ k) = v (ix3 p d k) := by
  refine shapeCast_apply v _ _ _ ?_
  rw [Shape.rowMajor_val_three, Shape.rowMajor_val_two]
  show (p.val * 2 + d.val) * 16 + k.val = (2 * p.val + d.val) * 16 + k.val
  omega

/-- And back: element (p, d, q) of the 10000 × 2 × 16 view of a 20000 × 16 table is its element (2p + d, q). -/
theorem unflat_apply (v : FVec Ideal S20000x16 .f32) (p : Fin 10000) (d : Fin 2) (q : Fin 16) (hr : 2 * p.val + d.val < 20000) :
    shapeCast S10000x2x16 v shapeCasts_S20000x16_S10000x2x16 (ix3 p d q) = v (ix2 ⟨2 * p.val + d.val, hr⟩ q) := by
  refine shapeCast_apply v _ _ _ ?_
  rw [Shape.rowMajor_val_three, Shape.rowMajor_val_two]
  show (2 * p.val + d.val) * 16 + q.val = (p.val * 2 + d.val) * 16 + q.val
  omega

/-- The body's stored value at element (p, d, q) of its block: the features there less the gelu of the difference
    row (p, d) times column q of the weights. -/
theorem pay_apply (x0 x1 : Vec Ideal S10000x2x16 .f32) (w : Vec Ideal S16x16 .f32) (p : Fin 10000) (d : Fin 2) (q : Fin 16) :
    k3_pay1 (F := Ideal) x0 x1 w (ix3 p d q)
      = x0 (ix3 p d q) - kgelu (∑ k : Fin 16, (x0 (ix3 p d k) - x1 (ix3 p d k)) * w (ix2 k q)) := by
  have hr : 2 * p.val + d.val < 20000 := by have := p.isLt; have := d.isLt; omega
  unfold k3_pay1
  simp only [shapeCast_self]
  rw [subf_apply, unflat_apply _ p d q hr]
  congr 1
  show kgelu (matmul (F := Ideal) dot_S20000x16_S16x16_S20000x16_1_0_0_1_n_n none (shapeCast S20000x16 (subf x0 x1) shapeCasts_S10000x2x16_S20000x16) w (constant S20000x16 .f32 0x00000000#32) (ix2 ⟨2 * p.val + d.val, hr⟩ q)) = _
  rw [matmulK_apply]
  congr 1
  refine Finset.sum_congr rfl fun k _ => ?_
  rw [flat_apply _ p d k hr, subf_apply]

/-! ## One element of a block against the same element of the whole array -/

/-- When the block's rows are rows of the node tables and the weights are the same 16 × 16 table, the body's stored
    value at (p, d, q) is the diffusion step at the node P that row p of the block is. -/
theorem pay_eq_step (x0 x1 : Vec Ideal S10000x2x16 .f32) (w : Vec Ideal S16x16 .f32)
    (xs a : FVec Ideal S100000x2x16 .f32) (wd : FVec Ideal S16x16 .f32)
    (p : Fin 10000) (d : Fin 2) (q : Fin 16) (P : Fin 100000)
    (h0 : ∀ k : Fin 16, x0 (ix3 p d k) = xs (ix3 P d k)) (h1 : ∀ k : Fin 16, x1 (ix3 p d k) = a (ix3 P d k))
    (h2 : ∀ k : Fin 16, w (ix2 k q) = wd (ix2 k q)) :
    k3_pay1 (F := Ideal) x0 x1 w (ix3 p d q) = Cert.ReferenceIdeal.Stage.stepOf (F := Ideal) xs a wd (ix3 P d q) := by
  rw [pay_apply, Cert.ReferenceIdeal.Region3Side.stepOf_apply, kgelu_eq_rgelu, h0 q]
  congr 2
  exact Finset.sum_congr rfl fun k _ => by rw [h0 k, h1 k, h2 k]

/-! ## From the blocks to the array -/

theorem zero3 : (![0, 0, 0] : Fin 3 → Nat) = fun _ => 0 := funext fun a => by fin_cases a <;> rfl
theorem zero2 : (![0, 0] : Fin 2 → Nat) = fun _ => 0 := funext fun a => by fin_cases a <;> rfl

/-- The index maps over the grid: the two node windows move with the output window, block t of 10000 rows, whole
    on the other two axes; the weights window stays at block 0; there are ten blocks. -/
theorem index_facts : ∀ t : Fin cfg3.N,
    win3_0.index t (0 : Fin 3) = win3_3.index t (0 : Fin 3) ∧ win3_0.index t (1 : Fin 3) = 0 ∧ win3_0.index t (2 : Fin 3) = 0
    ∧ win3_1.index t (0 : Fin 3) = win3_3.index t (0 : Fin 3) ∧ win3_1.index t (1 : Fin 3) = 0 ∧ win3_1.index t (2 : Fin 3) = 0
    ∧ win3_2.index t (0 : Fin 2) = 0 ∧ win3_2.index t (1 : Fin 2) = 0
    ∧ win3_3.index t (0 : Fin 3) ≤ 9 ∧ win3_3.index t (1 : Fin 3) = 0 ∧ win3_3.index t (2 : Fin 3) = 0 :=
  (by decide +kernel : ∀ t : Fin grid3.N, _)

/-- Every one of the ten row blocks is some grid point's. -/
theorem index_onto : ∀ b : Fin 10, ∃ t : Fin cfg3.N, win3_3.index t (0 : Fin 3) = b.val :=
  (by decide +kernel : ∀ b : Fin 10, ∃ t : Fin grid3.N, win3_3.index t (0 : Fin 3) = b.val)

variable (V : (c : Dev nD) → (b : Ref sig .tc) → Buf (Elt Ideal) ((c : Thread nD τ).loc b))

/-- What grid point t writes back is block t of the diffusion step of the three arrays the region reads. -/
theorem flushed_eq (c : Dev nD) (t : Fin cfg3.N) :
    (dat3 (F := Ideal) V c).flushed 3 t = ((cfg3.win 3).blk t).view.read (Elt Ideal)
      (Cert.ReferenceIdeal.Stage.stepOf (F := Ideal) (V c main_v74) (V c main_v105) (V c main_v107)) := by
  show (cfg3.win 3).cut (grid3.coords t) ((dat3 V c).after 3 t) = _
  rw [after3_3]
  unfold out3_3
  rw [View.canon_unit_zero zero3]
  simp only [View.ld_unit_zero (S := S10000x2x16) zero3, View.ld_unit_zero (S := S16x16) zero2]
  obtain ⟨e00, e01, e02, e10, e11, e12, e20, e21, e3, e31, e32⟩ := index_facts t
  funext j
  obtain ⟨p, d, q, rfl⟩ : ∃ (p : Fin 10000) (d : Fin 2) (q : Fin 16), j = ix3 p d q := ⟨j 0, j 1, j 2, eq_ix3 j⟩
  have hp : p.val < 10000 := p.isLt
  have hP : win3_3.index t (0 : Fin 3) * 10000 + p.val < 100000 := by omega
  have hemb : ((cfg3.win 3).blk t).view.emb (ix3 p d q) = ix3 (⟨win3_3.index t (0 : Fin 3) * 10000 + p.val, hP⟩ : Fin 100000) d q := by
    funext b; apply Fin.ext
    match b with
    | ⟨0, _⟩ => show win3_3.index t (0 : Fin 3) * 10000 + 1 * p.val = win3_3.index t (0 : Fin 3) * 10000 + p.val; omega
    | ⟨1, _⟩ => show win3_3.index t (1 : Fin 3) * 2 + 1 * d.val = d.val; omega
    | ⟨2, _⟩ => show win3_3.index t (2 : Fin 3) * 16 + 1 * q.val = q.val; omega
  show k3_pay1 (F := Ideal) (iblk3 V c 0 t) (iblk3 V c 1 t) (iblk3 V c 2 t) (ix3 p d q)
    = Cert.ReferenceIdeal.Stage.stepOf (F := Ideal) (V c main_v74) (V c main_v105) (V c main_v107) (((cfg3.win 3).blk t).view.emb (ix3 p d q))
  rw [hemb]
  refine pay_eq_step (iblk3 V c 0 t) (iblk3 V c 1 t) (iblk3 V c 2 t) _ _ _ p d q _ (fun k => ?_) (fun k => ?_) (fun k => ?_)
  · show V c main_v74 (((cfg3.win 0).blk t).view.emb (ix3 p d k)) = V c main_v74 _
    congr 1
    funext b; apply Fin.ext
    match b with
    | ⟨0, _⟩ => show win3_0.index t (0 : Fin 3) * 10000 + 1 * p.val = win3_3.index t (0 : Fin 3) * 10000 + p.val; omega
    | ⟨1, _⟩ => show win3_0.index t (1 : Fin 3) * 2 + 1 * d.val = d.val; omega
    | ⟨2, _⟩ => show win3_0.index t (2 : Fin 3) * 16 + 1 * k.val = k.val; omega
  · show V c main_v105 (((cfg3.win 1).blk t).view.emb (ix3 p d k)) = V c main_v105 _
    congr 1
    funext b; apply Fin.ext
    match b with
    | ⟨0, _⟩ => show win3_1.index t (0 : Fin 3) * 10000 + 1 * p.val = win3_3.index t (0 : Fin 3) * 10000 + p.val; omega
    | ⟨1, _⟩ => show win3_1.index t (1 : Fin 3) * 2 + 1 * d.val = d.val; omega
    | ⟨2, _⟩ => show win3_1.index t (2 : Fin 3) * 16 + 1 * k.val = k.val; omega
  · show V c main_v107 (((cfg3.win 2).blk t).view.emb (ix2 k q)) = V c main_v107 _
    congr 1
    funext b; apply Fin.ext
    match b with
    | ⟨0, _⟩ => show win3_2.index t (0 : Fin 2) * 16 + 1 * k.val = k.val; omega
    | ⟨1, _⟩ => show win3_2.index t (1 : Fin 2) * 16 + 1 * q.val = q.val; omega

/-- An index of the output array is in point t's block iff each coordinate is in the block's range on its axis. -/
theorem mem_blk (t : Fin cfg3.N) (i : S100000x2x16.Idx) :
    i ∈ ((cfg3.win 3).blk t).view.set ↔ ∀ a : Fin 3, win3_3.index t a * S10000x2x16.size a ≤ (i a).val ∧ (i a).val < win3_3.index t a * S10000x2x16.size a + S10000x2x16.size a := by
  show i ∈ ((View.whole main_v108).slice (win3_3.rect t)).set ↔ _
  rw [View.set_slice_whole, Rect.mem_set_unit]
  exact Iff.rfl

/-- Node row r lies in the block of the point whose block index is r / 10000: the ten blocks tile the array. -/
theorem covered (i : S100000x2x16.Idx) :
    ∃ t : Fin cfg3.N, (cfg3.win 3).flush t = true ∧ i ∈ ((cfg3.win 3).blk t).view.set := by
  have hi0 : (i 0).val < 100000 := (i 0).isLt
  have hi1 : (i 1).val < 2 := (i 1).isLt
  have hi2 : (i 2).val < 16 := (i 2).isLt
  obtain ⟨t, ht⟩ := index_onto ⟨(i 0).val / 10000, by omega⟩
  have ht' : win3_3.index t (0 : Fin 3) = (i 0).val / 10000 := ht
  obtain ⟨e00, e01, e02, e10, e11, e12, e20, e21, e3, e31, e32⟩ := index_facts t
  refine ⟨t, flush3_3 t, ?_⟩
  rw [mem_blk]
  intro a
  match a with
  | ⟨0, _⟩ => show win3_3.index t (0 : Fin 3) * 10000 ≤ (i 0).val ∧ (i 0).val < win3_3.index t (0 : Fin 3) * 10000 + 10000; omega
  | ⟨1, _⟩ => show win3_3.index t (1 : Fin 3) * 2 ≤ (i 1).val ∧ (i 1).val < win3_3.index t (1 : Fin 3) * 2 + 2; omega
  | ⟨2, _⟩ => show win3_3.index t (2 : Fin 3) * 16 ≤ (i 2).val ∧ (i 2).val < win3_3.index t (2 : Fin 3) * 16 + 16; omega

theorem step_eq (c : Dev nD) : (dat3 (F := Ideal) V c).arrAt 3 cfg3.N = Cert.ReferenceIdeal.Stage.stepOf (F := Ideal) (V c main_v74) (V c main_v105) (V c main_v107) :=
  (dat3 (F := Ideal) V c).arrAt_eq_of_cover 3 _ (fun t _ => flushed_eq V c t) covered

end Cert.KernelIdeal.Region3

end
-- ==== Proof.Region4.lean ====
/-
  Region 4: one diffusion step and the output projection, block by block.

  The region walks the node table in ten blocks of 10000 rows. On a block it reads the stalk features X and the
  aggregated messages A (10000 × 2 × 16 each) and, whole, the 16 × 16 diffusion weights W_d, the 32 × 10 output
  weights W_o and the bias b, and stores

      out = flatten (X − gelu ((X − A) · W_d)) · W_o + b          (10000 × 10).

  Entry (p, q) of that block depends on row p of X and A alone: it is `rowOut` of the node's two stalks, a sum over the
  32 flat columns k = 16 · d + h of the stepped feature at stalk d, channel h against W_o (k, q). The reference's
  stage functions, read at row r = t · 10000 + p of the whole tables, give the same `rowOut` of the same numbers; the
  two spellings differ in how the cube inside gelu is bracketed (associativity of the product of extended reals) and
  in how the contracted index is written. The ten blocks tile the table, so the table ends holding the reference's
  function of the arrays the region reads.
-/
import proofs.«417419_j39436389712331_2_alg».proof.Proof.Gen.KernelIdeal.Frame
import proofs.«417419_j39436389712331_2_alg».proof.Proof.Stage
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.KernelIdeal.Region4

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## The two contractions of a block, read at an index -/

/-- The block's 20000 × 16 by 16 × 16 product into the zero accumulator: at (ρ, h) the sum over the 16 channels. -/
theorem mm16_apply (u : FVec Ideal S20000x16 .f32) (w : FVec Ideal S16x16 .f32) (ρ : Fin 20000) (h : Fin 16) :
    matmul dot_S20000x16_S16x16_S20000x16_1_0_0_1_n_n none u w (constant (F := Ideal) S20000x16 .f32 0x00000000#32) (ix2 ρ h)
      = ∑ c : Fin 16, u (ix2 ρ c) * w (ix2 c h) := by
  rw [matmul_zero_eq_dotGeneral, show dot_S20000x16_S16x16_S20000x16_1_0_0_1_n_n = DotDims.plain 20000 16 16 from rfl]
  exact StackMember.dotGeneral_plain_apply none u w ρ h

/-- The block's 10000 × 32 by 32 × 10 product into the zero accumulator: at (p, q) the sum over the 32 flat columns. -/
theorem mm32_apply (u : FVec Ideal S10000x32 .f32) (w : FVec Ideal S32x10 .f32) (p : Fin 10000) (q : Fin 10) :
    matmul dot_S10000x32_S32x10_S10000x10_1_0_0_1_n_n none u w (constant (F := Ideal) S10000x10 .f32 0x00000000#32) (ix2 p q)
      = ∑ k : Fin 32, u (ix2 p k) * w (ix2 k q) := by
  rw [matmul_zero_eq_dotGeneral, show dot_S10000x32_S32x10_S10000x10_1_0_0_1_n_n = DotDims.plain 10000 32 10 from rfl]
  exact StackMember.dotGeneral_plain_apply none u w p q

/-! ## The reshapes and the bias, read at an index -/

/-- n × 2 × 16 seen as n × 32: flat column k is stalk k / 16, channel k % 16. -/
theorem flat_apply {α : Type} {n : Nat} (Y : (⟨3, ![n, 2, 16]⟩ : Shape).Idx → α)
    (hc : (⟨3, ![n, 2, 16]⟩ : Shape).ShapeCasts ⟨2, ![n, 32]⟩) (p : Fin n) (k : Fin 32) :
    shapeCast ⟨2, ![n, 32]⟩ Y hc (ix2 p k) = Y (ix3 p ⟨k.val / 16, by omega⟩ ⟨k.val % 16, by omega⟩) :=
  shapeCast_apply Y hc _ _ (by
    rw [Shape.rowMajor_val_three, Shape.rowMajor_val_two]
    show (p.val * 2 + k.val / 16) * 16 + k.val % 16 = p.val * 32 + k.val
    omega)

/-- 20000 × 16 seen as 10000 × 2 × 16: entry (p, d, h) is row 2p + d, column h. -/
theorem rows_apply {α : Type} (Z : S20000x16.Idx → α) (hc : S20000x16.ShapeCasts S10000x2x16)
    (p : Fin 10000) (d : Fin 2) (h : Fin 16) :
    shapeCast S10000x2x16 Z hc (ix3 p d h) = Z (ix2 ⟨2 * p.val + d.val, by omega⟩ h) :=
  shapeCast_apply Z hc _ _ (by
    rw [Shape.rowMajor_val_two, Shape.rowMajor_val_three]
    show (2 * p.val + d.val) * 16 + h.val = (p.val * 2 + d.val) * 16 + h.val
    omega)

/-- 10000 × 2 × 16 seen as 20000 × 16: row 2p + d is the entries (p, d, ·). -/
theorem pairs_apply {α : Type} (Y : S10000x2x16.Idx → α) (hc : S10000x2x16.ShapeCasts S20000x16)
    (p : Fin 10000) (d : Fin 2) (c : Fin 16) :
    shapeCast S20000x16 Y hc (ix2 ⟨2 * p.val + d.val, by omega⟩ c) = Y (ix3 p d c) :=
  shapeCast_apply Y hc _ _ (by
    rw [Shape.rowMajor_val_three, Shape.rowMajor_val_two]
    show (p.val * 2 + d.val) * 16 + c.val = (2 * p.val + d.val) * 16 + c.val
    omega)

/-- The bias of 10 entries laid along every row of the block. -/
theorem bias_apply {α : Type} (b : S10.Idx → α) (h1 : S10.ShapeCasts S1x10) (hb : S1x10.Broadcasts S10000x10)
    (p : Fin 10000) (q : Fin 10) :
    broadcastTo S10000x10 (shapeCast S1x10 b h1) hb (ix2 p q) = b (ix1 q) := by
  refine (broadcastTo_apply (shapeCast S1x10 b h1) hb (ix2 p q) (ix2 (0 : Fin 1) q) ?_).trans
    (shapeCast_a_1a_apply b h1 0 q)
  intro a
  match a with
  | ⟨0, _⟩ => rfl
  | ⟨1, _⟩ => rfl

/-! ## One node's output entry as a function of the node's rows -/

/-- gelu (tanh approximation) on one extended real, bracketed as the reference brackets it. -/
def gelu (m : EReal) : EReal :=
  m * (Ideal.ofBits .f32 0x3F000000#32 * (Ideal.ofBits .f32 0x3F800000#32
    + Ideal.tanh (Ideal.ofBits .f32 0x3F4C422A#32 * (m + Ideal.ofBits .f32 0x3D372713#32 * (m * m * m)))))

/-- One output entry of one node: from the node's two stalks `X` and the messages aggregated into them `A` (2 × 16 each),
    the 16 × 16 diffusion weights, one column of the 32 × 10 output weights and one bias entry. The diffusion step
    X − gelu ((X − A) · W_d) is taken at stalk k / 16, channel k % 16 of flat column k, and contracted with the column. -/
def rowOut (X A : Fin 2 → Fin 16 → EReal) (Wd : Fin 16 → Fin 16 → EReal) (Wo : Fin 32 → EReal) (B : EReal) : EReal :=
  (∑ k : Fin 32, (X ⟨k.val / 16, by omega⟩ ⟨k.val % 16, by omega⟩
      - gelu (∑ c : Fin 16, (X ⟨k.val / 16, by omega⟩ c - A ⟨k.val / 16, by omega⟩ c) * Wd c ⟨k.val % 16, by omega⟩)) * Wo k) + B

/-- gelu as the kernel brackets its cube, m · (m · m). -/
def kgelu (m : EReal) : EReal :=
  m * (Ideal.ofBits .f32 0x3F000000#32 * (Ideal.ofBits .f32 0x3F800000#32
    + Ideal.tanh (Ideal.ofBits .f32 0x3F4C422A#32 * (m + Ideal.ofBits .f32 0x3D372713#32 * (m * (m * m))))))

/-- The two bracketings of the cube agree: multiplication of extended reals is associative. -/
theorem kgelu_eq (m : EReal) : kgelu m = gelu m := by
  unfold kgelu gelu
  rw [mul_assoc m m m]

/-! ## The kernel's payload at an index -/

/-- gelu of the block's product (X − A) · W_d at row 2p + d, column h: the contraction runs over the 16 channels of
    stalk d of node p. -/
theorem kgelu_block_apply (x0 x1 : FVec Ideal S10000x2x16 .f32) (x2 : FVec Ideal S16x16 .f32)
    (hc : S10000x2x16.ShapeCasts S20000x16) (p : Fin 10000) (d : Fin 2) (h : Fin 16) :
    kgelu (matmul dot_S20000x16_S16x16_S20000x16_1_0_0_1_n_n none (shapeCast S20000x16 (subf x0 x1) hc) x2
        (constant (F := Ideal) S20000x16 .f32 0x00000000#32) (ix2 ⟨2 * p.val + d.val, by omega⟩ h))
      = gelu (∑ c : Fin 16, (x0 (ix3 p d c) - x1 (ix3 p d c)) * x2 (ix2 c h)) := by
  rw [kgelu_eq, mm16_apply]
  congr 1
  refine Finset.sum_congr rfl fun c _ => ?_
  rw [pairs_apply, subf_apply]

/-- The body's stored value at row p, column q of the block: the output entry of node p of the block. -/
theorem pay_apply (x0 x1 : Vec Ideal S10000x2x16 .f32) (x2 : Vec Ideal S16x16 .f32) (x3 : Vec Ideal S32x10 .f32)
    (x4 : Vec Ideal S10 .f32) (p : Fin 10000) (q : Fin 10) :
    k4_pay1 x0 x1 x2 x3 x4 (ix2 p q)
      = rowOut (fun d h => x0 (ix3 p d h)) (fun d h => x1 (ix3 p d h)) (fun c h => x2 (ix2 c h))
          (fun k => x3 (ix2 k q)) (x4 (ix1 q)) := by
  unfold k4_pay1
  simp only [shapeCast_self]
  rw [addf_apply, mm32_apply, bias_apply]
  unfold rowOut
  congr 1
  refine Finset.sum_congr rfl fun k _ => ?_
  rw [flat_apply, subf_apply, rows_apply]
  exact congrArg (fun z => (x0 (ix3 p ⟨k.val / 16, by omega⟩ ⟨k.val % 16, by omega⟩) - z) * x3 (ix2 k q))
    (kgelu_block_apply x0 x1 x2 _ p ⟨k.val / 16, by omega⟩ ⟨k.val % 16, by omega⟩)

/-! ## The reference's stages at an index -/

/-- The reference's contraction of an N × 2 × 16 table with the 16 × 16 weights, at (r, d, h): the sum over the 16
    channels of stalk d of node r. -/
theorem lap_dot_apply (u : FVec Ideal Cert.ReferenceIdeal.S100000x2x16 .f32) (w : FVec Ideal Cert.ReferenceIdeal.S16x16 .f32)
    (r : Fin 100000) (d : Fin 2) (h : Fin 16) :
    Host.dotGeneral Cert.ReferenceIdeal.dot_S100000x2x16_S16x16_S100000x2x16_2_0_01_1_n_n none u w (ix3 r d h)
      = ∑ c : Fin 16, u (ix3 r d c) * w (ix2 c h) := by
  show FloatOps.dotGeneral _ none _ u w (ix3 r d h) = _
  rw [Ideal.dotGeneral_apply,
    ← Equiv.sum_comp (contrEquiv1 Cert.ReferenceIdeal.dot_S100000x2x16_S16x16_S100000x2x16_2_0_01_1_n_n 16 rfl rfl).symm]
  refine Finset.sum_congr rfl fun c _ => ?_
  have c3 := contrEquiv1_symm_val Cert.ReferenceIdeal.dot_S100000x2x16_S16x16_S100000x2x16_2_0_01_1_n_n 16 rfl rfl c
  have l3 : Cert.ReferenceIdeal.dot_S100000x2x16_S16x16_S100000x2x16_2_0_01_1_n_n.lhsIdx (ix3 r d h)
      ((contrEquiv1 _ 16 rfl rfl).symm c) = ix3 r d c := by
    funext ax; apply Fin.ext
    match ax with
    | ⟨0, _⟩ => simp [DotDims.lhsIdx, Cert.ReferenceIdeal.dot_S100000x2x16_S16x16_S100000x2x16_2_0_01_1_n_n]; rfl
    | ⟨1, _⟩ => simp [DotDims.lhsIdx, Cert.ReferenceIdeal.dot_S100000x2x16_S16x16_S100000x2x16_2_0_01_1_n_n]; rfl
    | ⟨2, _⟩ => simp [DotDims.lhsIdx, Cert.ReferenceIdeal.dot_S100000x2x16_S16x16_S100000x2x16_2_0_01_1_n_n]; exact c3
  have r3 : Cert.ReferenceIdeal.dot_S100000x2x16_S16x16_S100000x2x16_2_0_01_1_n_n.rhsIdx (ix3 r d h)
      ((contrEquiv1 _ 16 rfl rfl).symm c) = ix2 c h := by
    funext ax; apply Fin.ext
    match ax with
    | ⟨0, _⟩ => simp [DotDims.rhsIdx, Cert.ReferenceIdeal.dot_S100000x2x16_S16x16_S100000x2x16_2_0_01_1_n_n]; exact c3
    | ⟨1, _⟩ => simp [DotDims.rhsIdx, Cert.ReferenceIdeal.dot_S100000x2x16_S16x16_S100000x2x16_2_0_01_1_n_n]; rfl
  rw [l3, r3]

/-- One diffusion step of the reference at (r, d, h). -/
theorem step_apply (xs a : FVec Ideal Cert.ReferenceIdeal.S100000x2x16 .f32) (wd : FVec Ideal Cert.ReferenceIdeal.S16x16 .f32)
    (r : Fin 100000) (d : Fin 2) (h : Fin 16) :
    Cert.ReferenceIdeal.Stage.stepOf xs a wd (ix3 r d h)
      = xs (ix3 r d h) - gelu (∑ c : Fin 16, (xs (ix3 r d c) - a (ix3 r d c)) * wd (ix2 c h)) := by
  unfold Cert.ReferenceIdeal.Stage.stepOf Cert.ReferenceIdeal.Stage.gelu2x16 Cert.ReferenceIdeal.Stage.lap
  show xs (ix3 r d h) - gelu (Host.dotGeneral Cert.ReferenceIdeal.dot_S100000x2x16_S16x16_S100000x2x16_2_0_01_1_n_n none
    (subf xs a) wd (ix3 r d h)) = _
  rw [lap_dot_apply]
  rfl

/-- The reference's output projection at (r, q): the flattened stalks of node r against column q, plus the bias. -/
theorem out_apply (xs : FVec Ideal Cert.ReferenceIdeal.S100000x2x16 .f32) (W : FVec Ideal Cert.ReferenceIdeal.S32x10 .f32)
    (b : FVec Ideal Cert.ReferenceIdeal.S10 .f32) (r : Fin 100000) (q : Fin 10) :
    Cert.ReferenceIdeal.Stage.outOf xs W b (ix2 r q)
      = (∑ k : Fin 32, xs (ix3 r ⟨k.val / 16, by omega⟩ ⟨k.val % 16, by omega⟩) * W (ix2 k q)) + b (ix1 q) := by
  unfold Cert.ReferenceIdeal.Stage.outOf
  rw [addf_apply, show Cert.ReferenceIdeal.dot_S100000x32_S32x10_S100000x10_1_0_0_1_n_n = DotDims.plain 100000 32 10 from rfl,
    StackMember.dotGeneral_plain_apply]
  congr 1
  · refine Finset.sum_congr rfl fun k _ => ?_
    rw [flat_apply]
  · refine (broadcastInDim_oneRow_apply _ _ r q).trans ?_
    refine broadcastInDim_apply ![1] _ b (ix2 (0 : Fin 1) q) (ix1 q) ?_
    intro a
    match a with
    | ⟨0, _⟩ => rfl

/-- The reference's output entry of node r, column q, as the same function of the node's rows. -/
theorem ref_apply (xs a : FVec Ideal Cert.ReferenceIdeal.S100000x2x16 .f32) (wd : FVec Ideal Cert.ReferenceIdeal.S16x16 .f32)
    (W : FVec Ideal Cert.ReferenceIdeal.S32x10 .f32) (b : FVec Ideal Cert.ReferenceIdeal.S10 .f32) (r : Fin 100000) (q : Fin 10) :
    Cert.ReferenceIdeal.Stage.outOf (Cert.ReferenceIdeal.Stage.stepOf xs a wd) W b (ix2 r q)
      = rowOut (fun d h => xs (ix3 r d h)) (fun d h => a (ix3 r d h)) (fun c h => wd (ix2 c h))
          (fun k => W (ix2 k q)) (b (ix1 q)) := by
  rw [out_apply]
  unfold rowOut
  congr 1
  refine Finset.sum_congr rfl fun k _ => ?_
  rw [step_apply]

/-! ## From the blocks to the array -/

variable (V : (c : Dev nD) → (b : Ref sig .tc) → Buf (Elt Ideal) ((c : Thread nD τ).loc b))

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- The index maps over the grid's ten points: the three node windows (the stalks, the aggregated messages, the output)
    sit at block t of 10000 rows, the weight windows at block 0. -/
theorem index_maps : ∀ t : Fin cfg4.N,
    win4_0.index t (0 : Fin 3) = t.val ∧ win4_0.index t (1 : Fin 3) = 0 ∧ win4_0.index t (2 : Fin 3) = 0
    ∧ win4_1.index t (0 : Fin 3) = t.val ∧ win4_1.index t (1 : Fin 3) = 0 ∧ win4_1.index t (2 : Fin 3) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- Row p of block t is row t · 10000 + p of the table. -/
abbrev rowOf (t : Fin cfg4.N) (p : Fin 10000) : Fin 100000 :=
  ⟨t.val * 10000 + p.val, by have ht : t.val < 10 := t.isLt; omega⟩

/-- The stalks' block at point t reads the stalks at the block's rows. -/
theorem blk0_apply (c : Dev nD) (t : Fin cfg4.N) (p : Fin 10000) (d : Fin 2) (h : Fin 16) :
    iblk4 V c 0 t (ix3 p d h) = V c main_v108 (ix3 (rowOf t p) d h) := by
  show V c main_v108 (((cfg4.win 0).blk t).view.emb (ix3 p d h)) = _
  refine congrArg (V c main_v108) (funext fun a => Fin.ext ?_)
  obtain ⟨e0, e1, e2, -⟩ := index_maps t
  match a with
  | ⟨0, _⟩ => show win4_0.index t (0 : Fin 3) * 10000 + 1 * p.val = t.val * 10000 + p.val; omega
  | ⟨1, _⟩ => show win4_0.index t (1 : Fin 3) * 2 + 1 * d.val = d.val; omega
  | ⟨2, _⟩ => show win4_0.index t (2 : Fin 3) * 16 + 1 * h.val = h.val; omega

/-- The aggregated messages' block at point t likewise. -/
theorem blk1_apply (c : Dev nD) (t : Fin cfg4.N) (p : Fin 10000) (d : Fin 2) (h : Fin 16) :
    iblk4 V c 1 t (ix3 p d h) = V c main_v139 (ix3 (rowOf t p) d h) := by
  show V c main_v139 (((cfg4.win 1).blk t).view.emb (ix3 p d h)) = _
  refine congrArg (V c main_v139) (funext fun a => Fin.ext ?_)
  obtain ⟨-, -, -, e0, e1, e2, -⟩ := index_maps t
  match a with
  | ⟨0, _⟩ => show win4_1.index t (0 : Fin 3) * 10000 + 1 * p.val = t.val * 10000 + p.val; omega
  | ⟨1, _⟩ => show win4_1.index t (1 : Fin 3) * 2 + 1 * d.val = d.val; omega
  | ⟨2, _⟩ => show win4_1.index t (2 : Fin 3) * 16 + 1 * h.val = h.val; omega

/-- The diffusion weights are staged whole at every point. -/
theorem blk2_apply (c : Dev nD) (t : Fin cfg4.N) (a b : Fin 16) :
    iblk4 V c 2 t (ix2 a b) = V c main_v141 (ix2 a b) := by
  show V c main_v141 (((cfg4.win 2).blk t).view.emb (ix2 a b)) = _
  refine congrArg (V c main_v141) (funext fun x => Fin.ext ?_)
  obtain ⟨-, -, -, -, -, -, e0, e1, -⟩ := index_maps t
  match x with
  | ⟨0, _⟩ => show win4_2.index t (0 : Fin 2) * 16 + 1 * a.val = a.val; omega
  | ⟨1, _⟩ => show win4_2.index t (1 : Fin 2) * 16 + 1 * b.val = b.val; omega

/-- The output weights are staged whole at every point. -/
theorem blk3_apply (c : Dev nD) (t : Fin cfg4.N) (k : Fin 32) (q : Fin 10) :
    iblk4 V c 3 t (ix2 k q) = V c main_arg13 (ix2 k q) := by
  show V c main_arg13 (((cfg4.win 3).blk t).view.emb (ix2 k q)) = _
  refine congrArg (V c main_arg13) (funext fun x => Fin.ext ?_)
  obtain ⟨-, -, -, -, -, -, -, -, e0, e1, -⟩ := index_maps t
  match x with
  | ⟨0, _⟩ => show win4_3.index t (0 : Fin 2) * 32 + 1 * k.val = k.val; omega
  | ⟨1, _⟩ => show win4_3.index t (1 : Fin 2) * 10 + 1 * q.val = q.val; omega

/-- The bias is staged whole at every point. -/
theorem blk4_apply (c : Dev nD) (t : Fin cfg4.N) (q : Fin 10) :
    iblk4 V c 4 t (ix1 q) = V c main_arg14 (ix1 q) := by
  show V c main_arg14 (((cfg4.win 4).blk t).view.emb (ix1 q)) = _
  refine congrArg (V c main_arg14) (funext fun x => Fin.ext ?_)
  obtain ⟨-, -, -, -, -, -, -, -, -, -, e0, -⟩ := index_maps t
  match x with
  | ⟨0, _⟩ => show win4_4.index t (0 : Fin 1) * 10 + 1 * q.val = q.val; omega

/-- Entry (p, q) of the output's block at point t is entry (t · 10000 + p, q) of the output table. -/
theorem emb5_apply (t : Fin cfg4.N) (p : Fin 10000) (q : Fin 10) :
    ((cfg4.win 5).blk t).view.emb (ix2 p q) = ix2 (rowOf t p) q := by
  refine funext fun a => Fin.ext ?_
  obtain ⟨-, -, -, -, -, -, -, -, -, -, -, e0, e1⟩ := index_maps t
  match a with
  | ⟨0, _⟩ => show win4_5.index t (0 : Fin 2) * 10000 + 1 * p.val = t.val * 10000 + p.val; omega
  | ⟨1, _⟩ => show win4_5.index t (1 : Fin 2) * 10 + 1 * q.val = q.val; omega

/-- What the output table is to hold: the reference's output projection of one diffusion step of the arrays the region
    reads. -/
abbrev target (c : Dev nD) : FVec Ideal Cert.ReferenceIdeal.S100000x10 .f32 :=
  Cert.ReferenceIdeal.Stage.outOf (F := Ideal)
    (Cert.ReferenceIdeal.Stage.stepOf (V c main_v108) (V c main_v139) (V c main_v141)) (V c main_arg13) (V c main_arg14)

/-- What point t writes back is block t of the target: at row p of the block both are the output entry of node
    t · 10000 + p, computed from that node's rows and the whole weights. -/
theorem flushed_eq (c : Dev nD) (t : Fin cfg4.N) :
    (dat4 (F := Ideal) V c).flushed 5 t = ((cfg4.win 5).blk t).view.read (Elt Ideal) (target V c) := by
  show (cfg4.win 5).cut (grid4.coords t) ((dat4 V c).after 5 t) = _
  rw [after4_5]
  unfold out4_5
  rw [View.canon_unit_zero zero2]
  simp only [View.ld_unit_zero (S := S10000x2x16) zero3, View.ld_unit_zero (S := S16x16) zero2,
    View.ld_unit_zero (S := S32x10) zero2, View.ld_unit_zero (S := S10) zero1]
  funext j
  obtain ⟨p, q, rfl⟩ : ∃ (p : Fin 10000) (q : Fin 10), j = ix2 p q := ⟨j 0, j 1, eq_ix2 j⟩
  show k4_pay1 (iblk4 V c 0 t) (iblk4 V c 1 t) (iblk4 V c 2 t) (iblk4 V c 3 t) (iblk4 V c 4 t) (ix2 p q)
    = target V c (((cfg4.win 5).blk t).view.emb (ix2 p q))
  rw [emb5_apply]
  have e0 : (fun (d : Fin 2) (h : Fin 16) => (iblk4 V c 0 t (ix3 p d h) : EReal))
      = fun d h => V c main_v108 (ix3 (rowOf t p) d h) :=
    funext fun d => funext fun h => blk0_apply V c t p d h
  have e1 : (fun (d : Fin 2) (h : Fin 16) => (iblk4 V c 1 t (ix3 p d h) : EReal))
      = fun d h => V c main_v139 (ix3 (rowOf t p) d h) :=
    funext fun d => funext fun h => blk1_apply V c t p d h
  have e2 : (fun (a b : Fin 16) => (iblk4 V c 2 t (ix2 a b) : EReal)) = fun a b => V c main_v141 (ix2 a b) :=
    funext fun a => funext fun b => blk2_apply V c t a b
  have e3 : (fun (k : Fin 32) => (iblk4 V c 3 t (ix2 k q) : EReal)) = fun k => V c main_arg13 (ix2 k q) :=
    funext fun k => blk3_apply V c t k q
  have e4 : (iblk4 V c 4 t (ix1 q) : EReal) = V c main_arg14 (ix1 q) := blk4_apply V c t q
  exact (pay_apply _ _ _ _ _ p q).trans
    ((congr (congr (congr (congr (congrArg rowOut e0) e1) e2) e3) e4).trans
      (ref_apply _ _ _ _ _ (rowOf t p) q).symm)

/-- An index of the output table is in point t's block iff each coordinate is in the block's range on its axis. -/
theorem mem_blk5 (t : Fin cfg4.N) (i : S100000x10.Idx) :
    i ∈ ((cfg4.win 5).blk t).view.set ↔ ∀ a : Fin 2, win4_5.index t a * S10000x10.size a ≤ (i a).val
      ∧ (i a).val < win4_5.index t a * S10000x10.size a + S10000x10.size a := by
  show i ∈ ((View.whole main_v142).slice (win4_5.rect t)).set ↔ _
  rw [View.set_slice_whole, Rect.mem_set_unit]
  exact Iff.rfl

/-- Every row r of the output table is in the block of point r / 10000, and every point writes its block back. -/
theorem covered (i : S100000x10.Idx) :
    ∃ t : Fin cfg4.N, (cfg4.win 5).flush t = true ∧ i ∈ ((cfg4.win 5).blk t).view.set := by
  have hi0 : (i 0).val < 100000 := (i 0).isLt
  have hi1 : (i 1).val < 10 := (i 1).isLt
  obtain ⟨t, ht⟩ : ∃ t : Fin cfg4.N, t.val = (i 0).val / 10000 :=
    ⟨⟨(i 0).val / 10000, by show _ < 10; omega⟩, rfl⟩
  refine ⟨t, flush4_5 t, ?_⟩
  rw [mem_blk5]
  obtain ⟨-, -, -, -, -, -, -, -, -, -, -, e0, e1⟩ := index_maps t
  intro a
  match a with
  | ⟨0, _⟩ =>
    show win4_5.index t (0 : Fin 2) * 10000 ≤ (i 0).val ∧ (i 0).val < win4_5.index t (0 : Fin 2) * 10000 + 10000
    omega
  | ⟨1, _⟩ =>
    show win4_5.index t (1 : Fin 2) * 10 ≤ (i 1).val ∧ (i 1).val < win4_5.index t (1 : Fin 2) * 10 + 10
    omega

theorem out_eq (c : Dev nD) : (dat4 (F := Ideal) V c).arrAt 5 cfg4.N = Cert.ReferenceIdeal.Stage.outOf (F := Ideal) (Cert.ReferenceIdeal.Stage.stepOf (V c main_v108) (V c main_v139) (V c main_v141)) (V c main_arg13) (V c main_arg14) :=
  (dat4 (F := Ideal) V c).arrAt_eq_of_cover 5 (target V c) (fun t _ => flushed_eq V c t) covered

end Cert.KernelIdeal.Region4

end
-- ==== Proof.GatherRows.lean ====
import proofs.«417419_j39436389712331_2_alg».proof.Proof.Gen.KernelIdeal
import proofs.«417419_j39436389712331_2_alg».proof.Proof.Gen.ReferenceIdeal
import Idealize.ShloMosaic.PureOps.Ideal
import Idealize.ShloMosaic.Lib.ValueIdx

set_option maxRecDepth 16384

noncomputable section

namespace Cert.KernelIdeal.GatherRows

open Idealize.ShloMosaic Idealize.ShloMosaic.TcCoe Idealize.SL.Sem
/-! A row gather read at an index: the table's row at the node the index column names, whatever the table's row shape. -/

/-- The node an edge's entry of an index column names: read signed, then clamped into [0, N − 1]. -/
def nodeOf (idx : IVec (⟨2, ![1600000, 1]⟩ : Shape) 32) (e : Fin 1600000) : Fin 100000 :=
  ⟨min (idx (ValueIdx.ix2 e (0 : Fin 1))).toInt.toNat 99999, by omega⟩

/-! ## The N × 2 table

The operand index of result entry (e, j) is, axis by axis, the clamped start plus the batching coordinate plus the
offset coordinate. There are no batching axes. Axis 0 is collapsed and is the one axis of the start index map: it
carries the clamped start and no offset. Axis 1 is the one offset axis: it carries no start and the offset j. -/

/-- The one component of the start index of result entry (e, j) is read off the index column at (e, 0): the edge
    coordinate on the column's batch axis, and 0 on the index vector's axis, whose extent is 1. -/
theorem pair_si (e : Fin 1600000) (j : Fin 2) (c : Fin gather_S100000x2_S1600000x1_S1600000x2_1_0_n_n_0_1_12.startIndexMap.length) :
    gather_S100000x2_S1600000x1_S1600000x2_1_0_n_n_0_1_12.siIdx (ValueIdx.ix2 e j) c = ValueIdx.ix2 e (0 : Fin 1) := by
  funext b
  refine Fin.ext ?_
  match b with
  | ⟨0, _⟩ => rfl
  | ⟨1, _⟩ =>
    show c.val = 0
    exact Nat.lt_one_iff.mp c.isLt

/-- Axis 0 of the operand index: the node. The slice has one row, so the start is clamped into [0, 100000 − 1]. -/
theorem pair_axis0 (idx : IVec (⟨2, ![1600000, 1]⟩ : Shape) 32) (e : Fin 1600000) (j : Fin 2) :
    gather_S100000x2_S1600000x1_S1600000x2_1_0_n_n_0_1_12.start (ValueIdx.ix2 e j) idx 0 + gather_S100000x2_S1600000x1_S1600000x2_1_0_n_n_0_1_12.batchCoord (ValueIdx.ix2 e j) 0
      + gather_S100000x2_S1600000x1_S1600000x2_1_0_n_n_0_1_12.offCoord (ValueIdx.ix2 e j) 0 = (nodeOf idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x2_S1600000x1_S1600000x2_1_0_n_n_0_1_12.startIndexMap from List.mem_singleton.mpr rfl)]
  rw [pair_si]
  rfl

/-- Axis 1 of the operand index: the row's own coordinate j (no start on an axis outside the start index map). -/
theorem pair_axis1 (idx : IVec (⟨2, ![1600000, 1]⟩ : Shape) 32) (e : Fin 1600000) (j : Fin 2) :
    gather_S100000x2_S1600000x1_S1600000x2_1_0_n_n_0_1_12.start (ValueIdx.ix2 e j) idx 1 + gather_S100000x2_S1600000x1_S1600000x2_1_0_n_n_0_1_12.batchCoord (ValueIdx.ix2 e j) 1
      + gather_S100000x2_S1600000x1_S1600000x2_1_0_n_n_0_1_12.offCoord (ValueIdx.ix2 e j) 1 = j.val := by
  rw [GatherDims.batchCoord_eq_zero _ _ _ List.not_mem_nil]
  have hs : gather_S100000x2_S1600000x1_S1600000x2_1_0_n_n_0_1_12.start (ValueIdx.ix2 e j) idx 1 = 0 := by
    unfold GatherDims.start
    rw [dif_neg (show ¬ (1 : Fin 2) ∈ gather_S100000x2_S1600000x1_S1600000x2_1_0_n_n_0_1_12.startIndexMap from by decide)]
  have ho : gather_S100000x2_S1600000x1_S1600000x2_1_0_n_n_0_1_12.offCoord (ValueIdx.ix2 e j) 1 = j.val := by
    unfold GatherDims.offCoord
    rw [dif_pos ((GatherDims.mem_sKept _ _).mpr ⟨by decide, List.not_mem_nil⟩)]
    rfl
  rw [hs, ho, Nat.add_zero, Nat.zero_add]

/-- Gathering rows of an N × 2 table (the kernel program's gather of the (sin, cos) pairs). -/
theorem pair_gather {α : Type} (sc : (⟨2, ![100000, 2]⟩ : Shape).Idx → α) (idx : IVec (⟨2, ![1600000, 1]⟩ : Shape) 32) (e : Fin 1600000) (j : Fin 2) :
    Host.gather Cert.KernelIdeal.gather_S100000x2_S1600000x1_S1600000x2_1_0_n_n_0_1_12 sc idx (ValueIdx.ix2 e j) = sc (ValueIdx.ix2 (nodeOf idx e) j) := by
  unfold Host.gather
  congr 1
  funext a
  refine Fin.ext ?_
  match a with
  | ⟨0, _⟩ => exact pair_axis0 idx e j
  | ⟨1, _⟩ => exact pair_axis1 idx e j

/-! ## The N × 2 × 2 table

The same reading with two offset axes: axis 0 carries the clamped start, axes 1 and 2 carry the offsets k and a,
which are the result's coordinates on its own axes 1 and 2 (the offset axes, in the order of the operand's kept axes). -/

/-- The start index of result entry (e, k, a) is again read off the index column at (e, 0). -/
theorem rot_si (e : Fin 1600000) (k a : Fin 2)
    (c : Fin Cert.ReferenceIdeal.gather_S100000x2x2_S1600000x1_S1600000x2x2_12_0_n_n_0_1_122.startIndexMap.length) :
    Cert.ReferenceIdeal.gather_S100000x2x2_S1600000x1_S1600000x2x2_12_0_n_n_0_1_122.siIdx (ValueIdx.ix3 e k a) c = ValueIdx.ix2 e (0 : Fin 1) := by
  funext b
  refine Fin.ext ?_
  match b with
  | ⟨0, _⟩ => rfl
  | ⟨1, _⟩ =>
    show c.val = 0
    exact Nat.lt_one_iff.mp c.isLt

/-- Axis 0 of the operand index: the node. -/
theorem rot_axis0 (idx : IVec (⟨2, ![1600000, 1]⟩ : Shape) 32) (e : Fin 1600000) (k a : Fin 2) :
    Cert.ReferenceIdeal.gather_S100000x2x2_S1600000x1_S1600000x2x2_12_0_n_n_0_1_122.start (ValueIdx.ix3 e k a) idx 0
      + Cert.ReferenceIdeal.gather_S100000x2x2_S1600000x1_S1600000x2x2_12_0_n_n_0_1_122.batchCoord (ValueIdx.ix3 e k a) 0
      + Cert.ReferenceIdeal.gather_S100000x2x2_S1600000x1_S1600000x2x2_12_0_n_n_0_1_122.offCoord (ValueIdx.ix3 e k a) 0 = (nodeOf idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ Cert.ReferenceIdeal.gather_S100000x2x2_S1600000x1_S1600000x2x2_12_0_n_n_0_1_122.startIndexMap from List.mem_singleton.mpr rfl)]
  rw [rot_si]
  rfl

/-- Axis 1 of the operand index: the first offset, k. -/
theorem rot_axis1 (idx : IVec (⟨2, ![1600000, 1]⟩ : Shape) 32) (e : Fin 1600000) (k a : Fin 2) :
    Cert.ReferenceIdeal.gather_S100000x2x2_S1600000x1_S1600000x2x2_12_0_n_n_0_1_122.start (ValueIdx.ix3 e k a) idx 1
      + Cert.ReferenceIdeal.gather_S100000x2x2_S1600000x1_S1600000x2x2_12_0_n_n_0_1_122.batchCoord (ValueIdx.ix3 e k a) 1
      + Cert.ReferenceIdeal.gather_S100000x2x2_S1600000x1_S1600000x2x2_12_0_n_n_0_1_122.offCoord (ValueIdx.ix3 e k a) 1 = k.val := by
  rw [GatherDims.batchCoord_eq_zero _ _ _ List.not_mem_nil]
  have hs : Cert.ReferenceIdeal.gather_S100000x2x2_S1600000x1_S1600000x2x2_12_0_n_n_0_1_122.start (ValueIdx.ix3 e k a) idx 1 = 0 := by
    unfold GatherDims.start
    rw [dif_neg (show ¬ (1 : Fin 3) ∈ Cert.ReferenceIdeal.gather_S100000x2x2_S1600000x1_S1600000x2x2_12_0_n_n_0_1_122.startIndexMap from by decide)]
  have ho : Cert.ReferenceIdeal.gather_S100000x2x2_S1600000x1_S1600000x2x2_12_0_n_n_0_1_122.offCoord (ValueIdx.ix3 e k a) 1 = k.val := by
    unfold GatherDims.offCoord
    rw [dif_pos ((GatherDims.mem_sKept _ _).mpr ⟨by decide, List.not_mem_nil⟩)]
    rfl
  rw [hs, ho, Nat.add_zero, Nat.zero_add]

/-- Axis 2 of the operand index: the second offset, a. -/
theorem rot_axis2 (idx : IVec (⟨2, ![1600000, 1]⟩ : Shape) 32) (e : Fin 1600000) (k a : Fin 2) :
    Cert.ReferenceIdeal.gather_S100000x2x2_S1600000x1_S1600000x2x2_12_0_n_n_0_1_122.start (ValueIdx.ix3 e k a) idx 2
      + Cert.ReferenceIdeal.gather_S100000x2x2_S1600000x1_S1600000x2x2_12_0_n_n_0_1_122.batchCoord (ValueIdx.ix3 e k a) 2
      + Cert.ReferenceIdeal.gather_S100000x2x2_S1600000x1_S1600000x2x2_12_0_n_n_0_1_122.offCoord (ValueIdx.ix3 e k a) 2 = a.val := by
  rw [GatherDims.batchCoord_eq_zero _ _ _ List.not_mem_nil]
  have hs : Cert.ReferenceIdeal.gather_S100000x2x2_S1600000x1_S1600000x2x2_12_0_n_n_0_1_122.start (ValueIdx.ix3 e k a) idx 2 = 0 := by
    unfold GatherDims.start
    rw [dif_neg (show ¬ (2 : Fin 3) ∈ Cert.ReferenceIdeal.gather_S100000x2x2_S1600000x1_S1600000x2x2_12_0_n_n_0_1_122.startIndexMap from by decide)]
  have ho : Cert.ReferenceIdeal.gather_S100000x2x2_S1600000x1_S1600000x2x2_12_0_n_n_0_1_122.offCoord (ValueIdx.ix3 e k a) 2 = a.val := by
    unfold GatherDims.offCoord
    rw [dif_pos ((GatherDims.mem_sKept _ _).mpr ⟨by decide, List.not_mem_nil⟩)]
    rfl
  rw [hs, ho, Nat.add_zero, Nat.zero_add]

/-- Gathering rows of an N × 2 × 2 table (the reference program's gather of the rotations). -/
theorem rot_gather {α : Type} (R : (⟨3, ![100000, 2, 2]⟩ : Shape).Idx → α) (idx : IVec (⟨2, ![1600000, 1]⟩ : Shape) 32) (e : Fin 1600000) (k a : Fin 2) :
    Host.gather Cert.ReferenceIdeal.gather_S100000x2x2_S1600000x1_S1600000x2x2_12_0_n_n_0_1_122 R idx (ValueIdx.ix3 e k a) = R (ValueIdx.ix3 (nodeOf idx e) k a) := by
  unfold Host.gather
  congr 1
  funext b
  refine Fin.ext ?_
  match b with
  | ⟨0, _⟩ => exact rot_axis0 idx e k a
  | ⟨1, _⟩ => exact rot_axis1 idx e k a
  | ⟨2, _⟩ => exact rot_axis2 idx e k a

end Cert.KernelIdeal.GatherRows

end
-- ==== Proof.MsgAlg.lean ====
import proofs.«417419_j39436389712331_2_alg».proof.Proof.Stage
import proofs.«417419_j39436389712331_2_alg».proof.Proof.KMsg
import proofs.«417419_j39436389712331_2_alg».proof.Proof.GatherRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MsgAlg

open Idealize.ShloMosaic Idealize.ShloMosaic.TcCoe Idealize.SL.Sem
open Idealize.ShloMosaic.ValueIdx
open Cert.KernelIdeal.GatherRows (nodeOf)
/-! The kernel program's rotation by the angle difference IS the reference's transport map R(dst)ᵀ · R(src) applied to the
    source's features: entry by entry the products of the rotations' entries are the addition formulas. Every sine and cosine
    here is a real number (the angle is tanh (…) · 2π, and tanh is real-valued on all the extended reals), which is what lets
    the signs move; the features and the edge norm may be any extended reals. -/

/-! ### Real values -/

/-- tanh of any extended real is a real number: −1 and 1 at the two infinities, the real tanh elsewhere. -/
theorem tanh_real (y : EReal) : ∃ r : ℝ, Ideal.tanh y = (r : EReal) := by
  induction y using EReal.rec with
  | bot => exact ⟨-1, rfl⟩
  | top => exact ⟨1, rfl⟩
  | coe r => exact ⟨Real.tanh r, rfl⟩

/-- The single-precision word of 2π has an exponent field that is neither all ones nor zero: it denotes a finite real. -/
theorem twoPi_real : ∃ r : ℝ, Ideal.ofBits .f32 0x40C90FDB#32 = (r : EReal) := by
  unfold Ideal.ofBits Ideal.ieee
  dsimp only
  rw [if_neg (by decide), if_neg (by decide)]
  exact ⟨_, rfl⟩

/-- tanh of anything, times a real, is a real: the product of two reals. -/
theorem tanh_mul_real {s : Shape} (y c : FVec Ideal s .f32) (i : s.Idx) (hc : ∃ r : ℝ, c i = (r : EReal)) :
    ∃ r : ℝ, mulf (Host.tanh y) c i = (r : EReal) := by
  obtain ⟨r₁, h₁⟩ := tanh_real (y i)
  obtain ⟨r₂, h₂⟩ := hc
  refine ⟨r₁ * r₂, ?_⟩
  rw [mulf_apply, h₂, EReal.coe_mul]
  exact congrArg (· * (r₂ : EReal)) h₁

/-! ### The law: the addition formulas are the entries of R(t)ᵀ · R(s)

With S_s, C_s, S_t, C_t the sines and cosines at the source and the target, R = [[C, −S], [S, C]], the four entries of
R(t)ᵀ · R(s) are sums of two products of reals, so they may be computed in ℝ:
  (0,0) and (1,1): C_t C_s + S_t S_s = cos (s − t),   (1,0): −S_t C_s + C_t S_s = sin (s − t),   (0,1): −sin (s − t).
The features x0, x1 and the norm n are arbitrary extended reals: nothing is distributed over them and nothing is cancelled;
the one law used on them is (−r) · x = −(r · x), and a − b = a + (−b). -/

/-- Stalk row 0: (cosΔ · x0 − sinΔ · x1) · n against row 0 of R(t)ᵀ · R(s) applied to (x0, x1), times n. -/
theorem law0 (Ss Cs St Ct : ℝ) (x0 x1 n : EReal) :
    (((Cs : EReal) * Ct + (Ss : EReal) * St) * x0 - ((Ss : EReal) * Ct - (Cs : EReal) * St) * x1) * n
      = (((Ct : EReal) * Cs + (St : EReal) * Ss) * x0 + ((Ct : EReal) * (-(Ss : EReal)) + (St : EReal) * Cs) * x1) * n := by
  have h00 : ((Ct : EReal) * Cs + (St : EReal) * Ss) = (Cs : EReal) * Ct + (Ss : EReal) * St := by
    rw [mul_comm (Ct : EReal), mul_comm (St : EReal)]
  have h01 : ((Ct : EReal) * (-(Ss : EReal)) + (St : EReal) * Cs) = -((Ss : EReal) * Ct - (Cs : EReal) * St) := by
    rw [← EReal.coe_neg, ← EReal.coe_mul, ← EReal.coe_mul, ← EReal.coe_add, ← EReal.coe_mul, ← EReal.coe_mul,
      ← EReal.coe_sub, ← EReal.coe_neg]
    congr 1; ring
  rw [h00, h01, EReal.neg_mul, sub_eq_add_neg]

/-- Stalk row 1: (sinΔ · x0 + cosΔ · x1) · n against row 1 of R(t)ᵀ · R(s) applied to (x0, x1), times n. -/
theorem law1 (Ss Cs St Ct : ℝ) (x0 x1 n : EReal) :
    (((Ss : EReal) * Ct - (Cs : EReal) * St) * x0 + ((Cs : EReal) * Ct + (Ss : EReal) * St) * x1) * n
      = (((-(St : EReal)) * Cs + (Ct : EReal) * Ss) * x0 + ((-(St : EReal)) * (-(Ss : EReal)) + (Ct : EReal) * Cs) * x1) * n := by
  have h10 : ((-(St : EReal)) * Cs + (Ct : EReal) * Ss) = (Ss : EReal) * Ct - (Cs : EReal) * St := by
    rw [← EReal.coe_neg, ← EReal.coe_mul, ← EReal.coe_mul, ← EReal.coe_add, ← EReal.coe_mul, ← EReal.coe_mul,
      ← EReal.coe_sub]
    congr 1; ring
  have h11 : ((-(St : EReal)) * (-(Ss : EReal)) + (Ct : EReal) * Cs) = (Cs : EReal) * Ct + (Ss : EReal) * St := by
    rw [← EReal.coe_neg, ← EReal.coe_neg, ← EReal.coe_mul, ← EReal.coe_mul, ← EReal.coe_add, ← EReal.coe_mul,
      ← EReal.coe_mul, ← EReal.coe_add]
    congr 1; ring
  rw [h10, h11]

/-! ### The kernel program's side, entry by entry -/

/-- The gathered pair table at edge `e` is the pair of the node the index column names. -/
theorem pairAt_entry (sc : FVec Ideal Cert.KernelIdeal.S100000x2 .f32) (i : IVec Cert.KernelIdeal.S1600000 32) (e : Fin 1600000) (j : Fin 2) :
    Cert.KernelIdeal.KMsg.pairAt sc i (ix2 e j) = sc (ix2 (nodeOf (Cert.KernelIdeal.KMsg.wrap i) e) j) :=
  Cert.KernelIdeal.GatherRows.pair_gather sc (Cert.KernelIdeal.KMsg.wrap i) e j

/-- Column 0 of a pair table. -/
theorem sinCol_entry (p : FVec Ideal Cert.KernelIdeal.S1600000x2 .f32) (e : Fin 1600000) :
    Cert.KernelIdeal.KMsg.sinCol p (ix2 e 0) = p (ix2 e 0) :=
  slice2_axis1_apply 0 p _ e 0 0 rfl

/-- Column 1 of a pair table. -/
theorem cosCol_entry (p : FVec Ideal Cert.KernelIdeal.S1600000x2 .f32) (e : Fin 1600000) :
    Cert.KernelIdeal.KMsg.cosCol p (ix2 e 0) = p (ix2 e 1) :=
  slice2_axis1_apply 1 p _ e 0 1 rfl

/-- A column spread over the 16 channels reads the column's one entry of that edge at every channel. -/
theorem spread_entry (v : FVec Ideal Cert.KernelIdeal.S1600000x1 .f32) (e : Fin 1600000) (h : Fin 16) :
    Cert.KernelIdeal.KMsg.spread v (ix2 e h) = v (ix2 e 0) :=
  broadcastInDim_apply _ _ _ _ (ix2 e 0) (fun a => by match a with | ⟨0, _⟩ => rfl | ⟨1, _⟩ => rfl)

/-- Stalk row 0 of the features: (e, h) sits at row-major position 16 e + h both in E × 1 × 16 and in E × 16. -/
theorem row0_entry (xg : FVec Ideal Cert.KernelIdeal.S1600000x2x16 .f32) (e : Fin 1600000) (h : Fin 16) :
    Cert.KernelIdeal.KMsg.row0 xg (ix2 e h) = xg (ix3 e 0 h) := by
  unfold Cert.KernelIdeal.KMsg.row0
  refine (shapeCast_apply _ _ (ix2 e h) (ix3 e 0 h) ?_).trans (slice3_axis1_apply 0 xg _ e 0 h 0 rfl)
  rw [Shape.rowMajor_val_three, Shape.rowMajor_val_two]
  show (e.val * 1 + 0) * 16 + h.val = e.val * 16 + h.val
  omega

/-- Stalk row 1 of the features. -/
theorem row1_entry (xg : FVec Ideal Cert.KernelIdeal.S1600000x2x16 .f32) (e : Fin 1600000) (h : Fin 16) :
    Cert.KernelIdeal.KMsg.row1 xg (ix2 e h) = xg (ix3 e 1 h) := by
  unfold Cert.KernelIdeal.KMsg.row1
  refine (shapeCast_apply _ _ (ix2 e h) (ix3 e 0 h) ?_).trans (slice3_axis1_apply 1 xg _ e 0 h 1 rfl)
  rw [Shape.rowMajor_val_three, Shape.rowMajor_val_two]
  show (e.val * 1 + 0) * 16 + h.val = e.val * 16 + h.val
  omega

/-- The edge norms as a column. -/
theorem nrmCol_entry (nrm : FVec Ideal Cert.KernelIdeal.S1600000 .f32) (e : Fin 1600000) :
    broadcastInDim Cert.KernelIdeal.S1600000x1 ![0] Cert.KernelIdeal.Gen.bcast_S1600000_S1600000x1_0 nrm (ix2 e 0) = nrm (ix1 e) :=
  broadcastInDim_apply _ _ _ _ (ix1 e) (fun a => by match a with | ⟨0, _⟩ => rfl)

/-- The kernel program's message on stalk row 0: (cosΔ · x0 − sinΔ · x1) · nrm, with cosΔ and sinΔ spelt by the addition
    formulas from the pairs at the source `s` and the target `t` (entry 0 of a pair the sine, entry 1 the cosine). -/
theorem msgK_entry0 (sc : FVec Ideal Cert.KernelIdeal.S100000x2 .f32) (xg : FVec Ideal Cert.KernelIdeal.S1600000x2x16 .f32)
    (src dst : IVec Cert.KernelIdeal.S1600000 32) (nrm : FVec Ideal Cert.KernelIdeal.S1600000 .f32) (e : Fin 1600000) (h : Fin 16) :
    Cert.KernelIdeal.KMsg.msgK sc xg src dst nrm (ix3 e 0 h)
      = ((sc (ix2 (nodeOf (Cert.KernelIdeal.KMsg.wrap src) e) 1) * sc (ix2 (nodeOf (Cert.KernelIdeal.KMsg.wrap dst) e) 1)
            + sc (ix2 (nodeOf (Cert.KernelIdeal.KMsg.wrap src) e) 0) * sc (ix2 (nodeOf (Cert.KernelIdeal.KMsg.wrap dst) e) 0)) * xg (ix3 e 0 h)
          - (sc (ix2 (nodeOf (Cert.KernelIdeal.KMsg.wrap src) e) 0) * sc (ix2 (nodeOf (Cert.KernelIdeal.KMsg.wrap dst) e) 1)
            - sc (ix2 (nodeOf (Cert.KernelIdeal.KMsg.wrap src) e) 1) * sc (ix2 (nodeOf (Cert.KernelIdeal.KMsg.wrap dst) e) 0)) * xg (ix3 e 1 h))
        * nrm (ix1 e) := by
  unfold Cert.KernelIdeal.KMsg.msgK
  refine (concatenate_pair_apply_left (t := Cert.KernelIdeal.S1600000x2x16) (s₁ := Cert.KernelIdeal.S1600000x1x16)
    (s₂ := Cert.KernelIdeal.S1600000x1x16) 1 _ _ _ (ix3 (n1 := 2) e 0 h) rfl (ix3 (n1 := 1) e 0 h)
    (fun b => by match b with | ⟨0, _⟩ => rfl | ⟨1, _⟩ => rfl | ⟨2, _⟩ => rfl)).trans ?_
  refine (broadcastInDim_apply _ _ _ (ix3 (n1 := 1) e 0 h) (ix2 e h) (fun a => by match a with | ⟨0, _⟩ => rfl | ⟨1, _⟩ => rfl)).trans ?_
  simp only [mulf_apply, subf_apply, addf_apply, Cert.KernelIdeal.KMsg.cosDelta, Cert.KernelIdeal.KMsg.sinDelta, spread_entry,
    row0_entry, row1_entry, sinCol_entry, cosCol_entry, pairAt_entry]
  exact congrArg (fun z => _ * z) (nrmCol_entry nrm e)

/-- The kernel program's message on stalk row 1: (sinΔ · x0 + cosΔ · x1) · nrm. -/
theorem msgK_entry1 (sc : FVec Ideal Cert.KernelIdeal.S100000x2 .f32) (xg : FVec Ideal Cert.KernelIdeal.S1600000x2x16 .f32)
    (src dst : IVec Cert.KernelIdeal.S1600000 32) (nrm : FVec Ideal Cert.KernelIdeal.S1600000 .f32) (e : Fin 1600000) (h : Fin 16) :
    Cert.KernelIdeal.KMsg.msgK sc xg src dst nrm (ix3 e 1 h)
      = ((sc (ix2 (nodeOf (Cert.KernelIdeal.KMsg.wrap src) e) 0) * sc (ix2 (nodeOf (Cert.KernelIdeal.KMsg.wrap dst) e) 1)
            - sc (ix2 (nodeOf (Cert.KernelIdeal.KMsg.wrap src) e) 1) * sc (ix2 (nodeOf (Cert.KernelIdeal.KMsg.wrap dst) e) 0)) * xg (ix3 e 0 h)
          + (sc (ix2 (nodeOf (Cert.KernelIdeal.KMsg.wrap src) e) 1) * sc (ix2 (nodeOf (Cert.KernelIdeal.KMsg.wrap dst) e) 1)
            + sc (ix2 (nodeOf (Cert.KernelIdeal.KMsg.wrap src) e) 0) * sc (ix2 (nodeOf (Cert.KernelIdeal.KMsg.wrap dst) e) 0)) * xg (ix3 e 1 h))
        * nrm (ix1 e) := by
  unfold Cert.KernelIdeal.KMsg.msgK
  refine (concatenate_pair_apply_right (t := Cert.KernelIdeal.S1600000x2x16) (s₁ := Cert.KernelIdeal.S1600000x1x16)
    (s₂ := Cert.KernelIdeal.S1600000x1x16) 1 _ _ _ (ix3 (n1 := 2) e 1 h) rfl rfl (ix3 (n1 := 1) e 0 h)
    (fun b => by match b with | ⟨0, _⟩ => exact fun _ => rfl | ⟨1, _⟩ => exact fun hne => absurd rfl hne | ⟨2, _⟩ => exact fun _ => rfl) rfl).trans ?_
  refine (broadcastInDim_apply _ _ _ (ix3 (n1 := 1) e 0 h) (ix2 e h) (fun a => by match a with | ⟨0, _⟩ => rfl | ⟨1, _⟩ => rfl)).trans ?_
  simp only [mulf_apply, subf_apply, addf_apply, Cert.KernelIdeal.KMsg.cosDelta, Cert.KernelIdeal.KMsg.sinDelta, spread_entry,
    row0_entry, row1_entry, sinCol_entry, cosCol_entry, pairAt_entry]
  exact congrArg (fun z => _ * z) (nrmCol_entry nrm e)

/-- The pair the kernel keeps per node: entry 0 the sine of the node's angle. -/
theorem sincos_entry0 (ang : FVec Ideal Cert.ReferenceIdeal.S100000x1 .f32) (n : Fin 100000) :
    Cert.ReferenceIdeal.Stage.sincosOf (F := Ideal) ang (ix2 n 0) = Ideal.sin (ang (ix2 n 0)) := rfl

/-- Entry 1 the cosine. -/
theorem sincos_entry1 (ang : FVec Ideal Cert.ReferenceIdeal.S100000x1 .f32) (n : Fin 100000) :
    Cert.ReferenceIdeal.Stage.sincosOf (F := Ideal) ang (ix2 n 1) = Ideal.cos (ang (ix2 n 0)) := rfl

/-! ### The reference's rotation table, entry by entry -/

/-- Four N × 1 columns laid side by side: column 0 of row `n` is the first column's entry at `n`. -/
theorem cat4_0 {α : Type} (x0 x1 x2 x3 : Cert.ReferenceIdeal.S100000x1.Idx → α) (n : Fin 100000) :
    concatenate Cert.ReferenceIdeal.S100000x4 1 [⟨Cert.ReferenceIdeal.S100000x1, x0⟩, ⟨Cert.ReferenceIdeal.S100000x1, x1⟩, ⟨Cert.ReferenceIdeal.S100000x1, x2⟩, ⟨Cert.ReferenceIdeal.S100000x1, x3⟩]
        Cert.ReferenceIdeal.Gen.concatenates_S100000x1_S100000x1_S100000x1_S100000x1_S100000x4_d1 (ix2 n 0) = x0 (ix2 n 0) :=
  concatenate_apply_piece (t := Cert.ReferenceIdeal.S100000x4) 1 [⟨Cert.ReferenceIdeal.S100000x1, x0⟩, ⟨Cert.ReferenceIdeal.S100000x1, x1⟩, ⟨Cert.ReferenceIdeal.S100000x1, x2⟩, ⟨Cert.ReferenceIdeal.S100000x1, x3⟩]
    Cert.ReferenceIdeal.Gen.concatenates_S100000x1_S100000x1_S100000x1_S100000x1_S100000x4_d1
    (ix2 (n1 := 4) n 0) 0 (by show 0 < 4; omega) Cert.ReferenceIdeal.S100000x1 x0 rfl rfl 0 rfl (ix2 (n1 := 1) n 0)
    (fun b => by match b with | ⟨0, _⟩ => exact fun _ => rfl | ⟨1, _⟩ => exact fun hne => absurd rfl hne) rfl

/-- Four N × 1 columns laid side by side: column 1 of row `n` is the second column's entry at `n`. -/
theorem cat4_1 {α : Type} (x0 x1 x2 x3 : Cert.ReferenceIdeal.S100000x1.Idx → α) (n : Fin 100000) :
    concatenate Cert.ReferenceIdeal.S100000x4 1 [⟨Cert.ReferenceIdeal.S100000x1, x0⟩, ⟨Cert.ReferenceIdeal.S100000x1, x1⟩, ⟨Cert.ReferenceIdeal.S100000x1, x2⟩, ⟨Cert.ReferenceIdeal.S100000x1, x3⟩]
        Cert.ReferenceIdeal.Gen.concatenates_S100000x1_S100000x1_S100000x1_S100000x1_S100000x4_d1 (ix2 n 1) = x1 (ix2 n 0) :=
  concatenate_apply_piece (t := Cert.ReferenceIdeal.S100000x4) 1 [⟨Cert.ReferenceIdeal.S100000x1, x0⟩, ⟨Cert.ReferenceIdeal.S100000x1, x1⟩, ⟨Cert.ReferenceIdeal.S100000x1, x2⟩, ⟨Cert.ReferenceIdeal.S100000x1, x3⟩]
    Cert.ReferenceIdeal.Gen.concatenates_S100000x1_S100000x1_S100000x1_S100000x1_S100000x4_d1
    (ix2 (n1 := 4) n 1) 1 (by show 1 < 4; omega) Cert.ReferenceIdeal.S100000x1 x1 rfl rfl 1 rfl (ix2 (n1 := 1) n 0)
    (fun b => by match b with | ⟨0, _⟩ => exact fun _ => rfl | ⟨1, _⟩ => exact fun hne => absurd rfl hne) rfl

/-- Four N × 1 columns laid side by side: column 2 of row `n` is the third column's entry at `n`. -/
theorem cat4_2 {α : Type} (x0 x1 x2 x3 : Cert.ReferenceIdeal.S100000x1.Idx → α) (n : Fin 100000) :
    concatenate Cert.ReferenceIdeal.S100000x4 1 [⟨Cert.ReferenceIdeal.S100000x1, x0⟩, ⟨Cert.ReferenceIdeal.S100000x1, x1⟩, ⟨Cert.ReferenceIdeal.S100000x1, x2⟩, ⟨Cert.ReferenceIdeal.S100000x1, x3⟩]
        Cert.ReferenceIdeal.Gen.concatenates_S100000x1_S100000x1_S100000x1_S100000x1_S100000x4_d1 (ix2 n 2) = x2 (ix2 n 0) :=
  concatenate_apply_piece (t := Cert.ReferenceIdeal.S100000x4) 1 [⟨Cert.ReferenceIdeal.S100000x1, x0⟩, ⟨Cert.ReferenceIdeal.S100000x1, x1⟩, ⟨Cert.ReferenceIdeal.S100000x1, x2⟩, ⟨Cert.ReferenceIdeal.S100000x1, x3⟩]
    Cert.ReferenceIdeal.Gen.concatenates_S100000x1_S100000x1_S100000x1_S100000x1_S100000x4_d1
    (ix2 (n1 := 4) n 2) 2 (by show 2 < 4; omega) Cert.ReferenceIdeal.S100000x1 x2 rfl rfl 2 rfl (ix2 (n1 := 1) n 0)
    (fun b => by match b with | ⟨0, _⟩ => exact fun _ => rfl | ⟨1, _⟩ => exact fun hne => absurd rfl hne) rfl

/-- Four N × 1 columns laid side by side: column 3 of row `n` is the fourth column's entry at `n`. -/
theorem cat4_3 {α : Type} (x0 x1 x2 x3 : Cert.ReferenceIdeal.S100000x1.Idx → α) (n : Fin 100000) :
    concatenate Cert.ReferenceIdeal.S100000x4 1 [⟨Cert.ReferenceIdeal.S100000x1, x0⟩, ⟨Cert.ReferenceIdeal.S100000x1, x1⟩, ⟨Cert.ReferenceIdeal.S100000x1, x2⟩, ⟨Cert.ReferenceIdeal.S100000x1, x3⟩]
        Cert.ReferenceIdeal.Gen.concatenates_S100000x1_S100000x1_S100000x1_S100000x1_S100000x4_d1 (ix2 n 3) = x3 (ix2 n 0) :=
  concatenate_apply_piece (t := Cert.ReferenceIdeal.S100000x4) 1 [⟨Cert.ReferenceIdeal.S100000x1, x0⟩, ⟨Cert.ReferenceIdeal.S100000x1, x1⟩, ⟨Cert.ReferenceIdeal.S100000x1, x2⟩, ⟨Cert.ReferenceIdeal.S100000x1, x3⟩]
    Cert.ReferenceIdeal.Gen.concatenates_S100000x1_S100000x1_S100000x1_S100000x1_S100000x4_d1
    (ix2 (n1 := 4) n 3) 3 (by show 3 < 4; omega) Cert.ReferenceIdeal.S100000x1 x3 rfl rfl 3 rfl (ix2 (n1 := 1) n 0)
    (fun b => by match b with | ⟨0, _⟩ => exact fun _ => rfl | ⟨1, _⟩ => exact fun hne => absurd rfl hne) rfl

/-- The N × 2 × 2 rotation table is the N × 4 table of rows [cos, −sin, sin, cos] read row-major: entry (k, a) of node `n`
    is column 2k + a of row `n`. -/
theorem rotOf_flat (ang : FVec Ideal Cert.ReferenceIdeal.S100000x1 .f32) (n : Fin 100000) (k a : Fin 2) (c : Fin 4) (hc : c.val = 2 * k.val + a.val) :
    Cert.ReferenceIdeal.Stage.rotOf (F := Ideal) ang (ix3 n k a)
      = concatenate Cert.ReferenceIdeal.S100000x4 1 [⟨Cert.ReferenceIdeal.S100000x1, Host.cos ang⟩, ⟨Cert.ReferenceIdeal.S100000x1, Host.negf (Host.sin ang)⟩, ⟨Cert.ReferenceIdeal.S100000x1, Host.sin ang⟩, ⟨Cert.ReferenceIdeal.S100000x1, Host.cos ang⟩]
          Cert.ReferenceIdeal.Gen.concatenates_S100000x1_S100000x1_S100000x1_S100000x1_S100000x4_d1 (ix2 n c) := by
  unfold Cert.ReferenceIdeal.Stage.rotOf
  refine shapeCast_apply _ _ (ix3 n k a) (ix2 n c) ?_
  rw [Shape.rowMajor_val_two, Shape.rowMajor_val_three]
  show n.val * 4 + c.val = (n.val * 2 + k.val) * 2 + a.val
  omega

/-- R (n, 0, 0) = cos. -/
theorem rot00 (ang : FVec Ideal Cert.ReferenceIdeal.S100000x1 .f32) (n : Fin 100000) :
    Cert.ReferenceIdeal.Stage.rotOf (F := Ideal) ang (ix3 n 0 0) = Ideal.cos (ang (ix2 n 0)) :=
  (rotOf_flat ang n 0 0 0 rfl).trans (cat4_0 _ _ _ _ n)

/-- R (n, 0, 1) = −sin. -/
theorem rot01 (ang : FVec Ideal Cert.ReferenceIdeal.S100000x1 .f32) (n : Fin 100000) :
    Cert.ReferenceIdeal.Stage.rotOf (F := Ideal) ang (ix3 n 0 1) = -Ideal.sin (ang (ix2 n 0)) :=
  (rotOf_flat ang n 0 1 1 rfl).trans (cat4_1 _ _ _ _ n)

/-- R (n, 1, 0) = sin. -/
theorem rot10 (ang : FVec Ideal Cert.ReferenceIdeal.S100000x1 .f32) (n : Fin 100000) :
    Cert.ReferenceIdeal.Stage.rotOf (F := Ideal) ang (ix3 n 1 0) = Ideal.sin (ang (ix2 n 0)) :=
  (rotOf_flat ang n 1 0 2 rfl).trans (cat4_2 _ _ _ _ n)

/-- R (n, 1, 1) = cos. -/
theorem rot11 (ang : FVec Ideal Cert.ReferenceIdeal.S100000x1 .f32) (n : Fin 100000) :
    Cert.ReferenceIdeal.Stage.rotOf (F := Ideal) ang (ix3 n 1 1) = Ideal.cos (ang (ix2 n 0)) :=
  (rotOf_flat ang n 1 1 3 rfl).trans (cat4_3 _ _ _ _ n)

/-! ### The two contractions, as sums of two terms

The transport map contracts axis 1 of both gathered rotation tables, the edge axis a batch axis:
M (e, a, b) = Σ_k R_t (e, k, a) · R_s (e, k, b). The message contracts axis 2 of M with axis 1 of the features:
(M · x) (e, a, h) = Σ_k M (e, a, k) · x (e, k, h). For each operand axis, the coordinate the contraction reads there:
the output's coordinate on a batch or free axis, the summation index on the contracted one. -/

theorem lhs_transport_0 (i : Cert.ReferenceIdeal.S1600000x2x2.Idx) (q : Cert.ReferenceIdeal.dot_S1600000x2x2_S1600000x2x2_S1600000x2x2_1_1_2_2_0_0.contr.Idx) :
    (Cert.ReferenceIdeal.dot_S1600000x2x2_S1600000x2x2_S1600000x2x2_1_1_2_2_0_0.lhsIdx i q 0).val = (i 0).val := by
  unfold DotDims.lhsIdx
  rw [dif_pos (show (0 : Fin Cert.ReferenceIdeal.S1600000x2x2.rank) ∈ Cert.ReferenceIdeal.dot_S1600000x2x2_S1600000x2x2_S1600000x2x2_1_1_2_2_0_0.lhsBatch by decide)]
  rfl

theorem lhs_transport_1 (i : Cert.ReferenceIdeal.S1600000x2x2.Idx) (q : Cert.ReferenceIdeal.dot_S1600000x2x2_S1600000x2x2_S1600000x2x2_1_1_2_2_0_0.contr.Idx) :
    (Cert.ReferenceIdeal.dot_S1600000x2x2_S1600000x2x2_S1600000x2x2_1_1_2_2_0_0.lhsIdx i q 1).val = (q ⟨0, by decide⟩).val :=
  Cert.ReferenceIdeal.dot_S1600000x2x2_S1600000x2x2_S1600000x2x2_1_1_2_2_0_0.lhsIdx_val_of_single rfl i q

theorem lhs_transport_2 (i : Cert.ReferenceIdeal.S1600000x2x2.Idx) (q : Cert.ReferenceIdeal.dot_S1600000x2x2_S1600000x2x2_S1600000x2x2_1_1_2_2_0_0.contr.Idx) :
    (Cert.ReferenceIdeal.dot_S1600000x2x2_S1600000x2x2_S1600000x2x2_1_1_2_2_0_0.lhsIdx i q 2).val = (i 1).val := by
  unfold DotDims.lhsIdx
  rw [dif_neg (show ¬(2 : Fin Cert.ReferenceIdeal.S1600000x2x2.rank) ∈ Cert.ReferenceIdeal.dot_S1600000x2x2_S1600000x2x2_S1600000x2x2_1_1_2_2_0_0.lhsBatch by decide), dif_pos (show (2 : Fin Cert.ReferenceIdeal.S1600000x2x2.rank) ∈ Cert.ReferenceIdeal.dot_S1600000x2x2_S1600000x2x2_S1600000x2x2_1_1_2_2_0_0.lhsNonContracting by decide)]
  rfl

theorem rhs_transport_0 (i : Cert.ReferenceIdeal.S1600000x2x2.Idx) (q : Cert.ReferenceIdeal.dot_S1600000x2x2_S1600000x2x2_S1600000x2x2_1_1_2_2_0_0.contr.Idx) :
    (Cert.ReferenceIdeal.dot_S1600000x2x2_S1600000x2x2_S1600000x2x2_1_1_2_2_0_0.rhsIdx i q 0).val = (i 0).val := by
  unfold DotDims.rhsIdx
  rw [dif_pos (show (0 : Fin Cert.ReferenceIdeal.S1600000x2x2.rank) ∈ Cert.ReferenceIdeal.dot_S1600000x2x2_S1600000x2x2_S1600000x2x2_1_1_2_2_0_0.rhsBatch by decide)]
  rfl

theorem rhs_transport_1 (i : Cert.ReferenceIdeal.S1600000x2x2.Idx) (q : Cert.ReferenceIdeal.dot_S1600000x2x2_S1600000x2x2_S1600000x2x2_1_1_2_2_0_0.contr.Idx) :
    (Cert.ReferenceIdeal.dot_S1600000x2x2_S1600000x2x2_S1600000x2x2_1_1_2_2_0_0.rhsIdx i q 1).val = (q ⟨0, by decide⟩).val :=
  Cert.ReferenceIdeal.dot_S1600000x2x2_S1600000x2x2_S1600000x2x2_1_1_2_2_0_0.rhsIdx_val_of_single rfl i q

theorem rhs_transport_2 (i : Cert.ReferenceIdeal.S1600000x2x2.Idx) (q : Cert.ReferenceIdeal.dot_S1600000x2x2_S1600000x2x2_S1600000x2x2_1_1_2_2_0_0.contr.Idx) :
    (Cert.ReferenceIdeal.dot_S1600000x2x2_S1600000x2x2_S1600000x2x2_1_1_2_2_0_0.rhsIdx i q 2).val = (i 2).val := by
  unfold DotDims.rhsIdx
  rw [dif_neg (show ¬(2 : Fin Cert.ReferenceIdeal.S1600000x2x2.rank) ∈ Cert.ReferenceIdeal.dot_S1600000x2x2_S1600000x2x2_S1600000x2x2_1_1_2_2_0_0.rhsBatch by decide), dif_pos (show (2 : Fin Cert.ReferenceIdeal.S1600000x2x2.rank) ∈ Cert.ReferenceIdeal.dot_S1600000x2x2_S1600000x2x2_S1600000x2x2_1_1_2_2_0_0.rhsNonContracting by decide)]
  rfl

theorem lhs_apply_0 (i : Cert.ReferenceIdeal.S1600000x2x16.Idx) (q : Cert.ReferenceIdeal.dot_S1600000x2x2_S1600000x2x16_S1600000x2x16_2_1_1_2_0_0.contr.Idx) :
    (Cert.ReferenceIdeal.dot_S1600000x2x2_S1600000x2x16_S1600000x2x16_2_1_1_2_0_0.lhsIdx i q 0).val = (i 0).val := by
  unfold DotDims.lhsIdx
  rw [dif_pos (show (0 : Fin Cert.ReferenceIdeal.S1600000x2x2.rank) ∈ Cert.ReferenceIdeal.dot_S1600000x2x2_S1600000x2x16_S1600000x2x16_2_1_1_2_0_0.lhsBatch by decide)]
  rfl

theorem lhs_apply_1 (i : Cert.ReferenceIdeal.S1600000x2x16.Idx) (q : Cert.ReferenceIdeal.dot_S1600000x2x2_S1600000x2x16_S1600000x2x16_2_1_1_2_0_0.contr.Idx) :
    (Cert.ReferenceIdeal.dot_S1600000x2x2_S1600000x2x16_S1600000x2x16_2_1_1_2_0_0.lhsIdx i q 1).val = (i 1).val := by
  unfold DotDims.lhsIdx
  rw [dif_neg (show ¬(1 : Fin Cert.ReferenceIdeal.S1600000x2x2.rank) ∈ Cert.ReferenceIdeal.dot_S1600000x2x2_S1600000x2x16_S1600000x2x16_2_1_1_2_0_0.lhsBatch by decide), dif_pos (show (1 : Fin Cert.ReferenceIdeal.S1600000x2x2.rank) ∈ Cert.ReferenceIdeal.dot_S1600000x2x2_S1600000x2x16_S1600000x2x16_2_1_1_2_0_0.lhsNonContracting by decide)]
  rfl

theorem lhs_apply_2 (i : Cert.ReferenceIdeal.S1600000x2x16.Idx) (q : Cert.ReferenceIdeal.dot_S1600000x2x2_S1600000x2x16_S1600000x2x16_2_1_1_2_0_0.contr.Idx) :
    (Cert.ReferenceIdeal.dot_S1600000x2x2_S1600000x2x16_S1600000x2x16_2_1_1_2_0_0.lhsIdx i q 2).val = (q ⟨0, by decide⟩).val :=
  Cert.ReferenceIdeal.dot_S1600000x2x2_S1600000x2x16_S1600000x2x16_2_1_1_2_0_0.lhsIdx_val_of_single rfl i q

theorem rhs_apply_0 (i : Cert.ReferenceIdeal.S1600000x2x16.Idx) (q : Cert.ReferenceIdeal.dot_S1600000x2x2_S1600000x2x16_S1600000x2x16_2_1_1_2_0_0.contr.Idx) :
    (Cert.ReferenceIdeal.dot_S1600000x2x2_S1600000x2x16_S1600000x2x16_2_1_1_2_0_0.rhsIdx i q 0).val = (i 0).val := by
  unfold DotDims.rhsIdx
  rw [dif_pos (show (0 : Fin Cert.ReferenceIdeal.S1600000x2x16.rank) ∈ Cert.ReferenceIdeal.dot_S1600000x2x2_S1600000x2x16_S1600000x2x16_2_1_1_2_0_0.rhsBatch by decide)]
  rfl

theorem rhs_apply_1 (i : Cert.ReferenceIdeal.S1600000x2x16.Idx) (q : Cert.ReferenceIdeal.dot_S1600000x2x2_S1600000x2x16_S1600000x2x16_2_1_1_2_0_0.contr.Idx) :
    (Cert.ReferenceIdeal.dot_S1600000x2x2_S1600000x2x16_S1600000x2x16_2_1_1_2_0_0.rhsIdx i q 1).val = (q ⟨0, by decide⟩).val :=
  Cert.ReferenceIdeal.dot_S1600000x2x2_S1600000x2x16_S1600000x2x16_2_1_1_2_0_0.rhsIdx_val_of_single rfl i q

theorem rhs_apply_2 (i : Cert.ReferenceIdeal.S1600000x2x16.Idx) (q : Cert.ReferenceIdeal.dot_S1600000x2x2_S1600000x2x16_S1600000x2x16_2_1_1_2_0_0.contr.Idx) :
    (Cert.ReferenceIdeal.dot_S1600000x2x2_S1600000x2x16_S1600000x2x16_2_1_1_2_0_0.rhsIdx i q 2).val = (i 2).val := by
  unfold DotDims.rhsIdx
  rw [dif_neg (show ¬(2 : Fin Cert.ReferenceIdeal.S1600000x2x16.rank) ∈ Cert.ReferenceIdeal.dot_S1600000x2x2_S1600000x2x16_S1600000x2x16_2_1_1_2_0_0.rhsBatch by decide), dif_pos (show (2 : Fin Cert.ReferenceIdeal.S1600000x2x16.rank) ∈ Cert.ReferenceIdeal.dot_S1600000x2x2_S1600000x2x16_S1600000x2x16_2_1_1_2_0_0.rhsNonContracting by decide)]
  rfl

/-- M (e, a, b) = G_t (e, 0, a) · G_s (e, 0, b) + G_t (e, 1, a) · G_s (e, 1, b). -/
theorem transport_entry (Gd Gs : FVec Ideal Cert.ReferenceIdeal.S1600000x2x2 .f32) (e : Fin 1600000) (a b : Fin 2) :
    Host.dotGeneral Cert.ReferenceIdeal.dot_S1600000x2x2_S1600000x2x2_S1600000x2x2_1_1_2_2_0_0 none Gd Gs (ix3 e a b)
      = Gd (ix3 e 0 a) * Gs (ix3 e 0 b) + Gd (ix3 e 1 a) * Gs (ix3 e 1 b) := by
  simp only [Host.dotGeneral]
  rw [Ideal.dotGeneral_apply, ← Equiv.sum_comp (ValueIdx.contrEquiv1 Cert.ReferenceIdeal.dot_S1600000x2x2_S1600000x2x2_S1600000x2x2_1_1_2_2_0_0 2 rfl rfl).symm, Fin.sum_univ_two]
  have el : ∀ k : Fin 2, Cert.ReferenceIdeal.dot_S1600000x2x2_S1600000x2x2_S1600000x2x2_1_1_2_2_0_0.lhsIdx (ix3 e a b) ((ValueIdx.contrEquiv1 Cert.ReferenceIdeal.dot_S1600000x2x2_S1600000x2x2_S1600000x2x2_1_1_2_2_0_0 2 rfl rfl).symm k) = ix3 e k a := fun k =>
    funext fun ax => Fin.ext (by
      have hk := ValueIdx.contrEquiv1_symm_val Cert.ReferenceIdeal.dot_S1600000x2x2_S1600000x2x2_S1600000x2x2_1_1_2_2_0_0 2 rfl rfl k
      match ax with
      | ⟨0, _⟩ => exact lhs_transport_0 _ _
      | ⟨1, _⟩ => exact (lhs_transport_1 _ _).trans hk
      | ⟨2, _⟩ => exact lhs_transport_2 _ _)
  have er : ∀ k : Fin 2, Cert.ReferenceIdeal.dot_S1600000x2x2_S1600000x2x2_S1600000x2x2_1_1_2_2_0_0.rhsIdx (ix3 e a b) ((ValueIdx.contrEquiv1 Cert.ReferenceIdeal.dot_S1600000x2x2_S1600000x2x2_S1600000x2x2_1_1_2_2_0_0 2 rfl rfl).symm k) = ix3 e k b := fun k =>
    funext fun ax => Fin.ext (by
      have hk := ValueIdx.contrEquiv1_symm_val Cert.ReferenceIdeal.dot_S1600000x2x2_S1600000x2x2_S1600000x2x2_1_1_2_2_0_0 2 rfl rfl k
      match ax with
      | ⟨0, _⟩ => exact rhs_transport_0 _ _
      | ⟨1, _⟩ => exact (rhs_transport_1 _ _).trans hk
      | ⟨2, _⟩ => exact rhs_transport_2 _ _)
  rw [el, el, er, er]

/-- (M · x) (e, a, h) = M (e, a, 0) · x (e, 0, h) + M (e, a, 1) · x (e, 1, h). -/
theorem apply_entry (M : FVec Ideal Cert.ReferenceIdeal.S1600000x2x2 .f32) (xg : FVec Ideal Cert.ReferenceIdeal.S1600000x2x16 .f32) (e : Fin 1600000) (a : Fin 2) (h : Fin 16) :
    Host.dotGeneral Cert.ReferenceIdeal.dot_S1600000x2x2_S1600000x2x16_S1600000x2x16_2_1_1_2_0_0 none M xg (ix3 e a h)
      = M (ix3 e a 0) * xg (ix3 e 0 h) + M (ix3 e a 1) * xg (ix3 e 1 h) := by
  simp only [Host.dotGeneral]
  rw [Ideal.dotGeneral_apply, ← Equiv.sum_comp (ValueIdx.contrEquiv1 Cert.ReferenceIdeal.dot_S1600000x2x2_S1600000x2x16_S1600000x2x16_2_1_1_2_0_0 2 rfl rfl).symm, Fin.sum_univ_two]
  have el : ∀ k : Fin 2, Cert.ReferenceIdeal.dot_S1600000x2x2_S1600000x2x16_S1600000x2x16_2_1_1_2_0_0.lhsIdx (ix3 e a h) ((ValueIdx.contrEquiv1 Cert.ReferenceIdeal.dot_S1600000x2x2_S1600000x2x16_S1600000x2x16_2_1_1_2_0_0 2 rfl rfl).symm k) = ix3 e a k := fun k =>
    funext fun ax => Fin.ext (by
      have hk := ValueIdx.contrEquiv1_symm_val Cert.ReferenceIdeal.dot_S1600000x2x2_S1600000x2x16_S1600000x2x16_2_1_1_2_0_0 2 rfl rfl k
      match ax with
      | ⟨0, _⟩ => exact lhs_apply_0 _ _
      | ⟨1, _⟩ => exact lhs_apply_1 _ _
      | ⟨2, _⟩ => exact (lhs_apply_2 _ _).trans hk)
  have er : ∀ k : Fin 2, Cert.ReferenceIdeal.dot_S1600000x2x2_S1600000x2x16_S1600000x2x16_2_1_1_2_0_0.rhsIdx (ix3 e a h) ((ValueIdx.contrEquiv1 Cert.ReferenceIdeal.dot_S1600000x2x2_S1600000x2x16_S1600000x2x16_2_1_1_2_0_0 2 rfl rfl).symm k) = ix3 e k h := fun k =>
    funext fun ax => Fin.ext (by
      have hk := ValueIdx.contrEquiv1_symm_val Cert.ReferenceIdeal.dot_S1600000x2x2_S1600000x2x16_S1600000x2x16_2_1_1_2_0_0 2 rfl rfl k
      match ax with
      | ⟨0, _⟩ => exact rhs_apply_0 _ _
      | ⟨1, _⟩ => exact (rhs_apply_1 _ _).trans hk
      | ⟨2, _⟩ => exact rhs_apply_2 _ _)
  rw [el, el, er, er]

/-- The transport map of edge `e`, from the rotation table at its target `t` and its source `s`:
    M (e, a, b) = R (t, 0, a) · R (s, 0, b) + R (t, 1, a) · R (s, 1, b). -/
theorem transportOf_entry (R : FVec Ideal Cert.ReferenceIdeal.S100000x2x2 .f32) (src dst : IVec Cert.ReferenceIdeal.S1600000 32)
    (e : Fin 1600000) (a b : Fin 2) :
    Cert.ReferenceIdeal.Stage.transportOf R src dst (ix3 e a b)
      = R (ix3 (nodeOf (Cert.ReferenceIdeal.Stage.wrap dst) e) 0 a) * R (ix3 (nodeOf (Cert.ReferenceIdeal.Stage.wrap src) e) 0 b)
        + R (ix3 (nodeOf (Cert.ReferenceIdeal.Stage.wrap dst) e) 1 a) * R (ix3 (nodeOf (Cert.ReferenceIdeal.Stage.wrap src) e) 1 b) := by
  unfold Cert.ReferenceIdeal.Stage.transportOf
  rw [transport_entry, Cert.KernelIdeal.GatherRows.rot_gather, Cert.KernelIdeal.GatherRows.rot_gather,
    Cert.KernelIdeal.GatherRows.rot_gather, Cert.KernelIdeal.GatherRows.rot_gather]

/-- The reference's message: (M (e, a, 0) · x (e, 0, h) + M (e, a, 1) · x (e, 1, h)) · nrm e. -/
theorem msgOf_entry (M : FVec Ideal Cert.ReferenceIdeal.S1600000x2x2 .f32) (xg : FVec Ideal Cert.ReferenceIdeal.S1600000x2x16 .f32) (nrm : FVec Ideal Cert.ReferenceIdeal.S1600000 .f32)
    (e : Fin 1600000) (a : Fin 2) (h : Fin 16) :
    Cert.ReferenceIdeal.Stage.msgOf M xg nrm (ix3 e a h)
      = (M (ix3 e a 0) * xg (ix3 e 0 h) + M (ix3 e a 1) * xg (ix3 e 1 h)) * nrm (ix1 e) := by
  unfold Cert.ReferenceIdeal.Stage.msgOf
  rw [mulf_apply, apply_entry]
  congr 1
  refine (broadcastInDim_apply _ _ _ (ix3 e a h) (ix3 (n1 := 1) (n2 := 1) e 0 0)
    (fun ax => by match ax with | ⟨0, _⟩ => rfl | ⟨1, _⟩ => rfl | ⟨2, _⟩ => rfl)).trans ?_
  exact broadcastInDim_apply _ _ _ (ix3 (n1 := 1) (n2 := 1) e 0 0) (ix1 e) (fun ax => by match ax with | ⟨0, _⟩ => rfl)

/-! ### The two messages at one entry -/

/-- Stalk row 0 of edge `e`, channel `h`. -/
theorem msg_eq_row0 (ang : FVec Ideal Cert.ReferenceIdeal.S100000x1 .f32) (hang : ∀ i, ∃ r : ℝ, ang i = (r : EReal))
    (xg : FVec Ideal Cert.ReferenceIdeal.S1600000x2x16 .f32) (src dst : IVec Cert.ReferenceIdeal.S1600000 32) (nrm : FVec Ideal Cert.ReferenceIdeal.S1600000 .f32)
    (e : Fin 1600000) (h : Fin 16) :
    Cert.KernelIdeal.KMsg.msgK (F := Ideal) (Cert.ReferenceIdeal.Stage.sincosOf ang) xg src dst nrm (ix3 e 0 h)
      = Cert.ReferenceIdeal.Stage.msgOf (F := Ideal) (Cert.ReferenceIdeal.Stage.transportOf (Cert.ReferenceIdeal.Stage.rotOf ang) src dst) xg nrm (ix3 e 0 h) := by
  obtain ⟨rs, hrs⟩ := hang (ix2 (nodeOf (Cert.ReferenceIdeal.Stage.wrap src) e) 0)
  obtain ⟨rt, hrt⟩ := hang (ix2 (nodeOf (Cert.ReferenceIdeal.Stage.wrap dst) e) 0)
  have hws : Cert.KernelIdeal.KMsg.wrap src = Cert.ReferenceIdeal.Stage.wrap src := rfl
  have hwt : Cert.KernelIdeal.KMsg.wrap dst = Cert.ReferenceIdeal.Stage.wrap dst := rfl
  rw [msgK_entry0, msgOf_entry, transportOf_entry, transportOf_entry, hws, hwt]
  simp only [rot00, rot01, rot10, rot11, sincos_entry0, sincos_entry1]
  rw [hrs, hrt]
  simp only [Ideal.sin_coe, Ideal.cos_coe]
  exact law0 _ _ _ _ _ _ _

/-- Stalk row 1 of edge `e`, channel `h`. -/
theorem msg_eq_row1 (ang : FVec Ideal Cert.ReferenceIdeal.S100000x1 .f32) (hang : ∀ i, ∃ r : ℝ, ang i = (r : EReal))
    (xg : FVec Ideal Cert.ReferenceIdeal.S1600000x2x16 .f32) (src dst : IVec Cert.ReferenceIdeal.S1600000 32) (nrm : FVec Ideal Cert.ReferenceIdeal.S1600000 .f32)
    (e : Fin 1600000) (h : Fin 16) :
    Cert.KernelIdeal.KMsg.msgK (F := Ideal) (Cert.ReferenceIdeal.Stage.sincosOf ang) xg src dst nrm (ix3 e 1 h)
      = Cert.ReferenceIdeal.Stage.msgOf (F := Ideal) (Cert.ReferenceIdeal.Stage.transportOf (Cert.ReferenceIdeal.Stage.rotOf ang) src dst) xg nrm (ix3 e 1 h) := by
  obtain ⟨rs, hrs⟩ := hang (ix2 (nodeOf (Cert.ReferenceIdeal.Stage.wrap src) e) 0)
  obtain ⟨rt, hrt⟩ := hang (ix2 (nodeOf (Cert.ReferenceIdeal.Stage.wrap dst) e) 0)
  have hws : Cert.KernelIdeal.KMsg.wrap src = Cert.ReferenceIdeal.Stage.wrap src := rfl
  have hwt : Cert.KernelIdeal.KMsg.wrap dst = Cert.ReferenceIdeal.Stage.wrap dst := rfl
  rw [msgK_entry1, msgOf_entry, transportOf_entry, transportOf_entry, hws, hwt]
  simp only [rot00, rot01, rot10, rot11, sincos_entry0, sincos_entry1]
  rw [hrs, hrt]
  simp only [Ideal.sin_coe, Ideal.cos_coe]
  exact law1 _ _ _ _ _ _ _

/-- The angle of every node is a real number, whatever the table, the weights and the bias hold. -/
theorem angOf_real (t : FVec Ideal Cert.ReferenceIdeal.S100000x64 .f32) (w : FVec Ideal Cert.ReferenceIdeal.S64x1 .f32) (b : FVec Ideal Cert.ReferenceIdeal.S1 .f32) (i : Cert.ReferenceIdeal.S100000x1.Idx) :
    ∃ r : ℝ, Cert.ReferenceIdeal.Stage.angOf (F := Ideal) t w b i = (r : EReal) := by
  unfold Cert.ReferenceIdeal.Stage.angOf
  exact tanh_mul_real _ _ i twoPi_real

/-- The two messages are one array, for real angles. -/
theorem msg_eq (ang : FVec Ideal Cert.ReferenceIdeal.S100000x1 .f32) (hang : ∀ i, ∃ r : ℝ, ang i = (r : EReal))
    (xg : FVec Ideal Cert.ReferenceIdeal.S1600000x2x16 .f32) (src dst : IVec Cert.ReferenceIdeal.S1600000 32) (nrm : FVec Ideal Cert.ReferenceIdeal.S1600000 .f32) :
    Cert.KernelIdeal.KMsg.msgK (F := Ideal) (Cert.ReferenceIdeal.Stage.sincosOf ang) xg src dst nrm
      = Cert.ReferenceIdeal.Stage.msgOf (F := Ideal) (Cert.ReferenceIdeal.Stage.transportOf (Cert.ReferenceIdeal.Stage.rotOf ang) src dst) xg nrm := by
  funext j
  obtain ⟨e, a, h, rfl⟩ : ∃ (e : Fin 1600000) (a : Fin 2) (h : Fin 16), j = ix3 e a h := ⟨j 0, j 1, j 2, eq_ix3 j⟩
  match a with
  | ⟨0, _⟩ => exact msg_eq_row0 ang hang xg src dst nrm e h
  | ⟨1, _⟩ => exact msg_eq_row1 ang hang xg src dst nrm e h

end Cert.KernelIdeal.MsgAlg

end
-- ==== Proof.Net.lean ====
import proofs.«417419_j39436389712331_2_alg».proof.Proof.Stage

set_option maxRecDepth 16384

noncomputable section

namespace Cert.ReferenceIdeal.Stage

open Idealize.ShloMosaic Idealize.ShloMosaic.TcCoe Idealize.SL.Sem
open Cert.ReferenceIdeal Cert.ReferenceIdeal.Gen
/-! The whole network as ONE function of its fifteen argument arrays: the stages composed in order. Both programs' results
    are proved to be this function of their arguments. -/

variable {F : FTy → Type} [FloatOps F]

/-- The fifteen argument arrays: node features, edge list, and the weights and biases of every layer. -/
structure Args (F : FTy → Type) [FloatOps F] where
  x : FVec F S100000x128 .f32
  ei : IVec S2x1600000 32
  wIn : FVec F S128x32 .f32
  bIn : FVec F S32 .f32
  w1 : FVec F S32x64 .f32
  b1 : FVec F S64 .f32
  ws1 : FVec F S64x64 .f32
  wn1 : FVec F S64x64 .f32
  ws2 : FVec F S64x64 .f32
  wn2 : FVec F S64x64 .f32
  w2 : FVec F S64x1 .f32
  b2 : FVec F S1 .f32
  wd : FVec F S2x16x16 .f32
  wOut : FVec F S32x10 .f32
  bOut : FVec F S10 .f32

variable (A : Args F)

/-- The input embedding. -/
def nH : FVec F S100000x32 .f32 := hOf A.x A.wIn A.bIn
/-- The sheaf learner's first hidden table. -/
def nM0 : FVec F S100000x64 .f32 := gelu64 (pre0 (nH A) A.w1 A.b1)
/-- After the first neighbourhood sum. -/
def nM1 : FVec F S100000x64 .f32 := gelu64 (mix (nM0 A) (agg64 (srcOf A.ei) (dstOf A.ei) (nM0 A)) A.ws1 A.wn1)
/-- Every node's rotation angle, after the second neighbourhood sum. -/
def nAng : FVec F S100000x1 .f32 := angOf (gelu64 (mix (nM1 A) (agg64 (srcOf A.ei) (dstOf A.ei) (nM1 A)) A.ws2 A.wn2)) A.w2 A.b2
/-- The edge norms. -/
def nNrm : FVec F S1600000 .f32 := nrmOf (degOf (dstOf A.ei)) (srcOf A.ei) (dstOf A.ei)
/-- The per-node sum of the transported, normalised messages of the stalk features `xs`. -/
def nAgg (xs : FVec F S100000x2x16 .f32) : FVec F S100000x2x16 .f32 :=
  agg2x16 (dstOf A.ei) (msgOf (transportOf (rotOf (nAng A)) (srcOf A.ei) (dstOf A.ei)) (atSrc xs (srcOf A.ei)) (nNrm A))
/-- The stalk features after the first diffusion step. -/
def nXs1 : FVec F S100000x2x16 .f32 := stepOf (xsOf (nH A)) (nAgg A (xsOf (nH A))) (wd0 A.wd)
/-- The network's result: the projection of the second diffusion step. -/
def nOut : FVec F S100000x10 .f32 := outOf (stepOf (nXs1 A) (nAgg A (nXs1 A)) (wd1 A.wd)) A.wOut A.bOut

end Cert.ReferenceIdeal.Stage

end
-- ==== Proof.KernelNet.lean ====
import proofs.«417419_j39436389712331_2_alg».proof.Proof.KHostA
import proofs.«417419_j39436389712331_2_alg».proof.Proof.KHostB
import proofs.«417419_j39436389712331_2_alg».proof.Proof.Region0
import proofs.«417419_j39436389712331_2_alg».proof.Proof.Region1
import proofs.«417419_j39436389712331_2_alg».proof.Proof.Region2
import proofs.«417419_j39436389712331_2_alg».proof.Proof.Region3
import proofs.«417419_j39436389712331_2_alg».proof.Proof.Region4
import proofs.«417419_j39436389712331_2_alg».proof.Proof.MsgAlg
import proofs.«417419_j39436389712331_2_alg».proof.Proof.Net

set_option maxRecDepth 16384

noncomputable section

namespace Cert.KernelIdeal.Chain

open Idealize.ShloMosaic Idealize.ShloMosaic.TcCoe Idealize.SL.Sem
open Idealize.ShloMosaic.Pipeline (Dat Cfg Window)
open Cert.KernelIdeal Cert.KernelIdeal.Gen
/-! The kernel program's result is the network function of its arguments: region by region, each output array is the
    stage function of the arrays the region reads, those arrays are what the host operations before it make of the
    earlier regions' outputs, and the message by the angle difference is the transported message. -/

variable (m : (ℓ : Loc nD τ sig) → Buf (Elt Ideal) ℓ) (ρ : Dev nD → PrngReg)

/-- The kernel program's argument arrays at launch, bundled. -/
def kargs (c : Dev nD) : Cert.ReferenceIdeal.Stage.Args Ideal := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14)⟩

theorem kh_net (c : Dev nD) : kh m ρ c = Cert.ReferenceIdeal.Stage.nH (kargs m c) := by
  unfold kh; rw [Region0.h_eq (V1 m ρ) c, v1_arg0, v1_arg2, v1_arg3]; rfl

theorem km0_net (c : Dev nD) : km0 m ρ c = Cert.ReferenceIdeal.Stage.nM0 (kargs m c) := by
  unfold km0; rw [Region0.m0_eq (V1 m ρ) c, v1_arg0, v1_arg2, v1_arg3, v1_arg4, v1_arg5]; rfl

theorem km1_net (c : Dev nD) : km1 m ρ c = Cert.ReferenceIdeal.Stage.nM1 (kargs m c) := by
  unfold km1; rw [Region1.m1_eq (V3 m ρ) c, v3_m0, v3_agg, v3_arg6, v3_arg7, km0_net]; rfl

theorem ksc_net (c : Dev nD) : ksc m ρ c = Cert.ReferenceIdeal.Stage.sincosOf (Cert.ReferenceIdeal.Stage.nAng (kargs m c)) := by
  unfold ksc; rw [Region2.sincos_eq (V5 m ρ) c, v5_m1, v5_agg, v5_arg8, v5_arg9, v5_arg10, v5_arg11, km1_net]; rfl

/-- The kernel program's message of any stalk features is the transported, normalised message: the angles are real. -/
theorem msg_net (c : Dev nD) (xs : FVec Ideal Cert.ReferenceIdeal.S100000x2x16 .f32) :
    Cert.ReferenceIdeal.Stage.agg2x16 (F := Ideal) (dst m c) (Cert.KernelIdeal.KMsg.msgK (ksc m ρ c) (Cert.ReferenceIdeal.Stage.atSrc xs (src m c)) (src m c) (dst m c) (nrm m c))
      = Cert.ReferenceIdeal.Stage.nAgg (kargs m c) xs := by
  have hang : ∀ i, ∃ r : ℝ, Cert.ReferenceIdeal.Stage.nAng (kargs m c) i = (r : EReal) := fun i => MsgAlg.angOf_real _ _ _ i
  rw [ksc_net, MsgAlg.msg_eq _ hang]; rfl

theorem kxs1_net (c : Dev nD) : kxs1 m ρ c = Cert.ReferenceIdeal.Stage.nXs1 (kargs m c) := by
  unfold kxs1; rw [Region3.step_eq (V7 m ρ) c, v7_xs, v7_agg, v7_wd, msg_net, kh_net]; rfl

theorem kout_net (c : Dev nD) : kout m ρ c = Cert.ReferenceIdeal.Stage.nOut (kargs m c) := by
  unfold kout; rw [Region4.out_eq (V9 m ρ) c, v9_xs, v9_agg, v9_wd, v9_arg13, v9_arg14, msg_net, kxs1_net]; rfl

end Cert.KernelIdeal.Chain

end
-- ==== Proof.RefSide.lean ====
import proofs.«417419_j39436389712331_2_alg».proof.Proof.Gen.ReferenceIdeal.Run
import proofs.«417419_j39436389712331_2_alg».proof.Proof.Stage

set_option maxRecDepth 16384

noncomputable section

namespace Cert.ReferenceIdeal.RefSide

open Idealize.ShloMosaic Idealize.ShloMosaic.TcCoe Idealize.SL.Sem
open Cert.ReferenceIdeal Cert.ReferenceIdeal.Gen Cert.ReferenceIdeal.Value Idealize.ShloMosaic.StableHlo
/-! The reference program's intermediate arrays are the network's stages: each named intermediate of its run, unfolded,
    is one stage function of the intermediates before it. -/

variable {F : FTy → Type} [FloatOps F] (V0 : Valuation τ sig (Elt F))

theorem src_eq : res_main_v1 V0 = Stage.srcOf (V0 (Proc.devRef .tc main_arg1)) := rfl
theorem dst_eq : res_main_v3 V0 = Stage.dstOf (V0 (Proc.devRef .tc main_arg1)) := rfl
theorem h_eq : res_main_v7 V0 = Stage.hOf (V0 (Proc.devRef .tc main_arg0)) (V0 (Proc.devRef .tc main_arg2)) (V0 (Proc.devRef .tc main_arg3)) := rfl
theorem m0_eq : res_main_v24 V0 = Stage.gelu64 (Stage.pre0 (res_main_v7 V0) (V0 (Proc.devRef .tc main_arg4)) (V0 (Proc.devRef .tc main_arg5))) := rfl
theorem m1_eq : res_main_v50 V0 = Stage.gelu64 (Stage.mix (res_main_v24 V0) (Stage.agg64 (res_main_v1 V0) (res_main_v3 V0) (res_main_v24 V0)) (V0 (Proc.devRef .tc main_arg6)) (V0 (Proc.devRef .tc main_arg7))) := rfl
theorem ang_eq : res_main_v83 V0 = Stage.angOf (Stage.gelu64 (Stage.mix (res_main_v50 V0) (Stage.agg64 (res_main_v1 V0) (res_main_v3 V0) (res_main_v50 V0)) (V0 (Proc.devRef .tc main_arg8)) (V0 (Proc.devRef .tc main_arg9)))) (V0 (Proc.devRef .tc main_arg10)) (V0 (Proc.devRef .tc main_arg11)) := rfl
theorem rot_eq : res_main_v88 V0 = Stage.rotOf (res_main_v83 V0) := rfl
theorem nrm_eq : res_main_v110 V0 = Stage.nrmOf (Stage.degOf (res_main_v3 V0)) (res_main_v1 V0) (res_main_v3 V0) := rfl
theorem transport_eq : res_main_v125 V0 = Stage.transportOf (res_main_v88 V0) (res_main_v1 V0) (res_main_v3 V0) := rfl
theorem xs0_eq : res_main_v126 V0 = Stage.xsOf (res_main_v7 V0) := rfl
theorem xs1_eq : res_main_v158 V0 = Stage.stepOf (res_main_v126 V0) (Stage.agg2x16 (res_main_v3 V0) (Stage.msgOf (res_main_v125 V0) (Stage.atSrc (res_main_v126 V0) (res_main_v1 V0)) (res_main_v110 V0))) (Stage.wd0 (V0 (Proc.devRef .tc main_arg12))) := rfl

/-- The reference's result term (the post of its generated run) is the output projection of the second diffusion step. -/
theorem out_eq : addf (Host.dotGeneral dot_S100000x32_S32x10_S100000x10_1_0_0_1_n_n none (shapeCast _ (subf (res_main_v158 V0) (mulf (res_main_v176 V0) (mulf (broadcastInDim S100000x2x16 ![] bcast_S_S100000x2x16 (constant S_ .f32 0x3F000000#32)) (addf (broadcastInDim S100000x2x16 ![] bcast_S_S100000x2x16 (constant S_ .f32 0x3F800000#32)) (Host.tanh (mulf (broadcastInDim S100000x2x16 ![] bcast_S_S100000x2x16 (constant S_ .f32 0x3F4C422A#32)) (addf (res_main_v176 V0) (mulf (broadcastInDim S100000x2x16 ![] bcast_S_S100000x2x16 (constant S_ .f32 0x3D372713#32)) (mulf (mulf (res_main_v176 V0) (res_main_v176 V0)) (res_main_v176 V0)))))))))) shapeCasts_S100000x2x16_S100000x32) (V0 (Proc.devRef .tc main_arg13))) (broadcastInDim S100000x10 ![0, 1] bcast_S1x10_S100000x10_0_1 (broadcastInDim S1x10 ![1] bcast_S10_S1x10_1 (V0 (Proc.devRef .tc main_arg14))))
    = Stage.outOf (Stage.stepOf (res_main_v158 V0) (Stage.agg2x16 (res_main_v3 V0) (Stage.msgOf (res_main_v125 V0) (Stage.atSrc (res_main_v158 V0) (res_main_v1 V0)) (res_main_v110 V0))) (Stage.wd1 (V0 (Proc.devRef .tc main_arg12)))) (V0 (Proc.devRef .tc main_arg13)) (V0 (Proc.devRef .tc main_arg14)) := rfl

end Cert.ReferenceIdeal.RefSide

end
-- ==== Proof.RefNet.lean ====
import proofs.«417419_j39436389712331_2_alg».proof.Proof.RefSide
import proofs.«417419_j39436389712331_2_alg».proof.Proof.Net

set_option maxRecDepth 16384

noncomputable section

namespace Cert.ReferenceIdeal.RefSide

open Idealize.ShloMosaic Idealize.ShloMosaic.TcCoe Idealize.SL.Sem
open Cert.ReferenceIdeal Cert.ReferenceIdeal.Gen Cert.ReferenceIdeal.Value Cert.ReferenceIdeal.Stage Idealize.ShloMosaic.StableHlo
/-! The reference program's result is the network function of its arguments: its named intermediates, in order, are the
    network's stages. -/

variable {F : FTy → Type} [FloatOps F] (V0 : Valuation τ sig (Elt F))

/-- The reference's argument arrays at the contents `V0`, bundled. -/
def rargs : Args F := ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14)⟩

theorem v7_net : res_main_v7 V0 = nH (rargs V0) := h_eq V0
theorem v24_net : res_main_v24 V0 = nM0 (rargs V0) := by rw [m0_eq, v7_net]; rfl
theorem v1_net : res_main_v1 V0 = srcOf (rargs V0).ei := src_eq V0
theorem v3_net : res_main_v3 V0 = dstOf (rargs V0).ei := dst_eq V0
theorem v50_net : res_main_v50 V0 = nM1 (rargs V0) := by rw [m1_eq, v24_net, v1_net, v3_net]; rfl
theorem v83_net : res_main_v83 V0 = nAng (rargs V0) := by rw [ang_eq, v50_net, v1_net, v3_net]; rfl
theorem v110_net : res_main_v110 V0 = nNrm (rargs V0) := by rw [nrm_eq, v1_net, v3_net]; rfl
theorem v125_net : res_main_v125 V0 = transportOf (rotOf (nAng (rargs V0))) (srcOf (rargs V0).ei) (dstOf (rargs V0).ei) := by
  rw [transport_eq, rot_eq, v83_net, v1_net, v3_net]
theorem v126_net : res_main_v126 V0 = xsOf (nH (rargs V0)) := by rw [xs0_eq, v7_net]
theorem v158_net : res_main_v158 V0 = nXs1 (rargs V0) := by
  rw [xs1_eq, v126_net, v3_net, v125_net, v1_net, v110_net]; rfl

/-- The result term the reference's run ends at (`out_eq`'s left side) is the network function. -/
theorem out_net (T : FVec F S100000x10 .f32)
    (hT : T = outOf (stepOf (res_main_v158 V0) (agg2x16 (res_main_v3 V0) (msgOf (res_main_v125 V0) (atSrc (res_main_v158 V0) (res_main_v1 V0)) (res_main_v110 V0))) (wd1 (V0 (Proc.devRef .tc main_arg12)))) (V0 (Proc.devRef .tc main_arg13)) (V0 (Proc.devRef .tc main_arg14))) :
    T = nOut (rargs V0) := by
  rw [hT, v158_net, v3_net, v125_net, v1_net, v110_net]; rfl

end Cert.ReferenceIdeal.RefSide

end
-- ==== Proof.lean ====
/-
  The certificate of the sheaf-diffusion network: a kernel program of five node-tiled regions with edge gathers and
  scatter-adds between them, against a reference that does everything with whole-array operations.

  Frames: the two kernel programs' by their generated frame runs; the reference's by its run with the result dropped.
  The idealization rewrote nothing, so there is nothing to preserve.
  Equivalence over the extended reals: both programs end at ONE function of the fifteen argument arrays, the network
  `nOut` (the stage functions composed). The kernel program: every region's output array is the stage function of the
  arrays it reads, and the only place where the two programs compute differently — the kernel rotates the source's stalk
  rows by the angle DIFFERENCE through the addition formulas, the reference multiplies by R(dst)ᵀ · R(src) — agrees
  because every sine and cosine is a real number (the angle is tanh (…) · 2π). No finiteness of the inputs is used.
-/
import proofs.«417419_j39436389712331_2_alg».proof.Defs
import proofs.«417419_j39436389712331_2_alg».proof.Proof.Gen.Kernel.Frame
import proofs.«417419_j39436389712331_2_alg».proof.Proof.Gen.KernelIdeal.Frame
import proofs.«417419_j39436389712331_2_alg».proof.Proof.Gen.Pre_finite_inputs
import proofs.«417419_j39436389712331_2_alg».proof.Proof.KernelValueRun
import proofs.«417419_j39436389712331_2_alg».proof.Proof.KernelNet
import proofs.«417419_j39436389712331_2_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Memories that agree on the fifteen arguments give the two programs the same bundle of argument arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RefSide.rargs (StableHlo.launchContents m' c) = Cert.KernelIdeal.Chain.kargs m c := by
  obtain ⟨h0, h1, h2, h3, h4, h5, h6, h7, h8, h9, h10, h11, h12, h13, h14⟩ := h
  unfold Cert.ReferenceIdeal.RefSide.rargs Cert.KernelIdeal.Chain.kargs
  rw [Cert.ReferenceIdeal.Stage.Args.mk.injEq]
  exact ⟨h0, h1, h2, h3, h4, h5, h6, h7, h8, h9, h10, h11, h12, h13, h14⟩

theorem algebraic : Cert.algebraic_KernelIdeal_ReferenceIdeal := by
  intro m ρ m' ρ' _ hagree
  refine ⟨fun c => Cert.ReferenceIdeal.Stage.nOut (Cert.KernelIdeal.Chain.kargs m c), ?_, ?_⟩
  · refine (θ_run Cert.KernelIdeal.defs _ _).mono (fun r h c => ⟨(h c).1.trans ?_, (h c).2⟩)
      (Cert.KernelIdeal.ValueRun.run_value (F := Ideal) m ρ)
    rw [Cert.KernelIdeal.Chain.w10_out, Cert.KernelIdeal.Chain.kout_net]
  · refine (θ_run Cert.ReferenceIdeal.defs _ _).mono (fun r h c => ⟨(h c).1.trans ?_, (h c).2⟩)
      (Cert.ReferenceIdeal.Value.run (F := Ideal) m' ρ')
    rw [Cert.ReferenceIdeal.RefSide.out_net (StableHlo.launchContents m' c) _ (Cert.ReferenceIdeal.RefSide.out_eq (StableHlo.launchContents m' c)),
      args_agree m m' c (hagree c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
